-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x1 : Shape := ⟨2, ![640000, 1]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg2 : IVec S640000 32) (main_v48 : IVec S_ 1) (main_v50 : IVec S640000 1) : IVec S_ 1 :=
  let main_c_19 : IVec S_ 32 := constantI S_ 32 10000#32
  let main_v51 : IVec S640000 32 := broadcastInDim S640000 ![] bcast_S_S640000 main_c_19
  let main_v52 : IVec S640000 1 := cmpi .slt main_arg2 main_v51
  let main_v53 : IVec S640000 1 := andi main_v50 main_v52
  let main_c_20 : IVec S_ 1 := constantI S_ 1 1#1
  let main_v54 : IVec S_ 1 := (fun x v => Host.reduce IntOp.andi x v reducesTo_S640000_S_d0 h_S_) main_v53 main_c_20
  let main_v55 : IVec S_ 1 := andi main_v48 main_v54
  main_v55

def fn_part2 {F : FTy → Type} [FloatOps F] (main_arg2 : IVec S640000 32) (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S640000 32 := broadcastInDim S640000 ![] bcast_S_S640000 main_c_18
  let main_v50 : IVec S640000 1 := cmpi .sge main_arg2 main_v49
  fn_part3 (F := F) main_arg2 main_v48 main_v50

def fn_part1 {F : FTy → Type} [FloatOps F] (main_arg2 : IVec S640000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S10000x128 .f32) (main_arg1 : FVec F S640000x1 .f32) (main_arg2 : IVec S640000 32) (main_arg3 : IVec S640000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x1 .f32 := Host.absf main_arg1
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_v13 main_v16
-- ==== Kernel.lean ====
abbrev S10000x128 : Shape := ⟨2, ![10000, 128]⟩
abbrev S640000x1 : Shape := ⟨2, ![640000, 1]⟩
abbrev S640000 : Shape := ⟨1, ![640000]⟩
abbrev S128x128 : Shape := ⟨2, ![128, 128]⟩
abbrev S128 : Shape := ⟨1, ![128]⟩
abbrev S_ : Shape := ⟨0, ![]⟩
abbrev S10240x128 : Shape := ⟨2, ![10240, 128]⟩
abbrev S1x640000 : Shape := ⟨2, ![1, 640000]⟩
abbrev S2x10240x256 : Shape := ⟨3, ![2, 10240, 256]⟩
abbrev S1280x1 : Shape := ⟨2, ![1280, 1]⟩
abbrev S1x1280 : Shape := ⟨2, ![1, 1280]⟩
abbrev S1x10240x256 : Shape := ⟨3, ![1, 10240, 256]⟩
abbrev S10240x256 : Shape := ⟨2, ![10240, 256]⟩
abbrev S1280x128 : Shape := ⟨2, ![1280, 128]⟩
abbrev S1x2048 : Shape := ⟨2, ![1, 2048]⟩
abbrev S1280x2048 : Shape := ⟨2, ![1280, 2048]⟩
abbrev S2048x128 : Shape := ⟨2, ![2048, 128]⟩
abbrev S1280x256 : Shape := ⟨2, ![1280, 256]⟩
abbrev S2048x1 : Shape := ⟨2, ![2048, 1]⟩
abbrev S2048x1280 : Shape := ⟨2, ![2048, 1280]⟩
abbrev S2048x256 : Shape := ⟨2, ![2048, 256]⟩
abbrev S1x10000x256 : Shape := ⟨3, ![1, 10000, 256]⟩
abbrev S10000x256 : Shape := ⟨2, ![10000, 256]⟩
abbrev S10000 : Shape := ⟨1, ![10000]⟩
abbrev S10000x1 : Shape := ⟨2, ![10000, 1]⟩
abbrev S1x128 : Shape := ⟨2, ![1, 128]⟩
abbrev S1000x128 : Shape := ⟨2, ![1000, 128]⟩

abbrev nBuf : Space → Nat
  | .hbm => 49
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S640000x1, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10000x128, .bf16⟩
  | .hbm, ⟨13, _⟩ => ⟨S_, .i32⟩
  | .hbm, ⟨14, _⟩ => ⟨S_, .bf16⟩
  | .hbm, ⟨15, _⟩ => ⟨S10240x128, .bf16⟩
  | .hbm, ⟨16, _⟩ => ⟨S640000x1, .i32⟩
  | .hbm, ⟨17, _⟩ => ⟨S1x640000, .i32⟩
  | .hbm, ⟨18, _⟩ => ⟨S2x10240x256, .f32⟩
  | .hbm, ⟨19, _⟩ => ⟨S1x10000x256, .f32⟩
  | .hbm, ⟨20, _⟩ => ⟨S10000x256, .f32⟩
  | .hbm, ⟨21, _⟩ => ⟨S1x10000x256, .f32⟩
  | .hbm, ⟨22, _⟩ => ⟨S10000x256, .f32⟩
  | .hbm, ⟨23, _⟩ => ⟨S10000x256, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S10000, .f32⟩
  | .hbm, ⟨30, _⟩ => ⟨S640000x1, .i32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S10000x128, .f32⟩
  | .local _ .vmem, ⟨0, _⟩ => ⟨S1280x1, .i32⟩
  | .local _ .vmem, ⟨1, _⟩ => ⟨S1280x1, .i32⟩
  | .local _ .vmem, ⟨2, _⟩ => ⟨S1x1280, .i32⟩
  | .local _ .vmem, ⟨3, _⟩ => ⟨S1x1280, .i32⟩
  | .local _ .vmem, ⟨4, _⟩ => ⟨S1280x1, .f32⟩
  | .local _ .vmem, ⟨5, _⟩ => ⟨S1280x1, .f32⟩
  | .local _ .vmem, ⟨6, _⟩ => ⟨S10240x128, .bf16⟩
  | .local _ .vmem, ⟨7, _⟩ => ⟨S1x10240x256, .f32⟩
  | .local _ .vmem, ⟨8, _⟩ => ⟨S10240x256, .f32⟩
  | .local _ .vmem, ⟨9, _⟩ => ⟨S1280x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨2, ![2, 250], ![false, false]⟩

@[reducible] def k0_t1_loop : Scf.Loop 32 :=
  let c0_i32_8 : BitVec 32 := 0#32
  let c5_i32 : BitVec 32 := 5#32
  let v12 : BitVec 32 := Scalar.addi c0_i32_8 c5_i32
  let c1_i32 : BitVec 32 := 1#32
  ⟨c0_i32_8, v12, c1_i32⟩
def k0_mult1 (k0_t1 : Fin k0_t1_loop.trips) : BitVec 32 :=
  let c0_i32_18 : BitVec 32 := 0#32
  let c0_i32_8 : BitVec 32 := 0#32
  let c1_i32 : BitVec 32 := 1#32
  let arg9 : BitVec 32 := Scf.iv c0_i32_8 c1_i32 k0_t1
  let c1_i32_17 : BitVec 32 := 1#32
  let v23 : BitVec 32 := Scalar.muli arg9 c1_i32_17
  let v24 : BitVec 32 := Scalar.addi c0_i32_18 v23
  let c2048_i32 : BitVec 32 := 2048#32
  let v25 : BitVec 32 := Scalar.muli v24 c2048_i32
  v25
def k0_off1 (k0_t1 : Fin k0_t1_loop.trips) : Fin 2 → Nat :=
  let c0_i32_18 : BitVec 32 := 0#32
  let c0_i32_8 : BitVec 32 := 0#32
  let c1_i32 : BitVec 32 := 1#32
  let arg9 : BitVec 32 := Scf.iv c0_i32_8 c1_i32 k0_t1
  let c1_i32_17 : BitVec 32 := 1#32
  let v23 : BitVec 32 := Scalar.muli arg9 c1_i32_17
  let v24 : BitVec 32 := Scalar.addi c0_i32_18 v23
  let c2048_i32 : BitVec 32 := 2048#32
  let v25 : BitVec 32 := Scalar.muli v24 c2048_i32
  let v26 : BitVec 32 := v25
  let v36 : Index := Scalar.indexCast v26
  let c0_19 : Index := 0#32
  ![v36.toNat, 0]
@[reducible] def k0_t2_loop : Scf.Loop 32 :=
  let c0_i32_12 : BitVec 32 := 0#32
  let c5_i32_13 : BitVec 32 := 5#32
  let v19 : BitVec 32 := Scalar.addi c0_i32_12 c5_i32_13
  let c1_i32_14 : BitVec 32 := 1#32
  ⟨c0_i32_12, v19, c1_i32_14⟩
def k0_mult2 (k0_t2 : Fin k0_t2_loop.trips) : BitVec 32 :=
  let c0_i32_18 : BitVec 32 := 0#32
  let c0_i32_12 : BitVec 32 := 0#32
  let c1_i32_14 : BitVec 32 := 1#32
  let arg9 : BitVec 32 := Scf.iv c0_i32_12 c1_i32_14 k0_t2
  let c1_i32_17 : BitVec 32 := 1#32
  let v23 : BitVec 32 := Scalar.muli arg9 c1_i32_17
  let v24 : BitVec 32 := Scalar.addi c0_i32_18 v23
  let c2048_i32 : BitVec 32 := 2048#32
  let v25 : BitVec 32 := Scalar.muli v24 c2048_i32
  v25
def k0_off2 (k0_t2 : Fin k0_t2_loop.trips) : Fin 2 → Nat :=
  let c0_i32_18 : BitVec 32 := 0#32
  let c0_i32_12 : BitVec 32 := 0#32
  let c1_i32_14 : BitVec 32 := 1#32
  let arg9 : BitVec 32 := Scf.iv c0_i32_12 c1_i32_14 k0_t2
  let c1_i32_17 : BitVec 32 := 1#32
  let v23 : BitVec 32 := Scalar.muli arg9 c1_i32_17
  let v24 : BitVec 32 := Scalar.addi c0_i32_18 v23
  let c2048_i32 : BitVec 32 := 2048#32
  let v25 : BitVec 32 := Scalar.muli v24 c2048_i32
  let v26 : BitVec 32 := v25
  let v37 : Index := Scalar.indexCast v26
  let c0_20 : Index := 0#32
  ![v37.toNat, 0]
def k0_cond2 (i : grid0.Coords) : BitVec 1 :=
  let arg1 : BitVec 32 := BitVec.ofNat 32 (i 1).val
  let c249_i32 : BitVec 32 := 249#32
  let v20 : BitVec 1 := Scalar.cmpi .eq arg1 c249_i32
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1280x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10240x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x10240x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  shapeCasts_S640000_S640000x1 : S640000.ShapeCasts S640000x1
  shapeCasts_S640000_S1x640000 : S640000.ShapeCasts S1x640000
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  iota_S1x2048_d1_w32 : S1x2048.Iotas .tc 32 [1]
  broadcasts_S1280x1_S1280x2048 : S1280x1.Broadcasts S1280x2048
  broadcasts_S1x2048_S1280x2048 : S1x2048.Broadcasts S1280x2048
  natLt_1_32 : 1 < 32
  h_S2048x128 : 0 < S2048x128.numel
  shapeCasts_S2048x128_S2048x128 : S2048x128.ShapeCasts S2048x128
  broadcasts_S1280x1_S1280x128 : S1280x1.Broadcasts S1280x128
  concatenates_S1280x128_S1280x128_S1280x256_d1 : Shape.Concatenates [S1280x128, S1280x128] S1280x256 1
  iota_S2048x1_d0_w32 : S2048x1.Iotas .tc 32 [0]
  broadcasts_S2048x1_S2048x1280 : S2048x1.Broadcasts S2048x1280
  broadcasts_S1x1280_S2048x1280 : S1x1280.Broadcasts S2048x1280
  h_S2048x256 : 0 < S2048x256.numel
  shapeCasts_S2048x256_S2048x256 : S2048x256.ShapeCasts S2048x256
  inb_S1x10240x256_S1x10240x256_0_0_0 : ∀ a, (![0, 0, 0] : Fin 3 → Nat) a + S1x10240x256.size a ≤ S1x10240x256.size a
  h_S1x10240x256 : 0 < S1x10240x256.numel
  shapeCasts_S1x10240x256_S10240x256 : S1x10240x256.ShapeCasts S10240x256
  shapeCasts_S10240x256_S1x10240x256 : S10240x256.ShapeCasts S1x10240x256
  slices_S2x10240x256_S1x10000x256_0_0_0 : S2x10240x256.Slices ![0, 0, 0] S1x10000x256
  shapeCasts_S1x10000x256_S10000x256 : S1x10000x256.ShapeCasts S10000x256
  slices_S2x10240x256_S1x10000x256_1_0_0 : S2x10240x256.Slices ![1, 0, 0] S1x10000x256
  slices_S10000x256_S10000x128_0_0 : S10000x256.Slices ![0, 0] S10000x128
  slices_S10000x256_S10000x128_0_128 : S10000x256.Slices ![0, 128] S10000x128
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S1280x2048_S2048x128_S1280x128_1_0_0_1_n_n_wf : DotDims.WF S1280x2048 S2048x128 S1280x128 [1] [0] [0] [1] [] []
  dot_S2048x1280_S1280x256_S2048x256_1_0_0_1_n_n_wf : DotDims.WF S2048x1280 S1280x256 S2048x256 [1] [0] [0] [1] [] []
  scatter_S10000_S640000x1_S640000_n_0_0_1_wf : ScatterDims.WF S10000 S640000x1 S640000 [] [0] [0] 1
  dot_S1000x128_S128x128_S1000x128_1_0_0_1_n_n_wf : DotDims.WF S1000x128 S128x128 S1000x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S10240x128.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S2048x256.size a ≤ S10240x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1.size a ≤ S640000x1.size a
  hwx0_0 : ∀ i : grid0.Coords, EltTy.bits .i32 = 32 ∨ (Rect.block (s := S640000x1) S1280x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x640000.size a
  hwx0_1 : ∀ i : grid0.Coords, EltTy.bits .i32 = 32 ∨ (Rect.block (s := S1x640000) S1x1280.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x1.size a ≤ S640000x1.size a
  hwx0_2 : ∀ i : grid0.Coords, EltTy.bits .f32 = 32 ∨ (Rect.block (s := S640000x1) S1280x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10240x128.size a ≤ S10240x128.size a
  hwx0_3 : ∀ i : grid0.Coords, EltTy.bits .bf16 = 32 ∨ (Rect.block (s := S10240x128) S10240x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10240x256.size a ≤ S2x10240x256.size a
  hwx0_4 : ∀ i : grid0.Coords, EltTy.bits .f32 = 32 ∨ (Rect.block (s := S2x10240x256) S1x10240x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x128.size a ≤ S10000x128.size a
  hwx1_11 : ∀ i : grid1.Coords, EltTy.bits .f32 = 32 ∨ (Rect.block (s := S10000x128) S1000x128.size (cc1_transform_11 i) (hinb1_11 i)).WholeWords (EltTy.packing .f32)

variable [Facts₀]

def dot_S1280x2048_S2048x128_S1280x128_1_0_0_1_n_n : DotDims S1280x2048 S2048x128 S1280x128 where
  lhsContracting := [1]
  rhsContracting := [0]
  lhsNonContracting := [0]
  rhsNonContracting := [1]
  lhsBatch := []
  rhsBatch := []
  wf := dot_S1280x2048_S2048x128_S1280x128_1_0_0_1_n_n_wf
def dot_S2048x1280_S1280x256_S2048x256_1_0_0_1_n_n : DotDims S2048x1280 S1280x256 S2048x256 where
  lhsContracting := [1]
  rhsContracting := [0]
  lhsNonContracting := [0]
  rhsNonContracting := [1]
  lhsBatch := []
  rhsBatch := []
  wf := dot_S2048x1280_S1280x256_S2048x256_1_0_0_1_n_n_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v2) S1280x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1280x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10240x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x10240x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S1000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x1 : Shape := ⟨2, ![640000, 1]⟩
abbrev S640000 : Shape := ⟨1, ![640000]⟩
abbrev S128x128 : Shape := ⟨2, ![128, 128]⟩
abbrev S128 : Shape := ⟨1, ![128]⟩
abbrev S_ : Shape := ⟨0, ![]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x1, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S10000x128, .f32⟩
  | .hbm, ⟨25, _⟩ => ⟨S640000x1, .i32⟩
  | .hbm, ⟨26, _⟩ => ⟨S10000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S10000, .f32⟩
  | .hbm, ⟨31, _⟩ => ⟨S640000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S10000x128, .f32⟩
  | .hbm, ⟨41, _⟩ => ⟨S640000x1, .i32⟩
  | .hbm, ⟨42, _⟩ => ⟨S10000x128, .f32⟩
  | .hbm, ⟨43, _⟩ => ⟨S_, .f32⟩
  | .hbm, ⟨44, _⟩ => ⟨S640000, .f32⟩
  | .hbm, ⟨45, _⟩ => ⟨S_, .f32⟩
  | .hbm, ⟨46, _⟩ => ⟨S10000, .f32⟩
  | .hbm, ⟨47, _⟩ => ⟨S640000x1, .i32⟩
  | .hbm, ⟨48, _⟩ => ⟨S10000, .f32⟩
  | .hbm, ⟨49, _⟩ => ⟨S_, .f32⟩
  | .hbm, ⟨50, _⟩ => ⟨S10000, .f32⟩
  | .hbm, ⟨51, _⟩ => ⟨S10000, .f32⟩
  | .hbm, ⟨52, _⟩ => ⟨S10000x1, .f32⟩
  | .hbm, ⟨53, _⟩ => ⟨S10000x128, .f32⟩
  | .hbm, ⟨54, _⟩ => ⟨S10000x128, .f32⟩
  | .hbm, ⟨55, _⟩ => ⟨S128x128, .f32⟩
  | .hbm, ⟨56, _⟩ => ⟨S10000x128, .f32⟩
  | .hbm, ⟨57, _⟩ => ⟨S1x128, .f32⟩
  | .hbm, ⟨58, _⟩ => ⟨S10000x128, .f32⟩
  | .hbm, ⟨59, _⟩ => ⟨S10000x128, .f32⟩
  | .hbm, ⟨60, _⟩ => ⟨S128x128, .f32⟩
  | .hbm, ⟨61, _⟩ => ⟨S10000x128, .f32⟩
  | .hbm, ⟨62, _⟩ => ⟨S1x128, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S128x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S128x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Agg.Base.lean ====
/-
  The aggregation call (grid 2 × 250, flat point t = 250·core + j): the facts its whole-body runs share.
  The body resets the running sum exactly at j = 0 and copies it to the output block exactly at j = 249;
  the output window is idle, and not written back, at every other point.
-/
import proofs.«401586_j49615462203743_3_alg».proof.Proof.Gen.KernelIdeal.Launch
import proofs.«401586_j49615462203743_3_alg».proof.Proof.Gen.KernelIdeal.Skeleton
import proofs.«401586_j49615462203743_3_alg».proof.Proof.Gen.KernelIdeal.Points
import proofs.«401586_j49615462203743_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch of the body is taken: the edge-block coordinate j is 0 (the running sum is reset). -/
abbrev condReset (i : grid0.Coords) : Prop :=
  (Scalar.cmpi .ne (Scalar.extui (Scalar.cmpi .eq (BitVec.ofNat 32 (i 1).val) 0#32)) 0#32) = 1#1
/-- In flat points: t ≡ 0 (mod 250). -/
theorem hcondReset : ∀ t : Fin cfg0.N, condReset (grid0.coords t) ↔ t.val % 250 = 0 :=
  (by decide +kernel : ∀ t : Fin grid0.N, condReset (grid0.coords t) ↔ t.val % 250 = 0)

/-- The last branch of the body is taken: j = 249 (the running sum is copied to the output block). -/
abbrev condLast (i : grid0.Coords) : Prop := k0_cond2 i = 1#1
/-- In flat points: t ≡ 249 (mod 250). -/
theorem hcondLast : ∀ t : Fin cfg0.N, condLast (grid0.coords t) ↔ t.val % 250 = 249 :=
  (by decide +kernel : ∀ t : Fin grid0.N, condLast (grid0.coords t) ↔ t.val % 250 = 249)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly away from j = 249, and is not written back there. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- Each window's current staging memref at point t, as the pipeline passes it to the body, and its wholeness. -/
abbrev ms0 (t : Fin cfg0.N) : Memref sig .tc .vmem S1280x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1280 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1280x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S10240x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x10240x256 .f32 := win0_4.stage (cfg0.slots t 4)
abbrev hs4 (t : Fin cfg0.N) : (ms4 t).IsWhole := hstage0_4 ((cfg0.slots t 4).cast nbuf0_4)
/-- The two scratch operands: the running sum (carried from point to point) and the gathered rows (rebuilt at every point). -/
abbrev scSum : Memref sig .tc .vmem S10240x256 .f32 := Memref.whole cc0_scratch0
abbrev scRows : Memref sig .tc .vmem S1280x128 .f32 := Memref.whole cc0_scratch1
/-- Views through which the running sum and the output block are stated. -/
abbrev VSum : View sig .tc .vmem S10240x256 .f32 := scSum.view
abbrev VOut : View sig .tc .vmem S1x10240x256 .f32 := (Memref.whole cc0_stg4_0 : Memref sig .tc .vmem S1x10240x256 .f32).view

end Cert.KernelIdeal.Agg

end
-- ==== Proof.Agg.RunFirst.lean ====
/-
  The aggregation body at the first edge block of a core's share (j = 0): the running sum is first reset to
  zero whole, then this block's scattered messages are added, chunk by chunk. The output block is not touched.
  What the running sum held before does not matter; its pieces begin with the whole-buffer reset.
-/
import proofs.«401586_j49615462203743_3_alg».proof.Proof.Agg.Base

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole)
    (hc0 : condReset i) (hc1 : ¬condLast i)
    (x0 : Vec F S1280x1 .i32) (x1 : Vec F S1x1280 .i32) (x2 : Vec F S1280x1 .f32) (x3 : Vec F S10240x128 .bf16) :
    { LS : List (View.Piece (Elt F) S10240x256 .f32) //
      ∀ (xi : Vec F S1x10240x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ (∃ d, owns (c : Thread nD τ) arg7 fullShare d)
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
                ∗ (∃ f, arg7.view.loc (c : Thread nD τ) ↦[arg7.view.set]{fullShare} arg7.view.writes (Elt F) f LS)
                ∗ (∃ f, arg8.view.loc (c : Thread nD τ) ↦[arg8.view.set]{fullShare} f)) -∗ K ⟨⟩))
          ⊢ wp frame (wpE (defs₀ (F := F)) Variants.none c none) E (cc0__agg_kernel i arg2 harg2 arg3 harg3 arg4 harg4 arg5 harg5 arg6 harg6 arg7 harg7 arg8 harg8) K } := by
  refine ⟨?_, fun xi E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]
    · iexists _; iexact HS
    iexists _; iexact H8

end Cert.KernelIdeal.Agg

end
-- ==== Proof.Agg.RunMid.lean ====
/-
  The aggregation body at a middle point (0 < j < 249): neither branch is taken. From the running sum as the
  point before left it, the body rebuilds the gathered rows (first loop) and adds this block's scattered
  messages into the running sum, five row chunks of 2048 (second loop). The output block is not touched.
  The pieces written into the running sum are found by the run itself.
-/
import proofs.«401586_j49615462203743_3_alg».proof.Proof.Agg.Base

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole)
    (hc0 : ¬condReset i) (hc1 : ¬condLast i)
    (x0 : Vec F S1280x1 .i32) (x1 : Vec F S1x1280 .i32) (x2 : Vec F S1280x1 .f32) (x3 : Vec F S10240x128 .bf16) (xs : Vec F S10240x256 .f32) :
    { LS : List (View.Piece (Elt F) S10240x256 .f32) //
      ∀ (xi : Vec F S1x10240x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ owns (c : Thread nD τ) arg7 fullShare xs
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi
                ∗ (arg7.view.loc (c : Thread nD τ) ↦[arg7.view.set]{fullShare} arg7.view.writes (Elt F) (harg7.unread xs) LS)
                ∗ (∃ f, arg8.view.loc (c : Thread nD τ) ↦[arg8.view.set]{fullShare} f)) -∗ K ⟨⟩))
          ⊢ wp frame (wpE (defs₀ (F := F)) Variants.none c none) E (cc0__agg_kernel i arg2 harg2 arg3 harg3 arg4 harg4 arg5 harg5 arg6 harg6 arg7 harg7 arg8 harg8) K } := by
  refine ⟨?_, fun xi E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]
    · iexact HS
    iexists _; iexact H8

end Cert.KernelIdeal.Agg

end
-- ==== Proof.Agg.RunLast.lean ====
/-
  The aggregation body at the last edge block of a core's share (j = 249): this block's scattered messages are
  added to the running sum as the point before left it, and the running sum is then copied whole into the
  output block, which the pipeline writes back after this point.
-/
import proofs.«401586_j49615462203743_3_alg».proof.Proof.Agg.Base

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole)
    (hc0 : ¬condReset i) (hc1 : condLast i)
    (x0 : Vec F S1280x1 .i32) (x1 : Vec F S1x1280 .i32) (x2 : Vec F S1280x1 .f32) (x3 : Vec F S10240x128 .bf16) (xs : Vec F S10240x256 .f32) :
    Σ' (LO : List (View.Piece (Elt F) S1x10240x256 .f32)), { LS : List (View.Piece (Elt F) S10240x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs) LS)
                ∗ (∃ f, arg8.view.loc (c : Thread nD τ) ↦[arg8.view.set]{fullShare} f)) -∗ K ⟨⟩))
          ⊢ wp frame (wpE (defs₀ (F := F)) Variants.none c none) E (cc0__agg_kernel i arg2 harg2 arg3 harg3 arg4 harg4 arg5 harg5 arg6 harg6 arg7 harg7 arg8 harg8) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, ⟨%d8, %f8, -, H8⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS]
    · iexact HS
    iexists _; iexact H8

end Cert.KernelIdeal.Agg

end
-- ==== Proof.Agg.Pieces.lean ====
/-
  What each case of the aggregation body leaves in the running sum and in the output block, as the pieces its
  whole-body run found, read back; and that the first point's pieces cover the running sum (they begin with the
  whole-buffer reset) and the last point's store covers the output block.
-/
import proofs.«401586_j49615462203743_3_alg».proof.Proof.Agg.RunFirst
import proofs.«401586_j49615462203743_3_alg».proof.Proof.Agg.RunMid
import proofs.«401586_j49615462203743_3_alg».proof.Proof.Agg.RunLast

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The running sum after a first point (j = 0): the run's pieces — a whole-buffer reset first — over anything. -/
def sumFirst (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : condReset i) (hc1 : ¬condLast i) (x0 : Vec F S1280x1 .i32) (x1 : Vec F S1x1280 .i32) (x2 : Vec F S1280x1 .f32) (x3 : Vec F S10240x128 .bf16) : Vec F S10240x256 .f32 :=
  arg7.view.read (Elt F) (arg7.view.writes (Elt F) arg7.view.junk (runFirst c i arg2 harg2 arg3 harg3 arg4 harg4 arg5 harg5 arg6 harg6 arg7 harg7 arg8 harg8 hc0 hc1 x0 x1 x2 x3).1)

/-- The first point's pieces cover the running sum (they include the whole-buffer reset), so what they leave does
    not depend on what was there. -/
theorem coverFirst (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : condReset i) (hc1 : ¬condLast i) (x0 : Vec F S1280x1 .i32) (x1 : Vec F S1x1280 .i32) (x2 : Vec F S1280x1 .f32) (x3 : Vec F S10240x128 .bf16) (y : S10240x256.Idx) :
    ∃ pc ∈ (runFirst c i arg2 harg2 arg3 harg3 arg4 harg4 arg5 harg5 arg6 harg6 arg7 harg7 arg8 harg8 hc0 hc1 x0 x1 x2 x3).1, y ∈ pc.1.set := by
  refine View.cover_of_wholeMem _ ?_ y
  unfold runFirst
  dsimp only
  sl_whole_mem

/-- The running sum after a middle point: the run's pieces over what the point before left. -/
def sumMid (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : ¬condLast i) (x0 : Vec F S1280x1 .i32) (x1 : Vec F S1x1280 .i32) (x2 : Vec F S1280x1 .f32) (x3 : Vec F S10240x128 .bf16) (xs : Vec F S10240x256 .f32) : Vec F S10240x256 .f32 :=
  arg7.view.read (Elt F) (arg7.view.writes (Elt F) (harg7.unread xs) (runMid c i arg2 harg2 arg3 harg3 arg4 harg4 arg5 harg5 arg6 harg6 arg7 harg7 arg8 harg8 hc0 hc1 x0 x1 x2 x3 xs).1)

/-- The running sum after a last point (j = 249): likewise. -/
def sumLast (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec F S1280x1 .i32) (x1 : Vec F S1x1280 .i32) (x2 : Vec F S1280x1 .f32) (x3 : Vec F S10240x128 .bf16) (xs : Vec F S10240x256 .f32) : Vec F S10240x256 .f32 :=
  arg7.view.read (Elt F) (arg7.view.writes (Elt F) (harg7.unread xs) (runLast c i arg2 harg2 arg3 harg3 arg4 harg4 arg5 harg5 arg6 harg6 arg7 harg7 arg8 harg8 hc0 hc1 x0 x1 x2 x3 xs).2.1)

/-- The output block after a last point: the run's one whole-block store read back. -/
def outLast (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec F S1280x1 .i32) (x1 : Vec F S1x1280 .i32) (x2 : Vec F S1280x1 .f32) (x3 : Vec F S10240x128 .bf16) (xs : Vec F S10240x256 .f32) : Vec F S1x10240x256 .f32 :=
  arg6.view.read (Elt F) (arg6.view.writes (Elt F) arg6.view.junk (runLast c i arg2 harg2 arg3 harg3 arg4 harg4 arg5 harg5 arg6 harg6 arg7 harg7 arg8 harg8 hc0 hc1 x0 x1 x2 x3 xs).1)

/-- The last point's store covers the output block. -/
theorem coverOut (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec F S1280x1 .i32) (x1 : Vec F S1x1280 .i32) (x2 : Vec F S1280x1 .f32) (x3 : Vec F S10240x128 .bf16) (xs : Vec F S10240x256 .f32) (y : S1x10240x256.Idx) :
    ∃ pc ∈ (runLast c i arg2 harg2 arg3 harg3 arg4 harg4 arg5 harg5 arg6 harg6 arg7 harg7 arg8 harg8 hc0 hc1 x0 x1 x2 x3 xs).1, y ∈ pc.1.set := by
  refine View.cover_of_wholeMem _ ?_ y
  unfold runLast
  dsimp only
  sl_whole_mem

end Cert.KernelIdeal.Agg

end
-- ==== Proof.Agg.Dat.lean ====
/-
  The aggregation call's proof data. The pipeline calls the body at the 500 flat points t = 250·core + j in
  order. The running sum (a scratch buffer the body keeps from point to point) is reset at j = 0 and then
  receives every edge block's scattered messages; at j = 249 it is copied to the output block, which the
  pipeline writes back to slice `core` of the result array. Here: what the running sum holds after each point
  (`sumAt`, by recursion on the point, each case's contents being what that case's run leaves), the region
  invariant carrying it, and the body obligation by cases on the point.
-/
import proofs.«401586_j49615462203743_3_alg».proof.Proof.Agg.Pieces

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The windows' blocks, at the contents `V` the region is entered with -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The running sum after each point -/

/-- What the running sum holds after the body at flat position `n`: the case the position is in, run at the
    point's memrefs and input blocks, over what the position before left. -/
def sumAt (c : Dev nD) : (n : ℕ) → n < cfg0.N → Vec F S10240x256 .f32
  | 0, hn => sumFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scSum (Memref.isWhole_whole _) scRows (Memref.isWhole_whole _) ((hcondReset ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 250 = 0 then
      if h1 : (n + 1) % 250 = 249 then False.elim (by omega)
      else sumFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scSum (Memref.isWhole_whole _) scRows (Memref.isWhole_whole _) ((hcondReset ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩)
    else
      if h1 : (n + 1) % 250 = 249 then
        sumLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scSum (Memref.isWhole_whole _) scRows (Memref.isWhole_whole _) (fun h => h0 ((hcondReset ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (sumAt c n (Nat.lt_of_succ_lt hn))
      else
        sumMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scSum (Memref.isWhole_whole _) scRows (Memref.isWhole_whole _) (fun h => h0 ((hcondReset ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (sumAt c n (Nat.lt_of_succ_lt hn))

/-- `sumAt` at a first point. -/
theorem sumAt_first (c : Dev nD) (t : Fin cfg0.N) (h0 : t.val % 250 = 0) (h1 : ¬t.val % 250 = 249) :
    sumAt V c t.val t.isLt = sumFirst c (grid0.coords t) (ms0 t) (hs0 t) (ms1 t) (hs1 t) (ms2 t) (hs2 t) (ms3 t) (hs3 t) (ms4 t) (hs4 t) scSum (Memref.isWhole_whole _) scRows (Memref.isWhole_whole _) ((hcondReset t).mpr h0) (fun h => h1 ((hcondLast t).mp h)) (iblk V c 0 t) (iblk V c 1 t) (iblk V c 2 t) (iblk V c 3 t) := by
  obtain ⟨n, hn⟩ := t
  cases n with
  | zero => exact rfl
  | succ n => exact (dif_pos h0).trans ((dif_neg h1).trans rfl)

/-- `sumAt` at a middle point, over what the point before left. -/
theorem sumAt_mid (c : Dev nD) (t : Fin cfg0.N) (h0 : ¬t.val % 250 = 0) (h1 : ¬t.val % 250 = 249) :
    sumAt V c t.val t.isLt = sumMid c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) (fun h => h1 ((hcondLast t).mp h)) (iblk V c 0 t) (iblk V c 1 t) (iblk V c 2 t) (iblk V c 3 t) (sumAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `sumAt` at a last point, over what the point before left. -/
theorem sumAt_last (c : Dev nD) (t : Fin cfg0.N) (h0 : ¬t.val % 250 = 0) (h1 : t.val % 250 = 249) :
    sumAt V c t.val t.isLt = sumLast c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (iblk V c 0 t) (iblk V c 1 t) (iblk V c 2 t) (iblk V c 3 t) (sumAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: at a last point the copy of the running sum; elsewhere the
    window is idle and this value is never consulted. -/
def outAt (c : Dev nD) (t : Fin cfg0.N) : Vec F S1x10240x256 .f32 :=
  if h1 : t.val % 250 = 249 then
    if h0 : t.val % 250 = 0 then False.elim (by omega)
    else outLast c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (iblk V c 0 t) (iblk V c 1 t) (iblk V c 2 t) (iblk V c 3 t) (sumAt V c (t.val - 1) (Nat.lt_of_le_of_lt (Nat.sub_le _ _) t.isLt))
  else VOut.read (Elt F) VOut.junk

theorem outAt_last (c : Dev nD) (t : Fin cfg0.N) (h0 : ¬t.val % 250 = 0) (h1 : t.val % 250 = 249) :
    outAt V c t = outLast c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (iblk V c 0 t) (iblk V c 1 t) (iblk V c 2 t) (iblk V c 3 t) (sumAt V c (t.val - 1) (Nat.lt_of_le_of_lt (Nat.sub_le _ _) t.isLt)) := by
  unfold outAt; rw [dif_pos h1, dif_neg h0]

/-! ## The region invariant -/

/-- The core's scoped buffers the aggregation call neither stages nor uses (the combine call's staging buffers). -/
abbrev restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The class invariant, spelled: the two scratch buffers at anything, the other scoped buffers, the generator register. -/
theorem PhiA0_eq (c : Dev nD) :
    (Pipeline.ΦA spec0 c : sProp 𝕄)
      = iprop(iprop((∃ d, owns (c : Thread nD τ) scSum fullShare d) ∗ (∃ d, owns (c : Thread nD τ) scRows fullShare d) ∗ restOther c) ∗ (∃ r, prngReg c r)) := by
  unfold Pipeline.ΦA; rw [scopedRest0_eq]; simp only [scSum, scRows, owns_whole]; try rfl

/-- The invariant before position `n`: before the first point the class's; afterwards the same with the running
    sum at what the position before left. -/
def PhiS (c : Dev nD) : (n : ℕ) → n ≤ cfg0.N → sProp 𝕄
  | 0, _ => Pipeline.ΦA spec0 c
  | n + 1, hn => iprop(iprop(owns (c : Thread nD τ) scSum fullShare (sumAt V c n hn) ∗ (∃ d, owns (c : Thread nD τ) scRows fullShare d) ∗ restOther c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scSum fullShare (sumAt V c n hn) ∗ (∃ d, owns (c : Thread nD τ) scRows fullShare d) ∗ restOther c) ∗ (∃ r, prngReg c r)) := rfl

theorem PhiS_pos (c : Dev nD) (n : ℕ) (h : n ≤ cfg0.N) (hz : n ≠ 0) :
    PhiS V c n h = iprop(iprop(owns (c : Thread nD τ) scSum fullShare (sumAt V c (n - 1) (by omega)) ∗ (∃ d, owns (c : Thread nD τ) scRows fullShare d) ∗ restOther c) ∗ (∃ r, prngReg c r)) := by
  cases n with
  | zero => exact absurd rfl hz
  | succ n => rfl

/-! ## The proof data -/

/-- The aggregation call's proof data on core `c`: the arrays as the region finds them; after the body each input's
    buffer at its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = outAt V c t := by dsimp only [dat0]

theorem before0_0 (c : Dev nD) (t : Fin cfg0.N) (d) : (dat0 V c).before 0 t d = iblk V c 0 t :=
  before0_of V (dat0 V c) (A_eq0 V c 0) (after0_0 V c) t d
theorem before0_1 (c : Dev nD) (t : Fin cfg0.N) (d) : (dat0 V c).before 1 t d = iblk V c 1 t :=
  before1_of V (dat0 V c) (A_eq0 V c 1) (after0_1 V c) t d
theorem before0_2 (c : Dev nD) (t : Fin cfg0.N) (d) : (dat0 V c).before 2 t d = iblk V c 2 t :=
  before2_of V (dat0 V c) (A_eq0 V c 2) (after0_2 V c) t d
theorem before0_3 (c : Dev nD) (t : Fin cfg0.N) (d) : (dat0 V c).before 3 t d = iblk V c 3 t :=
  before3_of V (dat0 V c) (A_eq0 V c 3) (after0_3 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' memrefs hold their blocks; the point's case is decided by the closed forms;
    the invariant hands the body the running sum at what the point before left (at anything at the very first
    point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 500 := lt_of_lt_of_eq t.isLt (show cfg0.N = 500 from N_0)
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  rw [show (dat0 V c).leavesExact 3 t = owns (c : Thread nD τ) (ms3 t) fullShare ((dat0 V c).after 3 t) from by
    unfold Dat.leavesExact; rw [live3 t], after0_3]
  by_cases h0 : t.val % 250 = 0
  · have h1 : ¬t.val % 250 = 249 := by omega
    rw [Dat.leavesExact_idle (dat0 V c) 4 t (idle4 t (fun h => h1 ((hcondLast t).mp h))) (noFlush4 t (fun h => h1 ((hcondLast t).mp h)))]
    rw [sumAt_first V c t h0 h1]
    unfold sumFirst; (try dsimp only)
    by_cases hz : t.val = 0
    ·
      rw [PhiS_castSucc V c t, PhiS_zero V c _ _ hz, PhiA0_eq]
      iintro ⟨⟨⟨HS, HR, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondReset t).mpr h0) (fun h => h1 ((hcondLast t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      isplitl [HR]; · iexact HR
      iintro ⟨H0, H1, H2, H3, H4, ⟨%es, HS⟩, ⟨%e8, H8⟩⟩
      isplitl [HS H8 Hrest Hg]
      · isplitl [HS H8 Hrest]
        · isplitl [HS]
          · unfold owns; iexists _; isplitr
            swap; · iexact HS
            ipureintro; exact View.read_writes_of_cover _ _ _ _ _ (coverFirst c _ _ _ _ _ _ _ _ _ _ _ _ _ _ _ _ _ _ _ _ _)
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      iexists _; iexact H4
    ·
      rw [PhiS_castSucc V c t, PhiS_pos V c _ _ hz]
      iintro ⟨⟨⟨HS, HR, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondReset t).mpr h0) (fun h => h1 ((hcondLast t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      isplitl [HR]; · iexact HR
      iintro ⟨H0, H1, H2, H3, H4, ⟨%es, HS⟩, ⟨%e8, H8⟩⟩
      isplitl [HS H8 Hrest Hg]
      · isplitl [HS H8 Hrest]
        · isplitl [HS]
          · unfold owns; iexists _; isplitr
            swap; · iexact HS
            ipureintro; exact View.read_writes_of_cover _ _ _ _ _ (coverFirst c _ _ _ _ _ _ _ _ _ _ _ _ _ _ _ _ _ _ _ _ _)
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 250 = 249
    · rw [show (dat0 V c).leavesExact 4 t = owns (c : Thread nD τ) (ms4 t) fullShare ((dat0 V c).after 4 t) from by
        unfold Dat.leavesExact; rw [live4 t ((hcondLast t).mpr h1)], after0_4, outAt_last V c t h0 h1]
      rw [sumAt_last V c t h0 h1]
      unfold sumLast outLast; (try dsimp only)
      rw [PhiS_castSucc V c t, PhiS_pos V c _ _ hz]
      iintro ⟨⟨⟨HS, HR, Hrest⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((hcondReset t).mp h)) ((hcondLast t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HR]; · iexact HR
      iintro ⟨H0, H1, H2, H3, ⟨%e4, H4⟩, HS, ⟨%e8, H8⟩⟩
      isplitl [HS H8 Hrest Hg]
      · isplitl [HS H8 Hrest]
        · isplitl [HS]
          · unfold owns; iexists _; isplitr
            swap; · iexact HS
            ipureintro; rfl
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut c _ _ _ _ _ _ _ _ _ _ _ _ _ _ _ _ _ _ _ _ _ _)
    · rw [Dat.leavesExact_idle (dat0 V c) 4 t (idle4 t (fun h => h1 ((hcondLast t).mp h))) (noFlush4 t (fun h => h1 ((hcondLast t).mp h)))]
      rw [sumAt_mid V c t h0 h1]
      unfold sumMid; (try dsimp only)
      rw [PhiS_castSucc V c t, PhiS_pos V c _ _ hz]
      iintro ⟨⟨⟨HS, HR, Hrest⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((hcondReset t).mp h)) (fun h => h1 ((hcondLast t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      isplitl [HR]; · iexact HR
      iintro ⟨H0, H1, H2, H3, H4, HS, ⟨%e8, H8⟩⟩
      isplitl [HS H8 Hrest Hg]
      · isplitl [HS H8 Hrest]
        · isplitl [HS]
          · unfold owns; iexists _; isplitr
            swap; · iexact HS
            ipureintro; rfl
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the running sum's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 500 := N_0; omega), PhiA0_eq]
  iintro ⟨⟨HS, HR, Hrest⟩, Hg⟩
  isplitl [HS HR Hrest]
  · isplitl [HS]
    · iexists _; iexact HS
    isplitl [HR]; · iexact HR
    iexact Hrest
  iexact Hg

end Cert.KernelIdeal.Agg

end
-- ==== Proof.Comb.Run.lean ====
/-
  The combine call (grid of 10 row blocks of 1000 nodes): the body loads its eleven input blocks whole —
  the node features, the two mean-aggregated features, the four transposed weight matrices and the four bias
  rows — and stores the output block whole, once. The stored piece is found by the run itself.
-/
import proofs.«401586_j49615462203743_3_alg».proof.Proof.Gen.KernelIdeal.Launch
import proofs.«401586_j49615462203743_3_alg».proof.Proof.Gen.KernelIdeal.Skeleton
import proofs.«401586_j49615462203743_3_alg».proof.Proof.Gen.KernelIdeal.Points
import proofs.«401586_j49615462203743_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runComb (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) :
    { LO : List (View.Piece (Elt F) S1000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f LO)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__combine_kernel_eq_skeleton]; unfold cc1__combine_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

end Cert.KernelIdeal.Comb

end
-- ==== Proof.Comb.Dat.lean ====
/-
  The combine call's proof data: ten row blocks of 1000 nodes; at each point the body reads its eleven input
  blocks (only the three row-blocked ones move with the point) and stores the output block, which the pipeline
  writes back at every point.
-/
import proofs.«401586_j49615462203743_3_alg».proof.Proof.Comb.Run

set_option maxRecDepth 16384

noncomputable section

namespace Cert.KernelIdeal.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body leaves in the output block: the run's one whole-block store read back. -/
def outComb (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) : Vec F S1000x128 .f32 :=
  arg12.view.read (Elt F) (arg12.view.writes (Elt F) arg12.view.junk (runComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

/-- The store covers the output block. -/
theorem coverComb (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (y : S1000x128.Idx) :
    ∃ pc ∈ (runComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (runComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S1000x128.size (by sl_kernel_rfl) y

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The output block after the body at point `t`. -/
def outAt1 (c : Dev nD) (t : Fin cfg1.N) : Vec F S1000x128 .f32 :=
  outComb c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

/-- The combine call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold outAt1 outComb; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runComb c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (coverComb c _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Comb

end
-- ==== Proof.Whole.Run.lean ====
/-
  The whole run of @main: three stretches of host operations (the bf16 copy of the node features, its zero
  padding to 10240 rows, the two index reshapes), the aggregation call, a stretch of host operations (the two
  per-core partial sums added, the degree, the two means, the transposes and reshapes), the combine call.
  The contents of every unscoped buffer at each boundary are a fold from the launch memory: a host stretch's
  operations applied; after a call its arrays at what the pipeline's write-backs leave. Every weakly fair
  execution terminates without a fault, in a memory that holds every unscoped buffer at the last boundary's
  contents.
-/
import proofs.«401586_j49615462203743_3_alg».proof.Proof.Agg.Dat
import proofs.«401586_j49615462203743_3_alg».proof.Proof.Comb.Dat
import proofs.«401586_j49615462203743_3_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the conversion of the node features. -/
abbrev W1 : Dev nD → Valuation τ sig (Elt F) := fun c => StableHlo.after hostOps0 (W0 m ρ c)
/-- After the zero padding. -/
abbrev W2 : Dev nD → Valuation τ sig (Elt F) := fun c => StableHlo.after hostOps0_1 (W1 m ρ c)
/-- After the two index reshapes: the aggregation call's entry. -/
abbrev W3 : Dev nD → Valuation τ sig (Elt F) := fun c => StableHlo.after hostOps0_2 (W2 m ρ c)
abbrev R3 : (c : Dev nD) → (b : Ref sig .tc) → Buf (Elt F) ((c : Thread nD τ).loc b) := fun c b => W3 m ρ c b
/-- At the aggregation call's exit: its arrays at what the pipeline leaves, every other buffer as entered. -/
def W4 (c : Dev nD) : Valuation τ sig (Elt F) :=
  Pipeline.withArrays spec0 c (W3 m ρ c) fun w => (Agg.dat0 (R3 m ρ) c).arrAt w cfg0.N
theorem W4_arr (c : Dev nD) (w : Fin cfg0.W) :
    W4 m ρ c (Proc.devRef .tc (Pipeline.arrRef spec0 w)) = (Agg.dat0 (R3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev R4 : (c : Dev nD) → (b : Ref sig .tc) → Buf (Elt F) ((c : Thread nD τ).loc b) := fun c b => W4 m ρ c b
theorem hF0 (c : Dev nD) (w : Fin cfg0.W) : (Agg.dat0 (R3 m ρ) c).arrAt w cfg0.N = R4 m ρ c (Pipeline.arrRef spec0 w) :=
  (W4_arr m ρ c w).symm
theorem hrest0 (c : Dev nD) : ∀ b, b ∉ Finset.univ.image (Pipeline.arrRef spec0) → R4 m ρ c b = R3 m ρ c b :=
  fun b hb => W4_of_ne m ρ c b fun w e => hb (Finset.mem_image.mpr ⟨w, Finset.mem_univ _, e⟩)
/-- After the host stretch between the calls: the combine call's entry. -/
abbrev W5 : Dev nD → Valuation τ sig (Elt F) := fun c => StableHlo.after hostOps1 (W4 m ρ c)
abbrev R5 : (c : Dev nD) → (b : Ref sig .tc) → Buf (Elt F) ((c : Thread nD τ).loc b) := fun c b => W5 m ρ c b
/-- At the combine call's exit. -/
def W6 (c : Dev nD) : Valuation τ sig (Elt F) :=
  Pipeline.withArrays spec1 c (W5 m ρ c) fun w => (Comb.dat1 (R5 m ρ) c).arrAt w cfg1.N
theorem W6_arr (c : Dev nD) (w : Fin cfg1.W) :
    W6 m ρ c (Proc.devRef .tc (Pipeline.arrRef spec1 w)) = (Comb.dat1 (R5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev R6 : (c : Dev nD) → (b : Ref sig .tc) → Buf (Elt F) ((c : Thread nD τ).loc b) := fun c b => W6 m ρ c b
theorem hF1 (c : Dev nD) (w : Fin cfg1.W) : (Comb.dat1 (R5 m ρ) c).arrAt w cfg1.N = R6 m ρ c (Pipeline.arrRef spec1 w) :=
  (W6_arr m ρ c w).symm
theorem hrest1 (c : Dev nD) : ∀ b, b ∉ Finset.univ.image (Pipeline.arrRef spec1) → R6 m ρ c b = R5 m ρ c b :=
  fun b hb => W6_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Agg.dat0 (R3 m ρ) c
  | ⟨1, _⟩ => fun c => Comb.dat1 (R5 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The two calls as segments -/

/-- The class invariant of the aggregation call gives back the generator register and the scoped rest. -/
theorem phiA_out0 (c : Dev nD) : (Pipeline.ΦA spec0 c : sProp 𝕄)
    ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Agg.body_obligation0 (R3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (R3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (Agg.hout0 (R3 m ρ) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (R3 m ρ c) (R4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Comb.body_obligation1 (R5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (R5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (R5 m ρ c) (R6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The arguments end as launched -/

/-- An argument no call stages and no host operation writes keeps its launch contents through the whole fold. -/
theorem W6_of_plain (c : Dev nD) (r : Ref sig .tc) (h0 : r ∉ hostOps0_W) (h1 : r ∉ hostOps0_1_W) (h2 : r ∉ hostOps0_2_W) (h4 : r ∉ hostOps1_W)
    (ha0 : ∀ w, Pipeline.arrRef spec0 w ≠ r) (ha1 : ∀ w, Pipeline.arrRef spec1 w ≠ r) :
    W6 m ρ c (Proc.devRef .tc r) = m ((c : Thread nD τ).loc r) :=
  (W6_of_ne m ρ c r ha1).trans <| (StableHlo.after_of_writes_sub hostOps1 _ hostOps1_writes h4).trans <| (W4_of_ne m ρ c r ha0).trans <|
    (StableHlo.after_of_writes_sub hostOps0_2 _ hostOps0_2_writes h2).trans <| (StableHlo.after_of_writes_sub hostOps0_1 _ hostOps0_1_writes h1).trans <|
    (StableHlo.after_of_writes_sub hostOps0 _ hostOps0_writes h0).trans rfl

/-- The node features: read by the combine call through an input window, written by nothing. -/
theorem W6_main_arg0 (c : Dev nD) : W6 m ρ c (Proc.devRef .tc main_arg0) = m ((c : Thread nD τ).loc main_arg0) :=
  (W6_arr m ρ c 0).trans <| ((Comb.dat1 (R5 m ρ) c).arrAt_in 0 rfl _).trans <| (Comb.A_eq1 (R5 m ρ) c 0).trans <|
    (StableHlo.after_of_writes_sub hostOps1 _ hostOps1_writes (by decide)).trans <| (W4_of_ne m ρ c main_arg0 (by decide)).trans <|
    (StableHlo.after_of_writes_sub hostOps0_2 _ hostOps0_2_writes (by decide)).trans <| (StableHlo.after_of_writes_sub hostOps0_1 _ hostOps0_1_writes (by decide)).trans <|
    (StableHlo.after_of_writes_sub hostOps0 _ hostOps0_writes (by decide)).trans rfl

/-- The edge weights: read by the aggregation call through an input window, written by nothing. -/
theorem W6_main_arg1 (c : Dev nD) : W6 m ρ c (Proc.devRef .tc main_arg1) = m ((c : Thread nD τ).loc main_arg1) :=
  (W6_of_ne m ρ c main_arg1 (by decide)).trans <| (StableHlo.after_of_writes_sub hostOps1 _ hostOps1_writes (by decide)).trans <|
    (W4_arr m ρ c 2).trans <| ((Agg.dat0 (R3 m ρ) c).arrAt_in 2 rfl _).trans <| (Agg.A_eq0 (R3 m ρ) c 2).trans <|
    (StableHlo.after_of_writes_sub hostOps0_2 _ hostOps0_2_writes (by decide)).trans <| (StableHlo.after_of_writes_sub hostOps0_1 _ hostOps0_1_writes (by decide)).trans <|
    (StableHlo.after_of_writes_sub hostOps0 _ hostOps0_writes (by decide)).trans rfl

theorem W6_main_arg2 (c : Dev nD) : W6 m ρ c (Proc.devRef .tc main_arg2) = m ((c : Thread nD τ).loc main_arg2) :=
  W6_of_plain m ρ c main_arg2 (by decide) (by decide) (by decide) (by decide) (by decide) (by decide)
theorem W6_main_arg3 (c : Dev nD) : W6 m ρ c (Proc.devRef .tc main_arg3) = m ((c : Thread nD τ).loc main_arg3) :=
  W6_of_plain m ρ c main_arg3 (by decide) (by decide) (by decide) (by decide) (by decide) (by decide)
theorem W6_main_arg4 (c : Dev nD) : W6 m ρ c (Proc.devRef .tc main_arg4) = m ((c : Thread nD τ).loc main_arg4) :=
  W6_of_plain m ρ c main_arg4 (by decide) (by decide) (by decide) (by decide) (by decide) (by decide)
theorem W6_main_arg5 (c : Dev nD) : W6 m ρ c (Proc.devRef .tc main_arg5) = m ((c : Thread nD τ).loc main_arg5) :=
  W6_of_plain m ρ c main_arg5 (by decide) (by decide) (by decide) (by decide) (by decide) (by decide)
theorem W6_main_arg6 (c : Dev nD) : W6 m ρ c (Proc.devRef .tc main_arg6) = m ((c : Thread nD τ).loc main_arg6) :=
  W6_of_plain m ρ c main_arg6 (by decide) (by decide) (by decide) (by decide) (by decide) (by decide)
theorem W6_main_arg7 (c : Dev nD) : W6 m ρ c (Proc.devRef .tc main_arg7) = m ((c : Thread nD τ).loc main_arg7) :=
  W6_of_plain m ρ c main_arg7 (by decide) (by decide) (by decide) (by decide) (by decide) (by decide)
theorem W6_main_arg8 (c : Dev nD) : W6 m ρ c (Proc.devRef .tc main_arg8) = m ((c : Thread nD τ).loc main_arg8) :=
  W6_of_plain m ρ c main_arg8 (by decide) (by decide) (by decide) (by decide) (by decide) (by decide)
theorem W6_main_arg9 (c : Dev nD) : W6 m ρ c (Proc.devRef .tc main_arg9) = m ((c : Thread nD τ).loc main_arg9) :=
  W6_of_plain m ρ c main_arg9 (by decide) (by decide) (by decide) (by decide) (by decide) (by decide)
theorem W6_main_arg10 (c : Dev nD) : W6 m ρ c (Proc.devRef .tc main_arg10) = m ((c : Thread nD τ).loc main_arg10) :=
  W6_of_plain m ρ c main_arg10 (by decide) (by decide) (by decide) (by decide) (by decide) (by decide)
theorem W6_main_arg11 (c : Dev nD) : W6 m ρ c (Proc.devRef .tc main_arg11) = m ((c : Thread nD τ).loc main_arg11) :=
  W6_of_plain m ρ c main_arg11 (by decide) (by decide) (by decide) (by decide) (by decide) (by decide)

/-! ## The two readings of the run -/

/-- Every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run_all m ρ)

/-- The result ends at the last boundary's contents, and every argument array as launched. -/
theorem value_all : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v31 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run_all m ρ)

end Cert.KernelIdeal.Whole

end
-- ==== Proof.Spec.lean ====
/-
  The mathematics both programs compute, over plain index types and extended reals.

  Edges R < 640000 carry a source id, a destination id and a weight; nodes carry 128 features. The message of
  an edge is the source node's feature row, once weighted (first 128 columns) and once plain (last 128 columns).
  A node's two aggregates are the sums of the messages of the edges whose destination it is. Ids are 32-bit
  words; an id that is no node matches nothing.

  Kernel side: the source row is picked by a one-hot sum over the table padded with zero rows to 10240; the
  edges are split in two halves (one per core), each half summed separately.
-/
import Idealize.ShloMosaic.PureOps.Ideal
import Idealize.ShloMosaic.Lib.ValueIdx
import Mathlib.Algebra.BigOperators.Group.Finset.Basic

noncomputable section

open scoped BigOperators

namespace Cert.Spec

/-- The feature row the word `s` picks out of a table of 10240 rows, as a one-hot sum: the row whose number `s`
    is, and zero if `s` is no row number. -/
def rows (hp : Fin 10240 → Fin 128 → EReal) (s : BitVec 32) (d : Fin 128) : EReal :=
  ∑ n : Fin 10240, if s = BitVec.ofNat 32 n.val then hp n d else 0

/-- The 256-column message of an edge with source word `s` and weight `ev`: the picked row times the weight, then
    the picked row itself. -/
def msg (hp : Fin 10240 → Fin 128 → EReal) (s : BitVec 32) (ev : EReal) (col : Fin 256) : EReal :=
  if hc : col.val < 128 then rows hp s ⟨col.val, hc⟩ * ev else rows hp s ⟨col.val - 128, by omega⟩

/-- What one block of 1280 edges adds to row `n` of the running sum: the messages of its edges whose destination
    word is `n`. -/
def blockAdd (hp : Fin 10240 → Fin 128 → EReal) (srcB dstB : Fin 1280 → BitVec 32) (eB : Fin 1280 → EReal)
    (n : Fin 10240) (col : Fin 256) : EReal :=
  ∑ r : Fin 1280, if dstB r = BitVec.ofNat 32 n.val then msg hp (srcB r) (eB r) col else 0

/-- Edge number of the r-th edge of a core's half. -/
def edgeOf (core : Fin 2) (r : Fin 320000) : Fin 640000 := ⟨320000 * core.val + r.val, by omega⟩

/-- One core's partial sum: over its half of the edges. -/
def partialSum (hp : Fin 10240 → Fin 128 → EReal) (srcA dstA : Fin 640000 → BitVec 32) (eA : Fin 640000 → EReal)
    (core : Fin 2) (n : Fin 10240) (col : Fin 256) : EReal :=
  ∑ r : Fin 320000, if dstA (edgeOf core r) = BitVec.ofNat 32 n.val then msg hp (srcA (edgeOf core r)) (eA (edgeOf core r)) col else 0

/-- The combine stage at node `n`, output feature `o`: three affine maps of the node's features and of its two mean
    aggregates, added (the first two first), then a fourth affine map. All four weight matrices are given
    transposed (input feature first). -/
def combine (x hp hu : Fin 10000 → Fin 128 → EReal) (WsT WnT WuT linT : Fin 128 → Fin 128 → EReal)
    (bs bn bu bl : Fin 128 → EReal) (n : Fin 10000) (o : Fin 128) : EReal :=
  (∑ k : Fin 128,
      ((((∑ d : Fin 128, x n d * WsT d k) + bs k) + ((∑ d : Fin 128, hp n d * WnT d k) + bn k))
        + ((∑ d : Fin 128, hu n d * WuT d k) + bu k)) * linT k o) + bl o

/-! ## The reference's shape -/

/-- The feature row the word `s` names in the table of 10000 rows, read as the host gather reads it: signed,
    clamped into the table. -/
def gatherRow (h : Fin 10000 → Fin 128 → EReal) (s : BitVec 32) (d : Fin 128) : EReal :=
  h ⟨min s.toInt.toNat 9999, by omega⟩ d

/-- A node's weighted aggregate as the host scatter-add computes it: zero plus the weighted source rows of the
    edges whose destination word, read signed, is the node. -/
def refAggMul (h : Fin 10000 → Fin 128 → EReal) (src dst : Fin 640000 → BitVec 32) (e : Fin 640000 → EReal)
    (n : Fin 10000) (d : Fin 128) : EReal :=
  0 + ∑ R ∈ Finset.univ.filter (fun R : Fin 640000 => (dst R).toInt = (n.val : ℤ)), gatherRow h (src R) d * e R

/-- The same without weights. -/
def refAggCopy (h : Fin 10000 → Fin 128 → EReal) (src dst : Fin 640000 → BitVec 32)
    (n : Fin 10000) (d : Fin 128) : EReal :=
  0 + ∑ R ∈ Finset.univ.filter (fun R : Fin 640000 => (dst R).toInt = (n.val : ℤ)), gatherRow h (src R) d

/-- The node table padded with 240 zero rows. -/
def padRows (h : Fin 10000 → Fin 128 → EReal) (n : Fin 10240) (d : Fin 128) : EReal :=
  if hn : n.val < 10000 then h ⟨n.val, hn⟩ d else 0

end Cert.Spec

end
-- ==== Proof.Agg.PointValue.lean ====
/-
  What one point of the aggregation call adds, read index by index over the extended reals: row n, column col of
  the running sum receives the messages of the block's edges whose destination is n. At the first point of a
  core's share the sum starts from zero; at the last point the output block is a copy of the running sum.
-/
import proofs.«401586_j49615462203743_3_alg».proof.Proof.Agg.Pieces
import proofs.«401586_j49615462203743_3_alg».proof.Proof.Spec
import Idealize.ShloMosaic.Lib.ValueIdx
import Idealize.ShloMosaic.Lib.Pipeline.Value
import Idealize.ShloMosaic.Lib.WritesUnit
import Idealize.ShloMosaic.Lib.ValueLayout
import Idealize.ShloMosaic.PureOps.Ideal.Laws

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## Scalar facts -/

/-- The one-hot entry: the comparison word read as a number is 1 on equality and 0 otherwise. -/
theorem oneHot_eq (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℝ)) : EReal) = 1
    rw [beq_self_eq_true]
    have : ((BitVec.ofBool true).setWidth 32).toInt = 1 := by decide
    rw [this]; norm_num
  · rw [if_neg h]
    show (((((BitVec.ofBool (a == b)).setWidth 32).toInt : ℝ)) : EReal) = 0
    rw [beq_eq_false_iff_ne.mpr h]
    have : ((BitVec.ofBool false).setWidth 32).toInt = 0 := by decide
    rw [this]; norm_num

/-- The row word of chunk `k` at local row `m`. -/
theorem chunkWord1 : ∀ k : Fin k0_t1_loop.trips,
    Scalar.muli (Scalar.addi 0#32 (Scalar.muli (Scf.iv 0#32 1#32 k) 1#32)) 2048#32 = BitVec.ofNat 32 (2048 * k.val) := by
  decide +kernel

theorem chunkWord2 : ∀ k : Fin k0_t2_loop.trips,
    Scalar.muli (Scalar.addi 0#32 (Scalar.muli (Scf.iv 0#32 1#32 k) 1#32)) 2048#32 = BitVec.ofNat 32 (2048 * k.val) := by
  decide +kernel

theorem trips1 : k0_t1_loop.trips = 5 := by decide
theorem trips2 : k0_t2_loop.trips = 5 := by decide

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem hz2 : (![0, 0] : Fin 2 → ℕ) = fun _ => 0 := by
  funext a; match a with | ⟨0, _⟩ => rfl | ⟨1, _⟩ => rfl

theorem ite_one_zero_mul (P : Prop) [Decidable P] (x : EReal) : (if P then (1 : EReal) else 0) * x = if P then x else 0 := by
  by_cases h : P
  · rw [if_pos h, if_pos h, one_mul]
  · rw [if_neg h, if_neg h, zero_mul]

/-- The one-hot matrix entry at an index. -/
theorem hot_apply {s : Shape} (A B : IVec s 32) (h1 : 1 < 32) (h2 : FTy.bits .bf16 < FTy.bits .f32) (i : s.Idx) :
    (truncf .bf16 (sitofp (F := Ideal) .f32 (extui 32 (cmpi .eq A B) h1)) h2 : FVec Ideal s .bf16) i = if A i = B i then 1 else 0 :=
  oneHot_eq (A i) (B i)

/-! ## The two products at an index -/

theorem lhs1_0 (i : S1280x128.Idx) (q : dot_S1280x2048_S2048x128_S1280x128_1_0_0_1_n_n.contr.Idx) : (dot_S1280x2048_S2048x128_S1280x128_1_0_0_1_n_n.lhsIdx i q 0).val = (i 0).val := by
  unfold DotDims.lhsIdx
  rw [dif_neg (show ¬(0 : Fin S1280x2048.rank) ∈ dot_S1280x2048_S2048x128_S1280x128_1_0_0_1_n_n.lhsBatch by decide), dif_pos (show (0 : Fin S1280x2048.rank) ∈ dot_S1280x2048_S2048x128_S1280x128_1_0_0_1_n_n.lhsNonContracting by decide)]
  rfl
theorem lhs1_1 (i : S1280x128.Idx) (q : dot_S1280x2048_S2048x128_S1280x128_1_0_0_1_n_n.contr.Idx) : (dot_S1280x2048_S2048x128_S1280x128_1_0_0_1_n_n.lhsIdx i q 1).val = (q ⟨0, by decide⟩).val :=
  dot_S1280x2048_S2048x128_S1280x128_1_0_0_1_n_n.lhsIdx_val_of_single rfl i q
theorem rhs1_0 (i : S1280x128.Idx) (q : dot_S1280x2048_S2048x128_S1280x128_1_0_0_1_n_n.contr.Idx) : (dot_S1280x2048_S2048x128_S1280x128_1_0_0_1_n_n.rhsIdx i q 0).val = (q ⟨0, by decide⟩).val :=
  dot_S1280x2048_S2048x128_S1280x128_1_0_0_1_n_n.rhsIdx_val_of_single rfl i q
theorem rhs1_1 (i : S1280x128.Idx) (q : dot_S1280x2048_S2048x128_S1280x128_1_0_0_1_n_n.contr.Idx) : (dot_S1280x2048_S2048x128_S1280x128_1_0_0_1_n_n.rhsIdx i q 1).val = (i 1).val := by
  unfold DotDims.rhsIdx
  rw [dif_neg (show ¬(1 : Fin S2048x128.rank) ∈ dot_S1280x2048_S2048x128_S1280x128_1_0_0_1_n_n.rhsBatch by decide), dif_pos (show (1 : Fin S2048x128.rank) ∈ dot_S1280x2048_S2048x128_S1280x128_1_0_0_1_n_n.rhsNonContracting by decide)]
  rfl

theorem matmul1_apply (lhs : FVec Ideal S1280x2048 .bf16) (rhs : FVec Ideal S2048x128 .bf16) (r : Fin 1280) (d : Fin 128) :
    matmul dot_S1280x2048_S2048x128_S1280x128_1_0_0_1_n_n none lhs rhs (constant (F := Ideal) S1280x128 .f32 0x00000000#32) (ix2 r d) = ∑ m : Fin 2048, lhs (ix2 r m) * rhs (ix2 m d) := by
  show FloatOps.matmul dot_S1280x2048_S2048x128_S1280x128_1_0_0_1_n_n none lhs rhs (constant (F := Ideal) S1280x128 .f32 0x00000000#32) (ix2 r d) = _
  rw [Ideal.matmul_constant_zero_apply, ← Equiv.sum_comp (ValueIdx.contrEquiv1 dot_S1280x2048_S2048x128_S1280x128_1_0_0_1_n_n 2048 rfl rfl).symm]
  refine Finset.sum_congr rfl fun m _ => ?_
  have hk := ValueIdx.contrEquiv1_symm_val dot_S1280x2048_S2048x128_S1280x128_1_0_0_1_n_n 2048 rfl rfl m
  have el : dot_S1280x2048_S2048x128_S1280x128_1_0_0_1_n_n.lhsIdx (ix2 r d) ((ValueIdx.contrEquiv1 dot_S1280x2048_S2048x128_S1280x128_1_0_0_1_n_n 2048 rfl rfl).symm m) = ix2 r m := funext fun a => Fin.ext (by
    match a with
    | ⟨0, _⟩ => exact lhs1_0 _ _
    | ⟨1, _⟩ => exact (lhs1_1 _ _).trans hk)
  have er : dot_S1280x2048_S2048x128_S1280x128_1_0_0_1_n_n.rhsIdx (ix2 r d) ((ValueIdx.contrEquiv1 dot_S1280x2048_S2048x128_S1280x128_1_0_0_1_n_n 2048 rfl rfl).symm m) = ix2 m d := funext fun a => Fin.ext (by
    match a with
    | ⟨0, _⟩ => exact (rhs1_0 _ _).trans hk
    | ⟨1, _⟩ => exact rhs1_1 _ _)
  rw [el, er]

theorem lhs2_0 (i : S2048x256.Idx) (q : dot_S2048x1280_S1280x256_S2048x256_1_0_0_1_n_n.contr.Idx) : (dot_S2048x1280_S1280x256_S2048x256_1_0_0_1_n_n.lhsIdx i q 0).val = (i 0).val := by
  unfold DotDims.lhsIdx
  rw [dif_neg (show ¬(0 : Fin S2048x1280.rank) ∈ dot_S2048x1280_S1280x256_S2048x256_1_0_0_1_n_n.lhsBatch by decide), dif_pos (show (0 : Fin S2048x1280.rank) ∈ dot_S2048x1280_S1280x256_S2048x256_1_0_0_1_n_n.lhsNonContracting by decide)]
  rfl
theorem lhs2_1 (i : S2048x256.Idx) (q : dot_S2048x1280_S1280x256_S2048x256_1_0_0_1_n_n.contr.Idx) : (dot_S2048x1280_S1280x256_S2048x256_1_0_0_1_n_n.lhsIdx i q 1).val = (q ⟨0, by decide⟩).val :=
  dot_S2048x1280_S1280x256_S2048x256_1_0_0_1_n_n.lhsIdx_val_of_single rfl i q
theorem rhs2_0 (i : S2048x256.Idx) (q : dot_S2048x1280_S1280x256_S2048x256_1_0_0_1_n_n.contr.Idx) : (dot_S2048x1280_S1280x256_S2048x256_1_0_0_1_n_n.rhsIdx i q 0).val = (q ⟨0, by decide⟩).val :=
  dot_S2048x1280_S1280x256_S2048x256_1_0_0_1_n_n.rhsIdx_val_of_single rfl i q
theorem rhs2_1 (i : S2048x256.Idx) (q : dot_S2048x1280_S1280x256_S2048x256_1_0_0_1_n_n.contr.Idx) : (dot_S2048x1280_S1280x256_S2048x256_1_0_0_1_n_n.rhsIdx i q 1).val = (i 1).val := by
  unfold DotDims.rhsIdx
  rw [dif_neg (show ¬(1 : Fin S1280x256.rank) ∈ dot_S2048x1280_S1280x256_S2048x256_1_0_0_1_n_n.rhsBatch by decide), dif_pos (show (1 : Fin S1280x256.rank) ∈ dot_S2048x1280_S1280x256_S2048x256_1_0_0_1_n_n.rhsNonContracting by decide)]
  rfl

theorem matmul2_apply (lhs : FVec Ideal S2048x1280 .bf16) (rhs : FVec Ideal S1280x256 .bf16) (p : Fin 2048) (q : Fin 256) :
    matmul dot_S2048x1280_S1280x256_S2048x256_1_0_0_1_n_n none lhs rhs (constant (F := Ideal) S2048x256 .f32 0x00000000#32) (ix2 p q) = ∑ r : Fin 1280, lhs (ix2 p r) * rhs (ix2 r q) := by
  show FloatOps.matmul dot_S2048x1280_S1280x256_S2048x256_1_0_0_1_n_n none lhs rhs (constant (F := Ideal) S2048x256 .f32 0x00000000#32) (ix2 p q) = _
  rw [Ideal.matmul_constant_zero_apply, ← Equiv.sum_comp (ValueIdx.contrEquiv1 dot_S2048x1280_S1280x256_S2048x256_1_0_0_1_n_n 1280 rfl rfl).symm]
  refine Finset.sum_congr rfl fun m _ => ?_
  have hk := ValueIdx.contrEquiv1_symm_val dot_S2048x1280_S1280x256_S2048x256_1_0_0_1_n_n 1280 rfl rfl m
  have el : dot_S2048x1280_S1280x256_S2048x256_1_0_0_1_n_n.lhsIdx (ix2 p q) ((ValueIdx.contrEquiv1 dot_S2048x1280_S1280x256_S2048x256_1_0_0_1_n_n 1280 rfl rfl).symm m) = ix2 p m := funext fun a => Fin.ext (by
    match a with
    | ⟨0, _⟩ => exact lhs2_0 _ _
    | ⟨1, _⟩ => exact (lhs2_1 _ _).trans hk)
  have er : dot_S2048x1280_S1280x256_S2048x256_1_0_0_1_n_n.rhsIdx (ix2 p q) ((ValueIdx.contrEquiv1 dot_S2048x1280_S1280x256_S2048x256_1_0_0_1_n_n 1280 rfl rfl).symm m) = ix2 m q := funext fun a => Fin.ext (by
    match a with
    | ⟨0, _⟩ => exact (rhs2_0 _ _).trans hk
    | ⟨1, _⟩ => exact rhs2_1 _ _)
  rw [el, er]

/-! ## The gather payload at an index -/

theorem pay3_apply (v3 : Vec Ideal S1280x1 .i32) (k : Fin k0_t1_loop.trips) (v37 : Vec Ideal S2048x128 .bf16) (v39 : Vec Ideal S1280x128 .f32) (r : Fin 1280) (d : Fin 128) :
    k0_pay3 (F := Ideal) v3 k v37 v39 (ix2 r d)
      = v39 (ix2 r d) + ∑ m : Fin 2048, (if (v3 (ix2 r (0 : Fin 1)) : BitVec 32) = BitVec.ofNat 32 (2048 * k.val + m.val) then v37 (ix2 m d) else 0) := by
  unfold k0_pay3
  dsimp only
  rw [shapeCast_self, addf_apply, matmul1_apply]
  refine congrArg (v39 (ix2 r d) + ·) (Finset.sum_congr rfl fun m _ => ?_)
  rw [hot_apply, broadcastTo_a1_ab_apply, broadcastTo_1b_ab_apply, shapeCast_self, shapeCast_self]
  have hw : addi (iota .tc S1x2048 32 [1] iota_S1x2048_d1_w32) (broadcast S1x2048 (Scalar.muli (Scalar.addi 0#32 (Scalar.muli (Scf.iv 0#32 1#32 k) 1#32)) 2048#32)) (ix2 (0 : Fin 1) m) = BitVec.ofNat 32 (2048 * k.val + m.val) := by
    show iota .tc S1x2048 32 [1] iota_S1x2048_d1_w32 (ix2 (0 : Fin 1) m) + (Scalar.muli (Scalar.addi 0#32 (Scalar.muli (Scf.iv 0#32 1#32 k) 1#32)) 2048#32) = _
    rw [iota_single_apply, chunkWord1]
    show BitVec.ofNat 32 m.val + BitVec.ofNat 32 (2048 * k.val) = _
    rw [← BitVec.ofNat_add, Nat.add_comm]
  rw [hw]
  exact ite_one_zero_mul _ _

/-! ## The scatter payload at an index -/

/-- The 256-column message of edge `r` of the block: the gathered row times the weight, then the gathered row. -/
def msgK (v7 : Vec Ideal S1280x1 .f32) (v13 : Vec Ideal S1280x128 .f32) (r : Fin 1280) (q : Fin 256) : EReal :=
  if hq : q.val < 128 then v13 (ix2 r ⟨q.val, hq⟩) * v7 (ix2 r (0 : Fin 1)) else v13 (ix2 r ⟨q.val - 128, by omega⟩)

theorem concat_apply (x₁ x₂ : FVec Ideal S1280x128 .bf16) (h : Shape.Concatenates [S1280x128, S1280x128] S1280x256 1) (r : Fin 1280) (q : Fin 256) :
    concatenate S1280x256 1 [⟨S1280x128, x₁⟩, ⟨S1280x128, x₂⟩] h (ix2 r q)
      = if hq : q.val < 128 then x₁ (ix2 r ⟨q.val, hq⟩) else x₂ (ix2 r ⟨q.val - 128, by omega⟩) := by
  by_cases hq : q.val < 128
  · rw [dif_pos hq]
    exact concatenate_pair_apply_left 1 x₁ x₂ h (ix2 r q) rfl (ix2 r ⟨q.val, hq⟩) (fun b => by
      match b with
      | ⟨0, _⟩ => rfl
      | ⟨1, _⟩ => rfl)
  · rw [dif_neg hq]
    exact concatenate_pair_apply_right 1 x₁ x₂ h (ix2 r q) rfl rfl (ix2 r ⟨q.val - 128, by omega⟩) (fun b hb => by
      match b with
      | ⟨0, _⟩ => rfl
      | ⟨1, _⟩ => exact absurd rfl hb) (by show (q.val - 128) + 128 = q.val; omega)

theorem msgCat_apply (v7 : Vec Ideal S1280x1 .f32) (v13 : Vec Ideal S1280x128 .f32) (hb : S1280x1.Broadcasts S1280x128) (h2 : FTy.bits .bf16 < FTy.bits .f32)
    (h : Shape.Concatenates [S1280x128, S1280x128] S1280x256 1) (r : Fin 1280) (q : Fin 256) :
    concatenate S1280x256 1 [⟨S1280x128, (truncf .bf16 (mulf v13 (broadcastTo S1280x128 v7 hb)) h2 : FVec Ideal S1280x128 .bf16)⟩, ⟨S1280x128, (truncf .bf16 v13 h2 : FVec Ideal S1280x128 .bf16)⟩] h (ix2 r q)
      = msgK v7 v13 r q := by
  rw [concat_apply]
  unfold msgK
  by_cases hq : q.val < 128
  · rw [dif_pos hq, dif_pos hq, truncf_apply, mulf_apply, broadcastTo_a1_ab_apply]
  · rw [dif_neg hq, dif_neg hq, truncf_apply]

theorem pay4_apply (v5 : Vec Ideal S1x1280 .i32) (v7 : Vec Ideal S1280x1 .f32) (v13 : Vec Ideal S1280x128 .f32) (k : Fin k0_t2_loop.trips) (v38 : Vec Ideal S2048x256 .f32) (p : Fin 2048) (q : Fin 256) :
    k0_pay4 (F := Ideal) v5 v7 v13 k v38 (ix2 p q)
      = v38 (ix2 p q) + ∑ r : Fin 1280, (if BitVec.ofNat 32 (2048 * k.val + p.val) = (v5 (ix2 (0 : Fin 1) r) : BitVec 32) then msgK v7 v13 r q else 0) := by
  unfold k0_pay4
  dsimp only
  rw [shapeCast_self, addf_apply, matmul2_apply]
  refine congrArg (v38 (ix2 p q) + ·) (Finset.sum_congr rfl fun r _ => ?_)
  rw [hot_apply, broadcastTo_a1_ab_apply, broadcastTo_1b_ab_apply, shapeCast_self, msgCat_apply]
  have hw : addi (iota .tc S2048x1 32 [0] iota_S2048x1_d0_w32) (broadcast S2048x1 (Scalar.muli (Scalar.addi 0#32 (Scalar.muli (Scf.iv 0#32 1#32 k) 1#32)) 2048#32)) (ix2 p (0 : Fin 1)) = BitVec.ofNat 32 (2048 * k.val + p.val) := by
    show iota .tc S2048x1 32 [0] iota_S2048x1_d0_w32 (ix2 p (0 : Fin 1)) + (Scalar.muli (Scalar.addi 0#32 (Scalar.muli (Scf.iv 0#32 1#32 k) 1#32)) 2048#32) = _
    rw [iota_single_apply, chunkWord2]
    show BitVec.ofNat 32 p.val + BitVec.ofNat 32 (2048 * k.val) = _
    rw [← BitVec.ofNat_add, Nat.add_comm]
  rw [hw]
  exact ite_one_zero_mul _ _

/-! ## Reading the buffers -/

theorem readAt_unit_zero {sig : RefSig} {κ : Kind} {sp : Space} {S : Shape} {e : EltTy} (v : View sig κ sp S e)
    (f : BufTy.Contents (Elt Ideal) v.ty) {off : Fin S.rank → ℕ} (h : off = fun _ => 0) (inb : ∀ a, off a + S.size a ≤ S.size a) :
    v.readAt (Elt Ideal) (Rect.unit off S.size inb).toLoadRect f = v.read (Elt Ideal) f :=
  View.ld_unit_zero h inb (v.read (Elt Ideal) f)

theorem pay2_apply (j : S1280x128.Idx) : k0_pay2 (F := Ideal) j = 0 := by
  unfold k0_pay2
  rw [shapeCast_self]
  exact Ideal.ofBits_zero_f32

theorem pay1_apply (j : S10240x256.Idx) : k0_pay1 (F := Ideal) j = 0 := by
  unfold k0_pay1
  rw [shapeCast_self]
  exact Ideal.ofBits_zero_f32

/-! ## The gather loop -/

theorem tripL1_eq (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (v3 : Vec Ideal S1280x1 .i32) (X5 : BufTy.Contents (Elt Ideal) arg5.view.ty) (k : Fin k0_t1_loop.trips) (f8 : BufTy.Contents (Elt Ideal) arg8.view.ty) :
    tripL_k0_t1 (F := Ideal) Variants.none c none i arg2 harg2 arg3 harg3 arg4 harg4 arg5 harg5 arg6 harg6 arg7 harg7 arg8 harg8 v3 X5 k f8
      = [⟨Rect.unit ![0, 0] S1280x128.size Gen.inb_S1280x128_S1280x128_0_0,
          k0_pay3 v3 k (View.readAt (Elt Ideal) arg5.view (Rect.unit (s := S10240x128) (k0_off1 k) S2048x128.size (Gen.k0_off1_inb k)).toLoadRect X5)
            (View.readAt (Elt Ideal) arg8.view (Rect.unit ![0, 0] S1280x128.size Gen.inb_S1280x128_S1280x128_0_0).toLoadRect f8)⟩] := by
  unfold tripL_k0_t1 trip_k0_t1
  rfl

/-- The one-hot term of table row `n` for the source word `w`, zero past the table. -/
def gat (x3 : Vec Ideal S10240x128 .bf16) (w : BitVec 32) (d : Fin 128) (n : ℕ) : EReal :=
  if h : n < 10240 then (if w = BitVec.ofNat 32 n then x3 (ix2 ⟨n, h⟩ d) else 0) else 0

theorem read5_chunk (arg5 : Memref sig .tc .vmem S10240x128 .bf16) (harg5 : arg5.IsWhole) (x3 : Vec Ideal S10240x128 .bf16) (k : Fin k0_t1_loop.trips)
    (inb : ∀ a, k0_off1 k a + S2048x128.size a ≤ S10240x128.size a) (m : Fin 2048) (d : Fin 128) (h : 2048 * k.val + m.val < 10240) :
    View.readAt (Elt Ideal) arg5.view (Rect.unit (s := S10240x128) (k0_off1 k) S2048x128.size inb).toLoadRect (harg5.unread x3) (ix2 m d) = x3 (ix2 ⟨2048 * k.val + m.val, h⟩ d) := by
  rw [View.readAt_apply, harg5.read_unread]
  have e := k0_off1_eq k
  refine congrArg x3 (funext fun a => Fin.ext ?_)
  match a with
  | ⟨0, _⟩ =>
    show k0_off1 k 0 + 1 * m.val = 2048 * k.val + m.val
    rw [e]
    show 2048 * k.val + 1 * m.val = 2048 * k.val + m.val
    omega
  | ⟨1, _⟩ =>
    show k0_off1 k 1 + 1 * d.val = d.val
    rw [e]
    show 0 + 1 * d.val = d.val
    omega

theorem loop1_inv (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (v3 : Vec Ideal S1280x1 .i32) (x3 : Vec Ideal S10240x128 .bf16) (G8 : BufTy.Contents (Elt Ideal) arg8.view.ty)
    (j : ℕ) (hj : j ≤ 5) (r : Fin 1280) (d : Fin 128) :
    arg8.view.read (Elt Ideal) (arg8.view.writes (Elt Ideal) G8 (pb_k0_t1 (F := Ideal) Variants.none c none i arg2 harg2 arg3 harg3 arg4 harg4 arg5 harg5 arg6 harg6 arg7 harg7 arg8 harg8 v3 (harg5.unread x3) G8 j)) (ix2 r d)
      = arg8.view.read (Elt Ideal) G8 (ix2 r d) + ∑ n ∈ Finset.range (2048 * j), gat x3 (v3 (ix2 r (0 : Fin 1))) d n := by
  induction j with
  | zero =>
    rw [pb_k0_t1.eq_1, View.writes_nil, Nat.mul_zero, Finset.range_zero, Finset.sum_empty, add_zero]
  | succ j ih =>
    have hjt : j < k0_t1_loop.trips := by rw [trips1]; omega
    have hs : pb_k0_t1 (F := Ideal) Variants.none c none i arg2 harg2 arg3 harg3 arg4 harg4 arg5 harg5 arg6 harg6 arg7 harg7 arg8 harg8 v3 (harg5.unread x3) G8 (j + 1)
        = tripL_k0_t1 (F := Ideal) Variants.none c none i arg2 harg2 arg3 harg3 arg4 harg4 arg5 harg5 arg6 harg6 arg7 harg7 arg8 harg8 v3 (harg5.unread x3) ⟨j, hjt⟩ (arg8.view.writes (Elt Ideal) G8 (pb_k0_t1 (F := Ideal) Variants.none c none i arg2 harg2 arg3 harg3 arg4 harg4 arg5 harg5 arg6 harg6 arg7 harg7 arg8 harg8 v3 (harg5.unread x3) G8 j)) ++ pb_k0_t1 (F := Ideal) Variants.none c none i arg2 harg2 arg3 harg3 arg4 harg4 arg5 harg5 arg6 harg6 arg7 harg7 arg8 harg8 v3 (harg5.unread x3) G8 j :=
      pb_k0_t1_succ (F := Ideal) Variants.none c none i arg2 harg2 arg3 harg3 arg4 harg4 arg5 harg5 arg6 harg6 arg7 harg7 arg8 harg8 v3 (harg5.unread x3) G8 ⟨j, hjt⟩
    have h2 : 2048 * (j + 1) = 2048 * j + 2048 := by omega
    rw [hs, tripL1_eq, List.singleton_append]
    refine (View.read_writes_cons_unit_of_mem arg8.view G8 Gen.inb_S1280x128_S1280x128_0_0 _ _ (ix2 r d) (ix2 r d) rfl (fun a => by
      match a with
      | ⟨0, _⟩ => exact (Nat.zero_add _).symm
      | ⟨1, _⟩ => exact (Nat.zero_add _).symm)).trans ?_
    rw [pay3_apply, h2, Finset.sum_range_add]
    refine Eq.trans ?_ (add_assoc _ _ _)
    congr 1
    · rw [congrFun (readAt_unit_zero arg8.view _ hz2 Gen.inb_S1280x128_S1280x128_0_0) (ix2 r d)]
      exact ih (by omega)
    · refine (Finset.sum_congr rfl fun m _ => ?_).trans (Fin.sum_univ_eq_sum_range (fun x => gat x3 (v3 (ix2 r (0 : Fin 1))) d (2048 * j + x)) 2048)
      have hlt : 2048 * j + m.val < 10240 := by have := m.isLt; omega
      show _ = gat x3 (v3 (ix2 r (0 : Fin 1))) d (2048 * j + m.val)
      unfold gat
      rw [dif_pos hlt]
      exact if_congr Iff.rfl (read5_chunk arg5 harg5 x3 ⟨j, hjt⟩ _ m d hlt) rfl

theorem gat_sum (x3 : Vec Ideal S10240x128 .bf16) (w : BitVec 32) (d : Fin 128) :
    ∑ n ∈ Finset.range 10240, gat x3 w d n = Cert.Spec.rows (fun n d => x3 (ix2 n d)) w d := by
  rw [← Fin.sum_univ_eq_sum_range (gat x3 w d) 10240]
  unfold Cert.Spec.rows
  refine Finset.sum_congr rfl fun n _ => ?_
  unfold gat
  exact (dif_pos n.isLt).trans rfl

/-- The gathered rows after the five chunks: the one-hot row sum of the block's source words. -/
theorem v13_apply (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (x0 : Vec Ideal S1280x1 .i32) (x3 : Vec Ideal S10240x128 .bf16) (r : Fin 1280) (d : Fin 128) :
    View.readAt (Elt Ideal) arg8.view (Rect.unit ![0, 0] S1280x128.size Gen.inb_S1280x128_S1280x128_0_0).toLoadRect
      (arg8.view.writes (Elt Ideal) arg8.view.junk
        (pb_k0_t1 (F := Ideal) Variants.none c none i arg2 harg2 arg3 harg3 arg4 harg4 arg5 harg5 arg6 harg6 arg7 harg7 arg8 harg8 (View.readAt (Elt Ideal) arg2.view (Rect.unit ![0, 0] S1280x1.size Gen.inb_S1280x1_S1280x1_0_0).toLoadRect (harg2.unread x0)) (harg5.unread x3) (arg8.view.writes (Elt Ideal) arg8.view.junk [⟨Rect.unit ![0, 0] S1280x128.size Gen.inb_S1280x128_S1280x128_0_0, (k0_pay2 (F := Ideal))⟩]) k0_t1_loop.trips ++
          [⟨Rect.unit ![0, 0] S1280x128.size Gen.inb_S1280x128_S1280x128_0_0, (k0_pay2 (F := Ideal))⟩])) (ix2 r d)
      = Cert.Spec.rows (fun n d => x3 (ix2 n d)) (x0 (ix2 r (0 : Fin 1))) d := by
  rw [congrFun (readAt_unit_zero arg8.view _ hz2 Gen.inb_S1280x128_S1280x128_0_0) (ix2 r d), View.writes_append]
  rw [congrArg (pb_k0_t1 (F := Ideal) Variants.none c none i arg2 harg2 arg3 harg3 arg4 harg4 arg5 harg5 arg6 harg6 arg7 harg7 arg8 harg8 _ (harg5.unread x3) _) trips1]
  rw [loop1_inv c i arg2 harg2 arg3 harg3 arg4 harg4 arg5 harg5 arg6 harg6 arg7 harg7 arg8 harg8 _ x3 _ 5 le_rfl r d]
  rw [congrFun (readAt_unit_zero arg2.view _ hz2 Gen.inb_S1280x1_S1280x1_0_0) (ix2 r (0 : Fin 1)), harg2.read_unread]
  rw [show (2048 * 5 : ℕ) = 10240 from rfl, gat_sum]
  rw [View.read_writes_cons_unit_of_mem (Val := Elt Ideal) arg8.view arg8.view.junk Gen.inb_S1280x128_S1280x128_0_0 (k0_pay2 (F := Ideal)) [] (ix2 r d) (ix2 r d) rfl (fun a => by
      match a with
      | ⟨0, _⟩ => exact (Nat.zero_add _).symm
      | ⟨1, _⟩ => exact (Nat.zero_add _).symm), pay2_apply, zero_add]

/-! ## The scatter loop -/

theorem tripL2_eq (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (v5 : Vec Ideal S1x1280 .i32) (v7 : Vec Ideal S1280x1 .f32) (v13 : Vec Ideal S1280x128 .f32) (k : Fin k0_t2_loop.trips) (f7 : BufTy.Contents (Elt Ideal) arg7.view.ty) :
    tripL_k0_t2 (F := Ideal) Variants.none c none i arg2 harg2 arg3 harg3 arg4 harg4 arg5 harg5 arg6 harg6 arg7 harg7 arg8 harg8 v5 v7 v13 k f7
      = [⟨Rect.unit (k0_off2 k) S2048x256.size (Gen.k0_off2_inb k),
          k0_pay4 v5 v7 v13 k (View.readAt (Elt Ideal) arg7.view (Rect.unit (s := S10240x256) (k0_off2 k) S2048x256.size (Gen.k0_off2_inb k)).toLoadRect f7)⟩] := by
  unfold tripL_k0_t2 trip_k0_t2
  rfl

/-- What the block adds to row `n`, column `q`: the messages of its edges whose destination word is `n`. -/
def scat (v5 : Vec Ideal S1x1280 .i32) (v7 : Vec Ideal S1280x1 .f32) (v13 : Vec Ideal S1280x128 .f32) (n : ℕ) (q : Fin 256) : EReal :=
  ∑ r : Fin 1280, if BitVec.ofNat 32 n = (v5 (ix2 (0 : Fin 1) r) : BitVec 32) then msgK v7 v13 r q else 0

theorem loop2_inv (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (v5 : Vec Ideal S1x1280 .i32) (v7 : Vec Ideal S1280x1 .f32) (v13 : Vec Ideal S1280x128 .f32) (G7 : BufTy.Contents (Elt Ideal) arg7.view.ty)
    (j : ℕ) (hj : j ≤ 5) (n : Fin 10240) (q : Fin 256) :
    arg7.view.read (Elt Ideal) (arg7.view.writes (Elt Ideal) G7 (pb_k0_t2 (F := Ideal) Variants.none c none i arg2 harg2 arg3 harg3 arg4 harg4 arg5 harg5 arg6 harg6 arg7 harg7 arg8 harg8 v5 v7 v13 G7 j)) (ix2 n q)
      = if n.val < 2048 * j then arg7.view.read (Elt Ideal) G7 (ix2 n q) + scat v5 v7 v13 n.val q else arg7.view.read (Elt Ideal) G7 (ix2 n q) := by
  induction j with
  | zero =>
    rw [pb_k0_t2.eq_1, View.writes_nil, if_neg (by omega)]
  | succ j ih =>
    have hjt : j < k0_t2_loop.trips := by rw [trips2]; omega
    have hs : pb_k0_t2 (F := Ideal) Variants.none c none i arg2 harg2 arg3 harg3 arg4 harg4 arg5 harg5 arg6 harg6 arg7 harg7 arg8 harg8 v5 v7 v13 G7 (j + 1)
        = tripL_k0_t2 (F := Ideal) Variants.none c none i arg2 harg2 arg3 harg3 arg4 harg4 arg5 harg5 arg6 harg6 arg7 harg7 arg8 harg8 v5 v7 v13 ⟨j, hjt⟩ (arg7.view.writes (Elt Ideal) G7 (pb_k0_t2 (F := Ideal) Variants.none c none i arg2 harg2 arg3 harg3 arg4 harg4 arg5 harg5 arg6 harg6 arg7 harg7 arg8 harg8 v5 v7 v13 G7 j)) ++ pb_k0_t2 (F := Ideal) Variants.none c none i arg2 harg2 arg3 harg3 arg4 harg4 arg5 harg5 arg6 harg6 arg7 harg7 arg8 harg8 v5 v7 v13 G7 j :=
      pb_k0_t2_succ (F := Ideal) Variants.none c none i arg2 harg2 arg3 harg3 arg4 harg4 arg5 harg5 arg6 harg6 arg7 harg7 arg8 harg8 v5 v7 v13 G7 ⟨j, hjt⟩
    have e : k0_off2 ⟨j, hjt⟩ = ![2048 * j, 0] := k0_off2_eq ⟨j, hjt⟩
    have ihj := ih (by omega)
    rw [hs, tripL2_eq, List.singleton_append]
    rcases Nat.lt_or_ge n.val (2048 * j) with h1 | h1
    · refine (View.read_writes_cons_rows_of_not_mem arg7.view G7 (Gen.k0_off2_inb ⟨j, hjt⟩) _ _ (ix2 n q) e rfl
        (by show n.val < 2048 * j ∨ 2048 * j + 2048 ≤ n.val; exact Or.inl h1)).trans ?_
      rw [ihj, if_pos h1, if_pos (by omega)]
    · rcases Nat.lt_or_ge n.val (2048 * j + 2048) with h3 | h3
      · have hp : n.val - 2048 * j < 2048 := by omega
        refine (View.read_writes_cons_rows_of_mem arg7.view G7 (Gen.k0_off2_inb ⟨j, hjt⟩) _ _ (ix2 n q) (ix2 ⟨n.val - 2048 * j, hp⟩ q) e
          (by show n.val = 2048 * j + (n.val - 2048 * j); omega) rfl).trans ?_
        have hidx : (Rect.unit (s := S10240x256) (k0_off2 ⟨j, hjt⟩) S2048x256.size (Gen.k0_off2_inb ⟨j, hjt⟩)).toLoadRect.idx (ix2 ⟨n.val - 2048 * j, hp⟩ q) = ix2 n q :=
          funext fun a => Fin.ext (by
            match a with
            | ⟨0, _⟩ =>
              show k0_off2 ⟨j, hjt⟩ 0 + 1 * (n.val - 2048 * j) = n.val
              rw [e]
              show 2048 * j + 1 * (n.val - 2048 * j) = n.val
              omega
            | ⟨1, _⟩ =>
              show k0_off2 ⟨j, hjt⟩ 1 + 1 * q.val = q.val
              rw [e]
              show 0 + 1 * q.val = q.val
              omega)
        have hn : 2048 * (⟨j, hjt⟩ : Fin k0_t2_loop.trips).val + (⟨n.val - 2048 * j, hp⟩ : Fin 2048).val = n.val := by
          show 2048 * j + (n.val - 2048 * j) = n.val
          omega
        rw [pay4_apply, if_pos (by omega), View.readAt_apply, hidx, ihj, if_neg (by omega), hn]
        rfl
      · refine (View.read_writes_cons_rows_of_not_mem arg7.view G7 (Gen.k0_off2_inb ⟨j, hjt⟩) _ _ (ix2 n q) e rfl
          (by show n.val < 2048 * j ∨ 2048 * j + 2048 ≤ n.val; exact Or.inr h3)).trans ?_
        rw [ihj, if_neg (by omega), if_neg (by omega)]

theorem scat_blockAdd (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (x0 : Vec Ideal S1280x1 .i32) (x1 : Vec Ideal S1x1280 .i32) (x2 : Vec Ideal S1280x1 .f32) (x3 : Vec Ideal S10240x128 .bf16) (v13 : Vec Ideal S1280x128 .f32)
    (h13 : ∀ r d, v13 (ix2 r d) = Cert.Spec.rows (fun n d => x3 (ix2 n d)) (x0 (ix2 r (0 : Fin 1))) d) (n : Fin 10240) (col : Fin 256) :
    scat (View.readAt (Elt Ideal) arg3.view (Rect.unit ![0, 0] S1x1280.size Gen.inb_S1x1280_S1x1280_0_0).toLoadRect (harg3.unread x1))
         (View.readAt (Elt Ideal) arg4.view (Rect.unit ![0, 0] S1280x1.size Gen.inb_S1280x1_S1280x1_0_0).toLoadRect (harg4.unread x2))
         v13 n.val col
      = Cert.Spec.blockAdd (fun n d => x3 (ix2 n d)) (fun r => x0 (ix2 r 0)) (fun r => x1 (ix2 0 r)) (fun r => x2 (ix2 r 0)) n col := by
  rw [readAt_unit_zero arg3.view _ hz2 Gen.inb_S1x1280_S1x1280_0_0, harg3.read_unread, readAt_unit_zero arg4.view _ hz2 Gen.inb_S1280x1_S1280x1_0_0, harg4.read_unread]
  unfold scat Cert.Spec.blockAdd
  dsimp only
  refine Finset.sum_congr rfl fun r _ => ?_
  have hm : msgK x2 v13 r col = Cert.Spec.msg (fun n d => x3 (ix2 n d)) (x0 (ix2 r 0)) (x2 (ix2 r 0)) col := by
    unfold msgK Cert.Spec.msg
    by_cases hq : col.val < 128
    · rw [dif_pos hq, dif_pos hq, h13]
    · rw [dif_neg hq, dif_neg hq, h13]
  rw [hm]
  by_cases h : (x1 (ix2 (0 : Fin 1) r) : BitVec 32) = BitVec.ofNat 32 n.val
  · rw [if_pos h.symm, if_pos h]
  · rw [if_neg (fun h' => h h'.symm), if_neg h]

theorem sumMid_apply (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : ¬condLast i) (x0 : Vec Ideal S1280x1 .i32) (x1 : Vec Ideal S1x1280 .i32) (x2 : Vec Ideal S1280x1 .f32) (x3 : Vec Ideal S10240x128 .bf16) (xs : Vec Ideal S10240x256 .f32)
    (n : Fin 10240) (col : Fin 256) :
    sumMid (F := Ideal) c i arg2 harg2 arg3 harg3 arg4 harg4 arg5 harg5 arg6 harg6 arg7 harg7 arg8 harg8 hc0 hc1 x0 x1 x2 x3 xs (ix2 n col) = xs (ix2 n col) + Cert.Spec.blockAdd (fun n d => x3 (ix2 n d)) (fun r => x0 (ix2 r 0)) (fun r => x1 (ix2 0 r)) (fun r => x2 (ix2 r 0)) n col := by
  unfold sumMid runMid
  dsimp only
  have ht : Scf.trips (0#32) (Scalar.addi 0#32 5#32) 1#32 = 5 := by decide
  rw [ht]
  have h13 : ∀ r d, runMid.sl.v13 c i arg2 harg2 arg3 harg3 arg4 harg4 arg5 harg5 arg6 harg6 arg7 harg7 arg8 harg8 x0 x3 (ix2 r d) = Cert.Spec.rows (fun n d => x3 (ix2 n d)) (x0 (ix2 r (0 : Fin 1))) d := fun r d => by
    unfold runMid.sl.v13
    exact v13_apply c i arg2 harg2 arg3 harg3 arg4 harg4 arg5 harg5 arg6 harg6 arg7 harg7 arg8 harg8 x0 x3 r d
  refine (loop2_inv c i arg2 harg2 arg3 harg3 arg4 harg4 arg5 harg5 arg6 harg6 arg7 harg7 arg8 harg8 _ _ _ (harg7.unread xs) 5 le_rfl n col).trans ?_
  rw [if_pos (by have := n.isLt; omega), harg7.read_unread]
  exact congrArg (xs (ix2 n col) + ·) (scat_blockAdd c i arg2 harg2 arg3 harg3 arg4 harg4 arg5 harg5 arg6 harg6 arg7 harg7 arg8 harg8 x0 x1 x2 x3 _ h13 n col)

theorem sumLast_apply (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec Ideal S1280x1 .i32) (x1 : Vec Ideal S1x1280 .i32) (x2 : Vec Ideal S1280x1 .f32) (x3 : Vec Ideal S10240x128 .bf16) (xs : Vec Ideal S10240x256 .f32)
    (n : Fin 10240) (col : Fin 256) :
    sumLast (F := Ideal) c i arg2 harg2 arg3 harg3 arg4 harg4 arg5 harg5 arg6 harg6 arg7 harg7 arg8 harg8 hc0 hc1 x0 x1 x2 x3 xs (ix2 n col) = xs (ix2 n col) + Cert.Spec.blockAdd (fun n d => x3 (ix2 n d)) (fun r => x0 (ix2 r 0)) (fun r => x1 (ix2 0 r)) (fun r => x2 (ix2 r 0)) n col := by
  unfold sumLast runLast
  dsimp only
  have ht : Scf.trips (0#32) (Scalar.addi 0#32 5#32) 1#32 = 5 := by decide
  rw [ht]
  have h13 : ∀ r d, runLast.sl.v13 c i arg2 harg2 arg3 harg3 arg4 harg4 arg5 harg5 arg6 harg6 arg7 harg7 arg8 harg8 x0 x3 (ix2 r d) = Cert.Spec.rows (fun n d => x3 (ix2 n d)) (x0 (ix2 r (0 : Fin 1))) d := fun r d => by
    unfold runLast.sl.v13
    exact v13_apply c i arg2 harg2 arg3 harg3 arg4 harg4 arg5 harg5 arg6 harg6 arg7 harg7 arg8 harg8 x0 x3 r d
  refine (loop2_inv c i arg2 harg2 arg3 harg3 arg4 harg4 arg5 harg5 arg6 harg6 arg7 harg7 arg8 harg8 _ _ _ (harg7.unread xs) 5 le_rfl n col).trans ?_
  rw [if_pos (by have := n.isLt; omega), harg7.read_unread]
  exact congrArg (xs (ix2 n col) + ·) (scat_blockAdd c i arg2 harg2 arg3 harg3 arg4 harg4 arg5 harg5 arg6 harg6 arg7 harg7 arg8 harg8 x0 x1 x2 x3 _ h13 n col)

theorem sumFirst_apply (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : condReset i) (hc1 : ¬condLast i) (x0 : Vec Ideal S1280x1 .i32) (x1 : Vec Ideal S1x1280 .i32) (x2 : Vec Ideal S1280x1 .f32) (x3 : Vec Ideal S10240x128 .bf16)
    (n : Fin 10240) (col : Fin 256) :
    sumFirst (F := Ideal) c i arg2 harg2 arg3 harg3 arg4 harg4 arg5 harg5 arg6 harg6 arg7 harg7 arg8 harg8 hc0 hc1 x0 x1 x2 x3 (ix2 n col) = Cert.Spec.blockAdd (fun n d => x3 (ix2 n d)) (fun r => x0 (ix2 r 0)) (fun r => x1 (ix2 0 r)) (fun r => x2 (ix2 r 0)) n col := by
  unfold sumFirst runFirst
  dsimp only
  have ht : Scf.trips (0#32) (Scalar.addi 0#32 5#32) 1#32 = 5 := by decide
  rw [ht, View.writes_append]
  have h13 : ∀ r d, runFirst.sl.v13 c i arg2 harg2 arg3 harg3 arg4 harg4 arg5 harg5 arg6 harg6 arg7 harg7 arg8 harg8 x0 x3 (ix2 r d) = Cert.Spec.rows (fun n d => x3 (ix2 n d)) (x0 (ix2 r (0 : Fin 1))) d := fun r d => by
    unfold runFirst.sl.v13
    exact v13_apply c i arg2 harg2 arg3 harg3 arg4 harg4 arg5 harg5 arg6 harg6 arg7 harg7 arg8 harg8 x0 x3 r d
  refine (loop2_inv c i arg2 harg2 arg3 harg3 arg4 harg4 arg5 harg5 arg6 harg6 arg7 harg7 arg8 harg8 _ _ _ _ 5 le_rfl n col).trans ?_
  rw [if_pos (by have := n.isLt; omega)]
  have hz : arg7.view.read (Elt Ideal) (arg7.view.writes (Elt Ideal) arg7.view.junk runFirst.sl.HS_1) (ix2 n col) = 0 := by
    unfold runFirst.sl.HS_1
    exact (View.read_writes_cons_unit_of_mem (Val := Elt Ideal) arg7.view arg7.view.junk Gen.inb_S10240x256_S10240x256_0_0 (k0_pay1 (F := Ideal)) [] (ix2 n col) (ix2 n col) rfl (fun a => by
      match a with
      | ⟨0, _⟩ => exact (Nat.zero_add _).symm
      | ⟨1, _⟩ => exact (Nat.zero_add _).symm)).trans (pay1_apply _)
  rw [hz, zero_add]
  exact scat_blockAdd c i arg2 harg2 arg3 harg3 arg4 harg4 arg5 harg5 arg6 harg6 arg7 harg7 arg8 harg8 x0 x1 x2 x3 _ h13 n col

theorem outLast_apply (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec Ideal S1280x1 .i32) (x1 : Vec Ideal S1x1280 .i32) (x2 : Vec Ideal S1280x1 .f32) (x3 : Vec Ideal S10240x128 .bf16) (xs : Vec Ideal S10240x256 .f32)
    (n : Fin 10240) (col : Fin 256) :
    outLast (F := Ideal) c i arg2 harg2 arg3 harg3 arg4 harg4 arg5 harg5 arg6 harg6 arg7 harg7 arg8 harg8 hc0 hc1 x0 x1 x2 x3 xs (ix3 (0 : Fin 1) n col) = sumLast (F := Ideal) c i arg2 harg2 arg3 harg3 arg4 harg4 arg5 harg5 arg6 harg6 arg7 harg7 arg8 harg8 hc0 hc1 x0 x1 x2 x3 xs (ix2 n col) := by
  unfold outLast sumLast runLast
  dsimp only
  refine (View.read_writes_cons_unit_of_mem (Val := Elt Ideal) arg6.view arg6.view.junk Gen.inb_S1x10240x256_S1x10240x256_0_0_0 _ [] (ix3 (0 : Fin 1) n col) (ix3 (0 : Fin 1) n col) rfl (fun a => by
      match a with
      | ⟨0, _⟩ => exact (Nat.zero_add _).symm
      | ⟨1, _⟩ => exact (Nat.zero_add _).symm
      | ⟨2, _⟩ => exact (Nat.zero_add _).symm)).trans ?_
  unfold k0_pay5
  refine (shapeCast_ab_1ab_apply _ _ (0 : Fin 1) n col).trans ?_
  unfold runLast.sl.v23
  exact congrFun (readAt_unit_zero arg7.view _ hz2 Gen.inb_S10240x256_S10240x256_0_0) (ix2 n col)

end Cert.KernelIdeal.Agg

end
-- ==== Proof.Agg.Value.lean ====
/-
  The aggregation call's result array, read index by index over the extended reals: slice `core` holds that core's
  partial sum — over its 250 blocks of 1280 edges, the messages of the edges whose destination is the row.
-/
import proofs.«401586_j49615462203743_3_alg».proof.Proof.Agg.Dat
import proofs.«401586_j49615462203743_3_alg».proof.Proof.Agg.PointValue
import Mathlib.Algebra.BigOperators.Fin
import Mathlib.Data.Fintype.BigOperators
import Mathlib.Logic.Equiv.Fin.Basic

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

namespace AggValue

/-! ## Regrouping a core's half of the edges: 250 blocks of 1280 -/

/-- Edge number of the r-th edge of block j of a core's half. -/
def edgeAt (core : Fin 2) (j : Fin 250) (r : Fin 1280) : Fin 640000 :=
  ⟨1280 * (250 * core.val + j.val) + r.val, by omega⟩

/-- A sum over a core's half of the edges is the sum over its 250 blocks of the sums over each block's 1280 edges. -/
theorem sum_half (core : Fin 2) (g : Fin 640000 → EReal) :
    ∑ j : Fin 250, ∑ r : Fin 1280, g (edgeAt core j r) = ∑ r' : Fin 320000, g (Cert.Spec.edgeOf core r') := by
  rw [← Fintype.sum_prod_type (fun p : Fin 250 × Fin 1280 => g (edgeAt core p.1 p.2))]
  refine Fintype.sum_equiv (finProdFinEquiv : Fin 250 × Fin 1280 ≃ Fin (250 * 1280)) _ _ (fun p => ?_)
  refine congrArg g (Fin.ext ?_)
  show 1280 * (250 * core.val + p.1.val) + p.2.val = 320000 * core.val + (p.2.val + 1280 * p.1.val)
  omega

section Work

variable (V : (c : Dev nD) → (b : Ref sig .tc) → Buf (Elt Ideal) ((c : Thread nD τ).loc b))

/-! ## The blocks of a point, at their literal types -/

/-- The source words of a point's 1280 edges. -/
abbrev srcBlk (c : Dev nD) (t : Fin cfg0.N) : Vec Ideal S1280x1 .i32 := iblk V c 0 t
/-- Their destination words. -/
abbrev dstBlk (c : Dev nD) (t : Fin cfg0.N) : Vec Ideal S1x1280 .i32 := iblk V c 1 t
/-- Their weights. -/
abbrev wgtBlk (c : Dev nD) (t : Fin cfg0.N) : Vec Ideal S1280x1 .f32 := iblk V c 2 t
/-- The padded node table, whole at every point. -/
abbrev tabBlk (c : Dev nD) (t : Fin cfg0.N) : Vec Ideal S10240x128 .bf16 := iblk V c 3 t

/-- What point `t` adds to row `n`, column `col` of the running sum. -/
def ptAdd (c : Dev nD) (t : Fin cfg0.N) (n : Fin 10240) (col : Fin 256) : EReal :=
  Cert.Spec.blockAdd (fun n d => tabBlk V c t (ix2 n d)) (fun r => srcBlk V c t (ix2 r 0)) (fun r => dstBlk V c t (ix2 0 r))
    (fun r => wgtBlk V c t (ix2 r 0)) n col

theorem ptLt (core : Fin 2) (j : ℕ) (hj : j < 250) : 250 * core.val + j < cfg0.N := by
  rw [show cfg0.N = 500 from N_0]; omega

/-- The flat point of edge block `j` of a core. -/
abbrev pt (core : Fin 2) (j : ℕ) (hj : j < 250) : Fin cfg0.N := ⟨250 * core.val + j, ptLt core j hj⟩

attribute [local irreducible] sumAt sumFirst sumMid sumLast outLast

/-! ## The running sum after block j of a core: the blocks 0 … j added -/

theorem sumAt_apply (c : Dev nD) (core : Fin 2) (n : Fin 10240) (col : Fin 256) :
    ∀ (j : ℕ) (hj : j < 250) (t : Fin cfg0.N), t.val = 250 * core.val + j →
      (sumAt V c t.val t.isLt : Vec Ideal S10240x256 .f32) (ix2 n col)
        = ∑ s : Fin (j + 1), ptAdd V c (pt core s.val (Nat.lt_of_lt_of_le s.isLt hj)) n col
  | 0, hj, t, ht => by
    have h0 : t.val % 250 = 0 := by omega
    have h1 : ¬t.val % 250 = 249 := by omega
    have et : pt core 0 hj = t := Fin.ext ht.symm
    refine (congrFun (sumAt_first V c t h0 h1) (ix2 n col)).trans ?_
    refine (sumFirst_apply c (grid0.coords t) (ms0 t) (hs0 t) (ms1 t) (hs1 t) (ms2 t) (hs2 t) (ms3 t) (hs3 t) (ms4 t) (hs4 t) scSum (Memref.isWhole_whole _) scRows (Memref.isWhole_whole _) ((hcondReset t).mpr h0) (fun h => h1 ((hcondLast t).mp h)) (srcBlk V c t) (dstBlk V c t) (wgtBlk V c t) (tabBlk V c t) n col).trans ?_
    rw [Fin.sum_univ_one]
    show ptAdd V c t n col = ptAdd V c (pt core 0 hj) n col
    rw [et]
  | j + 1, hj, t, ht => by
    have h0 : ¬t.val % 250 = 0 := by omega
    have hlt : t.val - 1 < cfg0.N := Nat.lt_of_le_of_lt (Nat.sub_le _ _) t.isLt
    have ih := sumAt_apply c core n col j (Nat.lt_of_succ_lt hj) ⟨t.val - 1, hlt⟩ (by show t.val - 1 = 250 * core.val + j; omega)
    have et : pt core (j + 1) hj = t := Fin.ext ht.symm
    rw [Fin.sum_univ_castSucc]
    by_cases h1 : t.val % 250 = 249
    · refine (congrFun (sumAt_last V c t h0 h1) (ix2 n col)).trans ?_
      refine (sumLast_apply c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (srcBlk V c t) (dstBlk V c t) (wgtBlk V c t) (tabBlk V c t) (sumAt V c (t.val - 1) hlt) n col).trans ?_
      refine congrArg₂ (· + ·) ih ?_
      show ptAdd V c t n col = ptAdd V c (pt core (j + 1) hj) n col
      rw [et]
    · refine (congrFun (sumAt_mid V c t h0 h1) (ix2 n col)).trans ?_
      refine (sumMid_apply c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) (fun h => h1 ((hcondLast t).mp h)) (srcBlk V c t) (dstBlk V c t) (wgtBlk V c t) (tabBlk V c t) (sumAt V c (t.val - 1) hlt) n col).trans ?_
      refine congrArg₂ (· + ·) ih ?_
      show ptAdd V c t n col = ptAdd V c (pt core (j + 1) hj) n col
      rw [et]

/-! ## The blocks, read off the arrays -/

/-- The windows' index maps, decided over the grid: the edge windows move with the flat point, the table's block
    never moves, the result's block is the core's slice. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val / 250 ∧ win0_4.index t (1 : Fin 3) = 0 ∧ win0_4.index t (2 : Fin 3) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val / 250 ∧ win0_4.index t (1 : Fin 3) = 0 ∧ win0_4.index t (2 : Fin 3) = 0)

/-- Edge r of point t's block is edge 1280·t + r of the source column. -/
theorem srcBlk_apply (c : Dev nD) (t : Fin cfg0.N) (r : Fin 1280) (R : Fin 640000) (hR : R.val = 1280 * t.val + r.val) :
    srcBlk V c t (ix2 r 0) = (V c main_v2 : S640000x1.Idx → BitVec 32) (ix2 R 0) := by
  obtain ⟨e0, e1, -⟩ := idx_facts t
  show ((cfg0.win 0).blk t).view.read (Elt Ideal) (V c (Pipeline.arrRef spec0 0)) (ix2 r 0) = _
  rw [View.read_apply]
  show V c main_v2 (((cfg0.win 0).blk t).view.emb (ix2 r 0)) = V c main_v2 (ix2 R 0)
  congr 1
  funext a
  apply Fin.ext
  match a with
  | ⟨0, _⟩ => show win0_0.index t (0 : Fin 2) * 1280 + 1 * r.val = R.val; rw [e0, hR]; omega
  | ⟨1, _⟩ => show win0_0.index t (1 : Fin 2) * 1 + 1 * 0 = 0; rw [e1]

/-- … of the destination row. -/
theorem dstBlk_apply (c : Dev nD) (t : Fin cfg0.N) (r : Fin 1280) (R : Fin 640000) (hR : R.val = 1280 * t.val + r.val) :
    dstBlk V c t (ix2 0 r) = (V c main_v3 : S1x640000.Idx → BitVec 32) (ix2 0 R) := by
  obtain ⟨-, -, e0, e1, -⟩ := idx_facts t
  show ((cfg0.win 1).blk t).view.read (Elt Ideal) (V c (Pipeline.arrRef spec0 1)) (ix2 0 r) = _
  rw [View.read_apply]
  show V c main_v3 (((cfg0.win 1).blk t).view.emb (ix2 0 r)) = V c main_v3 (ix2 0 R)
  congr 1
  funext a
  apply Fin.ext
  match a with
  | ⟨0, _⟩ => show win0_1.index t (0 : Fin 2) * 1 + 1 * 0 = 0; rw [e0]
  | ⟨1, _⟩ => show win0_1.index t (1 : Fin 2) * 1280 + 1 * r.val = R.val; rw [e1, hR]; omega

/-- … of the weight column. -/
theorem wgtBlk_apply (c : Dev nD) (t : Fin cfg0.N) (r : Fin 1280) (R : Fin 640000) (hR : R.val = 1280 * t.val + r.val) :
    wgtBlk V c t (ix2 r 0) = (V c main_arg1 : S640000x1.Idx → EReal) (ix2 R 0) := by
  obtain ⟨-, -, -, -, e0, e1, -⟩ := idx_facts t
  show ((cfg0.win 2).blk t).view.read (Elt Ideal) (V c (Pipeline.arrRef spec0 2)) (ix2 r 0) = _
  rw [View.read_apply]
  show V c main_arg1 (((cfg0.win 2).blk t).view.emb (ix2 r 0)) = V c main_arg1 (ix2 R 0)
  congr 1
  funext a
  apply Fin.ext
  match a with
  | ⟨0, _⟩ => show win0_2.index t (0 : Fin 2) * 1280 + 1 * r.val = R.val; rw [e0, hR]; omega
  | ⟨1, _⟩ => show win0_2.index t (1 : Fin 2) * 1 + 1 * 0 = 0; rw [e1]

/-- The table's block is the whole padded table. -/
theorem tabBlk_apply (c : Dev nD) (t : Fin cfg0.N) (n : Fin 10240) (d : Fin 128) :
    tabBlk V c t (ix2 n d) = (V c main_v1 : S10240x128.Idx → EReal) (ix2 n d) := by
  obtain ⟨-, -, -, -, -, -, e0, e1, -⟩ := idx_facts t
  show ((cfg0.win 3).blk t).view.read (Elt Ideal) (V c (Pipeline.arrRef spec0 3)) (ix2 n d) = _
  rw [View.read_apply]
  show V c main_v1 (((cfg0.win 3).blk t).view.emb (ix2 n d)) = V c main_v1 (ix2 n d)
  congr 1
  funext a
  apply Fin.ext
  match a with
  | ⟨0, _⟩ => show win0_3.index t (0 : Fin 2) * 10240 + 1 * n.val = n.val; rw [e0]; omega
  | ⟨1, _⟩ => show win0_3.index t (1 : Fin 2) * 128 + 1 * d.val = d.val; rw [e1]; omega

/-! ## The result array -/

/-- The messages-to-row-n summand of an edge, over the arrays the call is entered with. -/
def edgeTerm (c : Dev nD) (n : Fin 10240) (col : Fin 256) (R : Fin 640000) : EReal :=
  if (V c main_v3 : S1x640000.Idx → BitVec 32) (ix2 0 R) = BitVec.ofNat 32 n.val then
    Cert.Spec.msg (fun n d => (V c main_v1 : S10240x128.Idx → EReal) (ix2 n d)) ((V c main_v2 : S640000x1.Idx → BitVec 32) (ix2 R 0))
      ((V c main_arg1 : S640000x1.Idx → EReal) (ix2 R 0)) col
  else 0

/-- What a point adds, over the arrays: its 1280 edges' summands. -/
theorem ptAdd_eq (c : Dev nD) (core : Fin 2) (j : Fin 250) (n : Fin 10240) (col : Fin 256) :
    ptAdd V c (pt core j.val j.isLt) n col = ∑ r : Fin 1280, edgeTerm V c n col (edgeAt core j r) := by
  have htab : (fun (n : Fin 10240) (d : Fin 128) => tabBlk V c (pt core j.val j.isLt) (ix2 n d))
      = fun n d => (V c main_v1 : S10240x128.Idx → EReal) (ix2 n d) :=
    funext fun n => funext fun d => tabBlk_apply V c _ n d
  unfold ptAdd Cert.Spec.blockAdd
  rw [htab]
  refine Finset.sum_congr rfl fun r _ => ?_
  beta_reduce
  rw [srcBlk_apply V c (pt core j.val j.isLt) r (edgeAt core j r) rfl, dstBlk_apply V c (pt core j.val j.isLt) r (edgeAt core j r) rfl,
    wgtBlk_apply V c (pt core j.val j.isLt) r (edgeAt core j r) rfl]
  rfl

/-- The result array's contents: slice `core` at that core's partial sum. -/
def aggG (c : Dev nD) : S2x10240x256.Idx → EReal := fun i =>
  Cert.Spec.partialSum (fun n d => (V c main_v1 : S10240x128.Idx → EReal) (ix2 n d))
    (fun R => (V c main_v2 : S640000x1.Idx → BitVec 32) (ix2 R 0))
    (fun R => (V c main_v3 : S1x640000.Idx → BitVec 32) (ix2 0 R))
    (fun R => (V c main_arg1 : S640000x1.Idx → EReal) (ix2 R 0)) (i 0) (i 1) (i 2)

/-- After a core's last block the running sum is the core's partial sum. -/
theorem sumAt_last_apply (c : Dev nD) (t : Fin cfg0.N) (h1 : t.val % 250 = 249) (core : Fin 2) (hcore : t.val / 250 = core.val)
    (n : Fin 10240) (col : Fin 256) :
    (sumAt V c t.val t.isLt : Vec Ideal S10240x256 .f32) (ix2 n col) = aggG V c (ix3 core n col) := by
  refine (sumAt_apply V c core n col 249 (by omega) t (by omega)).trans ?_
  show ∑ s : Fin 250, ptAdd V c (pt core s.val s.isLt) n col = _
  rw [Finset.sum_congr rfl fun s _ => ptAdd_eq V c core s n col, sum_half core (edgeTerm V c n col)]
  rfl

/-- A block of the result window, cut and read: slice `core` of the array, the rows and columns as they are. -/
theorem cut_eq_read (t : Fin cfg0.N) (core : Fin 2) (hcore : t.val / 250 = core.val) (X : Vec Ideal S1x10240x256 .f32)
    (G : S2x10240x256.Idx → EReal)
    (h : ∀ (n : Fin 10240) (col : Fin 256), X (ix3 (0 : Fin 1) n col) = G (ix3 core n col)) :
    (cfg0.win 4).cut (grid0.coords t) X = ((cfg0.win 4).blk t).view.read (Elt Ideal) G := by
  obtain ⟨-, -, -, -, -, -, -, -, e0, e1, e2⟩ := idx_facts t
  funext y
  rw [View.read_apply]
  have y0 : (y 0).val < 1 := (y 0).isLt
  have y1 : (y 1).val < 10240 := (y 1).isLt
  have y2 : (y 2).val < 256 := (y 2).isLt
  have hx : (cfg0.win 4).xinj (grid0.coords t) y = ix3 (0 : Fin 1) ⟨(y 1).val, y1⟩ ⟨(y 2).val, y2⟩ := by
    funext a
    apply Fin.ext
    match a with
    | ⟨0, _⟩ => show (y 0).val = 0; omega
    | ⟨1, _⟩ => rfl
    | ⟨2, _⟩ => rfl
  have he : ((cfg0.win 4).blk t).view.emb y = ix3 core ⟨(y 1).val, y1⟩ ⟨(y 2).val, y2⟩ := by
    funext a
    apply Fin.ext
    match a with
    | ⟨0, _⟩ => show win0_4.index t (0 : Fin 3) * 1 + 1 * (y 0).val = core.val; rw [e0, hcore]; omega
    | ⟨1, _⟩ => show win0_4.index t (1 : Fin 3) * 10240 + 1 * (y 1).val = (y 1).val; rw [e1]; omega
    | ⟨2, _⟩ => show win0_4.index t (2 : Fin 3) * 256 + 1 * (y 2).val = (y 2).val; rw [e2]; omega
  show X ((cfg0.win 4).xinj (grid0.coords t) y) = G (((cfg0.win 4).blk t).view.emb y)
  rw [hx, he]
  exact h _ _

/-- What a core's last point writes back is the core's slice of `aggG`. -/
theorem flushed_eq (c : Dev nD) (t : Fin cfg0.N) (hf : (cfg0.win 4).flush t = true) :
    (dat0 V c).flushed 4 t = ((cfg0.win 4).blk t).view.read (Elt Ideal) (aggG V c) := by
  have hN : cfg0.N = 500 := N_0
  have h1 : t.val % 250 = 249 := (flush0_4 t).mp hf
  have h0 : ¬t.val % 250 = 0 := by omega
  have htl : t.val < 500 := lt_of_lt_of_eq t.isLt hN
  have hc : t.val / 250 < 2 := by omega
  show (cfg0.win 4).cut (grid0.coords t) ((dat0 V c).after 4 t) = _
  rw [after0_4, outAt_last V c t h0 h1]
  refine cut_eq_read t ⟨t.val / 250, hc⟩ rfl _ _ (fun n col => ?_)
  refine (outLast_apply c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (srcBlk V c t) (dstBlk V c t) (wgtBlk V c t) (tabBlk V c t) (sumAt V c (t.val - 1) (Nat.lt_of_le_of_lt (Nat.sub_le _ _) t.isLt)) n col).trans ?_
  refine (congrFun (sumAt_last V c t h0 h1) (ix2 n col)).symm.trans ?_
  exact sumAt_last_apply V c t h1 ⟨t.val / 250, hc⟩ rfl n col

/-- Every index of the result array is in the block its core's last point writes back. -/
theorem covered (c : Dev nD) (i : S2x10240x256.Idx) :
    ∃ t : Fin cfg0.N, (cfg0.win 4).flush t = true ∧ i ∈ ((cfg0.win 4).blk t).view.set := by
  have i0 : (i 0).val < 2 := (i 0).isLt
  have i1 : (i 1).val < 10240 := (i 1).isLt
  have i2 : (i 2).val < 256 := (i 2).isLt
  have hb : 249 < 250 := by omega
  obtain ⟨-, -, -, -, -, -, -, -, e0, e1, e2⟩ := idx_facts (pt ⟨(i 0).val, i0⟩ 249 hb)
  have e0' : win0_4.index (pt ⟨(i 0).val, i0⟩ 249 hb) (0 : Fin 3) = (250 * (i 0).val + 249) / 250 := e0
  refine ⟨pt ⟨(i 0).val, i0⟩ 249 hb, (flush0_4 _).mpr (by show (250 * (i 0).val + 249) % 250 = 249; omega), ?_⟩
  show i ∈ ((View.whole main_v4).slice (win0_4.rect (pt ⟨(i 0).val, i0⟩ 249 hb))).set
  rw [View.set_slice_whole, Rect.mem_set_unit]
  intro a
  match a with
  | ⟨0, _⟩ =>
    show win0_4.index (pt ⟨(i 0).val, i0⟩ 249 hb) (0 : Fin 3) * 1 ≤ (i 0).val
      ∧ (i 0).val < win0_4.index (pt ⟨(i 0).val, i0⟩ 249 hb) (0 : Fin 3) * 1 + 1
    rw [e0']; omega
  | ⟨1, _⟩ =>
    show win0_4.index (pt ⟨(i 0).val, i0⟩ 249 hb) (1 : Fin 3) * 10240 ≤ (i 1).val
      ∧ (i 1).val < win0_4.index (pt ⟨(i 0).val, i0⟩ 249 hb) (1 : Fin 3) * 10240 + 10240
    rw [e1]; omega
  | ⟨2, _⟩ =>
    show win0_4.index (pt ⟨(i 0).val, i0⟩ 249 hb) (2 : Fin 3) * 256 ≤ (i 2).val
      ∧ (i 2).val < win0_4.index (pt ⟨(i 0).val, i0⟩ 249 hb) (2 : Fin 3) * 256 + 256
    rw [e2]; omega

/-- The result array after the call: `aggG`. -/
theorem final_agg (c : Dev nD) : (dat0 V c).arrAt 4 cfg0.N = aggG V c :=
  (dat0 V c).arrAt_eq_of_cover 4 (aggG V c) (flushed_eq V c) (covered c)

end Work

end AggValue

theorem agg_value (V : (c : Dev nD) → (b : Ref sig .tc) → Buf (Elt Ideal) ((c : Thread nD τ).loc b)) (c : Dev nD) (core : Fin 2) (n : Fin 10240) (col : Fin 256) :
    ((dat0 (F := Ideal) V c).arrAt 4 cfg0.N : S2x10240x256.Idx → EReal) (ix3 core n col)
      = Cert.Spec.partialSum (fun n d => (V c main_v1 : S10240x128.Idx → EReal) (ix2 n d))
          (fun R => (V c main_v2 : S640000x1.Idx → BitVec 32) (ix2 R 0))
          (fun R => (V c main_v3 : S1x640000.Idx → BitVec 32) (ix2 0 R))
          (fun R => (V c main_arg1 : S640000x1.Idx → EReal) (ix2 R 0)) core n col := by
  exact (congrFun (AggValue.final_agg V c) (ix3 core n col)).trans rfl

end Cert.KernelIdeal.Agg

end
-- ==== Proof.Comb.Value.lean ====
/-
  The combine call's result array, read index by index over the extended reals.
-/
import proofs.«401586_j49615462203743_3_alg».proof.Proof.Comb.Dat
import proofs.«401586_j49615462203743_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

section Generic

variable {F : FTy → Type} [FloatOps F]

theorem hz : (![0, 0] : Fin 2 → Nat) = fun _ => 0 := funext fun a => by fin_cases a <;> rfl

/-- What the body leaves in the output block is its one store's payload: the fourth affine map of the sum of the
    three affine maps of the loaded blocks. -/
theorem outComb_eq (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) :
    outComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = k1_pay1 (k1_pay2 x0 x1 x2 x3 x5 x7 x4 x6 x8) x9 x10 := by
  unfold outComb
  rw [View.read_writes_eq_canon _ _ _ (coverComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold runComb
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1000x128) hz, View.ld_unit_zero (S := S128x128) hz, View.ld_unit_zero (S := S1x128) hz]

end Generic

/-! ## The payload at an index -/

/-! ## The matrix product of a block of rows with a square matrix, read at an index -/

theorem lhs_mm_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_mm_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_mm_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_mm_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Into a zero accumulator the product of a 1000×128 block with a 128×128 matrix is, at (p, o), the sum over the
    contracted feature. -/
theorem mm_apply (a : FVec Ideal S1000x128 .bf16) (b : FVec Ideal S128x128 .bf16) (p : Fin 1000) (o : Fin 128) :
    (matmul dot_S1000x128_S128x128_S1000x128_1_0_0_1_n_n none a b (constant (F := Ideal) S1000x128 .f32 0x00000000#32) : S1000x128.Idx → EReal) (ix2 p o)
      = ∑ d : Fin 128, (a (ix2 p d) : EReal) * (b (ix2 d o) : EReal) := by
  refine (Ideal.matmul_constant_zero_apply dot_S1000x128_S128x128_S1000x128_1_0_0_1_n_n none _ _ (ix2 p o)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p o) ((ValueIdx.contrEquiv1 dot_S1000x128_S128x128_S1000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S1000x128_S128x128_S1000x128_1_0_0_1_n_n.rhsIdx (ix2 p o) ((ValueIdx.contrEquiv1 dot_S1000x128_S128x128_S1000x128_1_0_0_1_n_n 128 rfl rfl).symm k) = ix2 k o := funext fun a => Fin.ext (by
    match a with
    | ⟨0, _⟩ => exact (rhs_mm_0 _ _).trans hk
    | ⟨1, _⟩ => exact rhs_mm_1 _ _)
  rw [el, er]

/-- A 1×128 row broadcast down the 1000 rows of a block reads its column. -/
theorem bcast_apply (v : Vec Ideal S1x128 .f32) (p : Fin 1000) (o : Fin 128) :
    (broadcastTo S1000x128 v broadcasts_S1x128_S1000x128 : S1000x128.Idx → EReal) (ix2 p o)
      = v (ix2 0 o) := by
  exact broadcastTo_apply v broadcasts_S1x128_S1000x128 (ix2 p o) (ix2 0 o) (fun a => match a with
    | ⟨0, _⟩ => rfl
    | ⟨1, _⟩ => rfl)

/-- The stored payload at row p, feature o of the block: the combine stage of the loaded blocks. -/
theorem pay_apply (x0 x1 x2 : Vec Ideal S1000x128 .f32) (x3 x5 x7 x9 : Vec Ideal S128x128 .f32)
    (x4 x6 x8 x10 : Vec Ideal S1x128 .f32) (p : Fin 1000) (o : Fin 128) :
    (k1_pay1 (F := Ideal) (k1_pay2 x0 x1 x2 x3 x5 x7 x4 x6 x8) x9 x10 : S1000x128.Idx → EReal) (ix2 p o)
      = (∑ k : Fin 128,
          ((((∑ d : Fin 128, (x0 (ix2 p d) : EReal) * (x3 (ix2 d k) : EReal)) + (x4 (ix2 0 k) : EReal))
              + ((∑ d : Fin 128, (x1 (ix2 p d) : EReal) * (x5 (ix2 d k) : EReal)) + (x6 (ix2 0 k) : EReal)))
            + ((∑ d : Fin 128, (x2 (ix2 p d) : EReal) * (x7 (ix2 d k) : EReal)) + (x8 (ix2 0 k) : EReal))) * (x9 (ix2 k o) : EReal))
        + (x10 (ix2 0 o) : EReal) := by
  dsimp only [k1_pay1, k1_pay2]
  simp only [addf_apply, truncf_apply, mm_apply, bcast_apply, shapeCast_self]

section Value

variable (V : (c : Dev nD) → (b : Ref sig .tc) → Buf (Elt Ideal) ((c : Thread nD τ).loc b))

/-- The printed index maps, decided over the grid: the three node-row windows and the output move one block of rows
    per point; the weight matrices and bias rows stay at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- Window 0's block at point t is rows 1000·t … 1000·t + 999 of its array. -/
theorem read_w0 (c : Dev nD) (t : Fin cfg1.N) (p : Fin 1000) (d : Fin 128) (k : S10000x128.Idx)
    (hk0 : (k 0).val = 1000 * t.val + p.val) (hk1 : (k 1).val = d.val) :
    (iblk1 V c 0 t : Vec Ideal S1000x128 .f32) (ix2 p d) = (V c main_arg0 : S10000x128.Idx → EReal) k := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_arg0 : S10000x128.Idx → EReal) (((cfg1.win 0).blk t).view.emb (ix2 p d)) = _
  refine congrArg _ (funext fun a => Fin.ext ?_)
  match a with
  | ⟨0, _⟩ => show win1_0.index t (0 : Fin 2) * 1000 + 1 * p.val = (k 0).val; rw [e0_0, hk0]; omega
  | ⟨1, _⟩ => show win1_0.index t (1 : Fin 2) * 128 + 1 * d.val = (k 1).val; rw [e0_1, hk1]; omega

/-- Window 1's block at point t is rows 1000·t … 1000·t + 999 of its array. -/
theorem read_w1 (c : Dev nD) (t : Fin cfg1.N) (p : Fin 1000) (d : Fin 128) (k : S10000x128.Idx)
    (hk0 : (k 0).val = 1000 * t.val + p.val) (hk1 : (k 1).val = d.val) :
    (iblk1 V c 1 t : Vec Ideal S1000x128 .f32) (ix2 p d) = (V c main_v20 : S10000x128.Idx → EReal) k := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v20 : S10000x128.Idx → EReal) (((cfg1.win 1).blk t).view.emb (ix2 p d)) = _
  refine congrArg _ (funext fun a => Fin.ext ?_)
  match a with
  | ⟨0, _⟩ => show win1_1.index t (0 : Fin 2) * 1000 + 1 * p.val = (k 0).val; rw [e1_0, hk0]; omega
  | ⟨1, _⟩ => show win1_1.index t (1 : Fin 2) * 128 + 1 * d.val = (k 1).val; rw [e1_1, hk1]; omega

/-- Window 2's block at point t is rows 1000·t … 1000·t + 999 of its array. -/
theorem read_w2 (c : Dev nD) (t : Fin cfg1.N) (p : Fin 1000) (d : Fin 128) (k : S10000x128.Idx)
    (hk0 : (k 0).val = 1000 * t.val + p.val) (hk1 : (k 1).val = d.val) :
    (iblk1 V c 2 t : Vec Ideal S1000x128 .f32) (ix2 p d) = (V c main_v22 : S10000x128.Idx → EReal) k := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v22 : S10000x128.Idx → EReal) (((cfg1.win 2).blk t).view.emb (ix2 p d)) = _
  refine congrArg _ (funext fun a => Fin.ext ?_)
  match a with
  | ⟨0, _⟩ => show win1_2.index t (0 : Fin 2) * 1000 + 1 * p.val = (k 0).val; rw [e2_0, hk0]; omega
  | ⟨1, _⟩ => show win1_2.index t (1 : Fin 2) * 128 + 1 * d.val = (k 1).val; rw [e2_1, hk1]; omega

/-- Window 3's block is its whole 128×128 array at every point. -/
theorem read_w3 (c : Dev nD) (t : Fin cfg1.N) (d k : Fin 128) :
    (iblk1 V c 3 t : Vec Ideal S128x128 .f32) (ix2 d k) = (V c main_v23 : S128x128.Idx → EReal) (ix2 d k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v23 : S128x128.Idx → EReal) (((cfg1.win 3).blk t).view.emb (ix2 d k)) = _
  refine congrArg _ (funext fun a => Fin.ext ?_)
  match a with
  | ⟨0, _⟩ => show win1_3.index t (0 : Fin 2) * 128 + 1 * d.val = d.val; rw [e3_0]; omega
  | ⟨1, _⟩ => show win1_3.index t (1 : Fin 2) * 128 + 1 * k.val = k.val; rw [e3_1]; omega

/-- Window 5's block is its whole 128×128 array at every point. -/
theorem read_w5 (c : Dev nD) (t : Fin cfg1.N) (d k : Fin 128) :
    (iblk1 V c 5 t : Vec Ideal S128x128 .f32) (ix2 d k) = (V c main_v24 : S128x128.Idx → EReal) (ix2 d k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v24 : S128x128.Idx → EReal) (((cfg1.win 5).blk t).view.emb (ix2 d k)) = _
  refine congrArg _ (funext fun a => Fin.ext ?_)
  match a with
  | ⟨0, _⟩ => show win1_5.index t (0 : Fin 2) * 128 + 1 * d.val = d.val; rw [e5_0]; omega
  | ⟨1, _⟩ => show win1_5.index t (1 : Fin 2) * 128 + 1 * k.val = k.val; rw [e5_1]; omega

/-- Window 7's block is its whole 128×128 array at every point. -/
theorem read_w7 (c : Dev nD) (t : Fin cfg1.N) (d k : Fin 128) :
    (iblk1 V c 7 t : Vec Ideal S128x128 .f32) (ix2 d k) = (V c main_v25 : S128x128.Idx → EReal) (ix2 d k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v25 : S128x128.Idx → EReal) (((cfg1.win 7).blk t).view.emb (ix2 d k)) = _
  refine congrArg _ (funext fun a => Fin.ext ?_)
  match a with
  | ⟨0, _⟩ => show win1_7.index t (0 : Fin 2) * 128 + 1 * d.val = d.val; rw [e7_0]; omega
  | ⟨1, _⟩ => show win1_7.index t (1 : Fin 2) * 128 + 1 * k.val = k.val; rw [e7_1]; omega

/-- Window 9's block is its whole 128×128 array at every point. -/
theorem read_w9 (c : Dev nD) (t : Fin cfg1.N) (d k : Fin 128) :
    (iblk1 V c 9 t : Vec Ideal S128x128 .f32) (ix2 d k) = (V c main_v26 : S128x128.Idx → EReal) (ix2 d k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v26 : S128x128.Idx → EReal) (((cfg1.win 9).blk t).view.emb (ix2 d k)) = _
  refine congrArg _ (funext fun a => Fin.ext ?_)
  match a with
  | ⟨0, _⟩ => show win1_9.index t (0 : Fin 2) * 128 + 1 * d.val = d.val; rw [e9_0]; omega
  | ⟨1, _⟩ => show win1_9.index t (1 : Fin 2) * 128 + 1 * k.val = k.val; rw [e9_1]; omega

/-- Window 4's block is its whole 1×128 row at every point. -/
theorem read_w4 (c : Dev nD) (t : Fin cfg1.N) (k : Fin 128) :
    (iblk1 V c 4 t : Vec Ideal S1x128 .f32) (ix2 0 k) = (V c main_v27 : S1x128.Idx → EReal) (ix2 0 k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v27 : S1x128.Idx → EReal) (((cfg1.win 4).blk t).view.emb (ix2 0 k)) = _
  refine congrArg _ (funext fun a => Fin.ext ?_)
  match a with
  | ⟨0, _⟩ => show win1_4.index t (0 : Fin 2) * 1 + 1 * 0 = 0; rw [e4_0]
  | ⟨1, _⟩ => show win1_4.index t (1 : Fin 2) * 128 + 1 * k.val = k.val; rw [e4_1]; omega

/-- Window 6's block is its whole 1×128 row at every point. -/
theorem read_w6 (c : Dev nD) (t : Fin cfg1.N) (k : Fin 128) :
    (iblk1 V c 6 t : Vec Ideal S1x128 .f32) (ix2 0 k) = (V c main_v28 : S1x128.Idx → EReal) (ix2 0 k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v28 : S1x128.Idx → EReal) (((cfg1.win 6).blk t).view.emb (ix2 0 k)) = _
  refine congrArg _ (funext fun a => Fin.ext ?_)
  match a with
  | ⟨0, _⟩ => show win1_6.index t (0 : Fin 2) * 1 + 1 * 0 = 0; rw [e6_0]
  | ⟨1, _⟩ => show win1_6.index t (1 : Fin 2) * 128 + 1 * k.val = k.val; rw [e6_1]; omega

/-- Window 8's block is its whole 1×128 row at every point. -/
theorem read_w8 (c : Dev nD) (t : Fin cfg1.N) (k : Fin 128) :
    (iblk1 V c 8 t : Vec Ideal S1x128 .f32) (ix2 0 k) = (V c main_v29 : S1x128.Idx → EReal) (ix2 0 k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v29 : S1x128.Idx → EReal) (((cfg1.win 8).blk t).view.emb (ix2 0 k)) = _
  refine congrArg _ (funext fun a => Fin.ext ?_)
  match a with
  | ⟨0, _⟩ => show win1_8.index t (0 : Fin 2) * 1 + 1 * 0 = 0; rw [e8_0]
  | ⟨1, _⟩ => show win1_8.index t (1 : Fin 2) * 128 + 1 * k.val = k.val; rw [e8_1]; omega

/-- Window 10's block is its whole 1×128 row at every point. -/
theorem read_w10 (c : Dev nD) (t : Fin cfg1.N) (k : Fin 128) :
    (iblk1 V c 10 t : Vec Ideal S1x128 .f32) (ix2 0 k) = (V c main_v30 : S1x128.Idx → EReal) (ix2 0 k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (V c main_v30 : S1x128.Idx → EReal) (((cfg1.win 10).blk t).view.emb (ix2 0 k)) = _
  refine congrArg _ (funext fun a => Fin.ext ?_)
  match a with
  | ⟨0, _⟩ => show win1_10.index t (0 : Fin 2) * 1 + 1 * 0 = 0; rw [e10_0]
  | ⟨1, _⟩ => show win1_10.index t (1 : Fin 2) * 128 + 1 * k.val = k.val; rw [e10_1]; omega

/-- The result array as one function of the eleven input arrays: the combine stage, index by index. -/
def G (c : Dev nD) : S10000x128.Idx → EReal := fun i =>
  Cert.Spec.combine (fun n d => (V c main_arg0 : S10000x128.Idx → EReal) (ix2 n d)) (fun n d => (V c main_v20 : S10000x128.Idx → EReal) (ix2 n d))
      (fun n d => (V c main_v22 : S10000x128.Idx → EReal) (ix2 n d))
      (fun d k => (V c main_v23 : S128x128.Idx → EReal) (ix2 d k)) (fun d k => (V c main_v24 : S128x128.Idx → EReal) (ix2 d k))
      (fun d k => (V c main_v25 : S128x128.Idx → EReal) (ix2 d k)) (fun d k => (V c main_v26 : S128x128.Idx → EReal) (ix2 d k))
      (fun k => (V c main_v27 : S1x128.Idx → EReal) (ix2 0 k)) (fun k => (V c main_v28 : S1x128.Idx → EReal) (ix2 0 k))
      (fun k => (V c main_v29 : S1x128.Idx → EReal) (ix2 0 k)) (fun k => (V c main_v30 : S1x128.Idx → EReal) (ix2 0 k))
      ⟨(i 0).val, idx2_lt0 i⟩ ⟨(i 1).val, idx2_lt1 i⟩

/-- The output block after the body at point t, at row p and feature o, is the combine stage at node 1000·t + p. -/
theorem out_apply (c : Dev nD) (t : Fin cfg1.N) (p : Fin 1000) (o : Fin 128) (i : S10000x128.Idx)
    (hi0 : (i 0).val = 1000 * t.val + p.val) (hi1 : (i 1).val = o.val) :
    (outAt1 (F := Ideal) V c t : S1000x128.Idx → EReal) (ix2 p o) = G V c i := by
  unfold outAt1
  refine (congrFun (outComb_eq (F := Ideal) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) (ix2 p o)).trans ?_
  refine (pay_apply (iblk1 V c 0 t) (iblk1 V c 1 t) (iblk1 V c 2 t) (iblk1 V c 3 t) (iblk1 V c 5 t) (iblk1 V c 7 t) (iblk1 V c 9 t) (iblk1 V c 4 t) (iblk1 V c 6 t) (iblk1 V c 8 t) (iblk1 V c 10 t) p o).trans ?_
  have h0 : ∀ d : Fin 128, (iblk1 V c 0 t : Vec Ideal S1000x128 .f32) (ix2 p d) = (V c main_arg0 : S10000x128.Idx → EReal) (ix2 ⟨(i 0).val, idx2_lt0 i⟩ d) :=
    fun d => read_w0 V c t p d _ hi0 rfl
  have h1 : ∀ d : Fin 128, (iblk1 V c 1 t : Vec Ideal S1000x128 .f32) (ix2 p d) = (V c main_v20 : S10000x128.Idx → EReal) (ix2 ⟨(i 0).val, idx2_lt0 i⟩ d) :=
    fun d => read_w1 V c t p d _ hi0 rfl
  have h2 : ∀ d : Fin 128, (iblk1 V c 2 t : Vec Ideal S1000x128 .f32) (ix2 p d) = (V c main_v22 : S10000x128.Idx → EReal) (ix2 ⟨(i 0).val, idx2_lt0 i⟩ d) :=
    fun d => read_w2 V c t p d _ hi0 rfl
  have ho : (⟨(i 1).val, idx2_lt1 i⟩ : Fin 128) = o := Fin.ext hi1
  unfold G Cert.Spec.combine
  simp only [h0, h1, h2, read_w3 V c t, read_w4 V c t, read_w5 V c t, read_w6 V c t, read_w7 V c t, read_w8 V c t, read_w9 V c t, read_w10 V c t, ho]

/-- What point t writes back is block t of the combine stage of the input arrays. -/
theorem flushed_eq (c : Dev nD) (t : Fin cfg1.N) :
    (dat1 (F := Ideal) V c).flushed 11 t = ((cfg1.win 11).blk t).view.read (Elt Ideal) (G V c) := by
  show (cfg1.win 11).cut (grid1.coords t) ((dat1 (F := Ideal) V c).after 11 t) = _
  rw [after1_11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have key : ∀ j : S1000x128.Idx, (outAt1 (F := Ideal) V c t : S1000x128.Idx → EReal) j = G V c (((cfg1.win 11).blk t).view.emb j) := fun j => by
    obtain ⟨p, o, rfl⟩ : ∃ (p : Fin 1000) (o : Fin 128), j = ix2 p o := ⟨j 0, j 1, eq_ix2 j⟩
    refine out_apply V c t p o _ ?_ ?_
    · show win1_11.index t (0 : Fin 2) * 1000 + 1 * p.val = 1000 * t.val + p.val; rw [e11_0]; omega
    · show win1_11.index t (1 : Fin 2) * 128 + 1 * o.val = o.val; rw [e11_1]; omega
  funext j
  exact key j

/-- An index of the result array is in point t's block iff each coordinate is in the block's range on its axis. -/
theorem mem_blk (t : Fin cfg1.N) (i : S10000x128.Idx) :
    i ∈ ((cfg1.win 11).blk t).view.set ↔ ∀ a : Fin 2, win1_11.index t a * S1000x128.size a ≤ (i a).val ∧ (i a).val < win1_11.index t a * S1000x128.size a + S1000x128.size a := by
  show i ∈ ((View.whole main_v31).slice (win1_11.rect t)).set ↔ _
  rw [View.set_slice_whole, Rect.mem_set_unit]
  exact Iff.rfl

/-- Row n of the result array is in the block of point n / 1000, which is written back. -/
theorem cover (i : S10000x128.Idx) :
    ∃ t : Fin cfg1.N, (cfg1.win 11).flush t = true ∧ i ∈ ((cfg1.win 11).blk t).view.set := by
  have hi0 : (i 0).val < 10000 := (i 0).isLt
  have hi1 : (i 1).val < 128 := (i 1).isLt
  have hN : cfg1.N = 10 := N_1
  obtain ⟨t, ht⟩ : ∃ t : Fin cfg1.N, t.val = (i 0).val / 1000 :=
    ⟨⟨(i 0).val / 1000, lt_of_lt_of_eq (show (i 0).val / 1000 < 10 by omega) hN.symm⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  refine ⟨t, flush1_11 t, ?_⟩
  rw [mem_blk]
  intro a
  match a with
  | ⟨0, _⟩ => show win1_11.index t (0 : Fin 2) * 1000 ≤ (i 0).val ∧ (i 0).val < win1_11.index t (0 : Fin 2) * 1000 + 1000; rw [e11_0, ht]; omega
  | ⟨1, _⟩ => show win1_11.index t (1 : Fin 2) * 128 ≤ (i 1).val ∧ (i 1).val < win1_11.index t (1 : Fin 2) * 128 + 128; rw [e11_1]; omega

/-- The result array after the run is the combine stage of the input arrays. -/
theorem final (c : Dev nD) : (dat1 (F := Ideal) V c).arrAt 11 cfg1.N = G V c :=
  (dat1 (F := Ideal) V c).arrAt_eq_of_cover 11 (G V c) (fun t _ => flushed_eq V c t) cover

end Value

theorem comb_value (V : (c : Dev nD) → (b : Ref sig .tc) → Buf (Elt Ideal) ((c : Thread nD τ).loc b)) (c : Dev nD) (n : Fin 10000) (o : Fin 128) :
    ((dat1 (F := Ideal) V c).arrAt 11 cfg1.N : S10000x128.Idx → EReal) (ix2 n o)
      = Cert.Spec.combine (fun n d => (V c main_arg0 : S10000x128.Idx → EReal) (ix2 n d)) (fun n d => (V c main_v20 : S10000x128.Idx → EReal) (ix2 n d))
          (fun n d => (V c main_v22 : S10000x128.Idx → EReal) (ix2 n d))
          (fun d k => (V c main_v23 : S128x128.Idx → EReal) (ix2 d k)) (fun d k => (V c main_v24 : S128x128.Idx → EReal) (ix2 d k))
          (fun d k => (V c main_v25 : S128x128.Idx → EReal) (ix2 d k)) (fun d k => (V c main_v26 : S128x128.Idx → EReal) (ix2 d k))
          (fun k => (V c main_v27 : S1x128.Idx → EReal) (ix2 0 k)) (fun k => (V c main_v28 : S1x128.Idx → EReal) (ix2 0 k))
          (fun k => (V c main_v29 : S1x128.Idx → EReal) (ix2 0 k)) (fun k => (V c main_v30 : S1x128.Idx → EReal) (ix2 0 k)) n o := by
  rw [final V c]
  rfl

end Cert.KernelIdeal.Comb

end
-- ==== Proof.Whole.Value.lean ====
/-
  The kernel's result in the terms of the shared mathematics: through the host operations around the two calls.
  Before the aggregation call the node table is copied and padded with 240 zero rows and the two index vectors
  are reshaped to a column and a row; between the calls the two per-core partial sums are added, their column
  halves divided by the clamped degree, the four weight matrices transposed and the four bias vectors reshaped
  to rows.
-/
import proofs.«401586_j49615462203743_3_alg».proof.Proof.Whole.Run
import proofs.«401586_j49615462203743_3_alg».proof.Proof.Agg.Value
import proofs.«401586_j49615462203743_3_alg».proof.Proof.Comb.Value
import Idealize.ShloMosaic.Lib.KernelVsHost
import Idealize.ShloMosaic.Lib.ValueLayout
import Idealize.ShloMosaic.Lib.IdealHost

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (ρ : Dev nD → PrngReg)

/-! ## Equal arguments give equal values -/

theorem partialSum_congr {hp hp' : Fin 10240 → Fin 128 → EReal} {s s' t t' : Fin 640000 → BitVec 32}
    {e e' : Fin 640000 → EReal} (h1 : ∀ n d, hp n d = hp' n d) (h2 : ∀ R, s R = s' R) (h3 : ∀ R, t R = t' R)
    (h4 : ∀ R, e R = e' R) (core : Fin 2) (n : Fin 10240) (col : Fin 256) :
    Cert.Spec.partialSum hp s t e core n col = Cert.Spec.partialSum hp' s' t' e' core n col := by
  have a1 : hp = hp' := funext fun n => funext fun d => h1 n d
  have a2 : s = s' := funext h2
  have a3 : t = t' := funext h3
  have a4 : e = e' := funext h4
  rw [a1, a2, a3, a4]

theorem combine_congr {x x' hp hp' hu hu' : Fin 10000 → Fin 128 → EReal} {M1 M1' M2 M2' M3 M3' M4 M4' : Fin 128 → Fin 128 → EReal}
    {b1 b1' b2 b2' b3 b3' b4 b4' : Fin 128 → EReal}
    (hx : ∀ n d, x n d = x' n d) (hhp : ∀ n d, hp n d = hp' n d) (hhu : ∀ n d, hu n d = hu' n d)
    (hW1 : ∀ d k, M1 d k = M1' d k) (hW2 : ∀ d k, M2 d k = M2' d k) (hW3 : ∀ d k, M3 d k = M3' d k) (hW4 : ∀ d k, M4 d k = M4' d k)
    (hb1 : ∀ k, b1 k = b1' k) (hb2 : ∀ k, b2 k = b2' k) (hb3 : ∀ k, b3 k = b3' k) (hb4 : ∀ k, b4 k = b4' k)
    (n : Fin 10000) (o : Fin 128) :
    Cert.Spec.combine x hp hu M1 M2 M3 M4 b1 b2 b3 b4 n o = Cert.Spec.combine x' hp' hu' M1' M2' M3' M4' b1' b2' b3' b4' n o := by
  have a1 : x = x' := funext fun n => funext fun d => hx n d
  have a2 : hp = hp' := funext fun n => funext fun d => hhp n d
  have a3 : hu = hu' := funext fun n => funext fun d => hhu n d
  have a4 : M1 = M1' := funext fun n => funext fun d => hW1 n d
  have a5 : M2 = M2' := funext fun n => funext fun d => hW2 n d
  have a6 : M3 = M3' := funext fun n => funext fun d => hW3 n d
  have a7 : M4 = M4' := funext fun n => funext fun d => hW4 n d
  have a8 : b1 = b1' := funext hb1
  have a9 : b2 = b2' := funext hb2
  have a10 : b3 = b3' := funext hb3
  have a11 : b4 = b4' := funext hb4
  rw [a1, a2, a3, a4, a5, a6, a7, a8, a9, a10, a11]

/-! ## Arrays no operation writes -/

/-- An array no host operation before the aggregation call writes enters that call as launched. -/
theorem W3_of_plain (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans <| (StableHlo.after_of_writes_sub hostOps0_1 _ hostOps0_1_writes h1).trans <|
    (StableHlo.after_of_writes_sub hostOps0 _ hostOps0_writes h0).trans rfl

/-- An array that moreover is no array of the aggregation call leaves it as launched. -/
theorem W4_of_plain (c : Dev nD) (r : Ref sig .tc) (h0 : r ∉ hostOps0_W) (h1 : r ∉ hostOps0_1_W) (h2 : r ∉ hostOps0_2_W)
    (ha0 : ∀ w, Pipeline.arrRef spec0 w ≠ r) :
    W4 m ρ c (Proc.devRef .tc r) = m ((c : Thread nD τ).loc r) :=
  (W4_of_ne m ρ c r ha0).trans (W3_of_plain m ρ c r h0 h1 h2)

theorem W3_arg1 (c : Dev nD) :
    (W3 m ρ c (Proc.devRef .tc main_arg1) : S640000x1.Idx → EReal) = ((m ((c.tc : Thread nD τ).loc main_arg1)) : S640000x1.Idx → EReal) :=
  W3_of_plain m ρ c main_arg1 (by decide) (by decide) (by decide)

theorem W5_arg0 (c : Dev nD) :
    (W5 m ρ c (Proc.devRef .tc main_arg0) : S10000x128.Idx → EReal) = ((m ((c.tc : Thread nD τ).loc main_arg0)) : S10000x128.Idx → EReal) :=
  (StableHlo.after_of_writes_sub hostOps1 _ hostOps1_writes (by decide)).trans (W4_of_plain m ρ c main_arg0 (by decide) (by decide) (by decide) (by decide))

theorem W4_arg4 (c : Dev nD) :
    (W4 m ρ c (Proc.devRef .tc main_arg4) : S128x128.Idx → EReal) = ((m ((c.tc : Thread nD τ).loc main_arg4)) : S128x128.Idx → EReal) :=
  W4_of_plain m ρ c main_arg4 (by decide) (by decide) (by decide) (by decide)
theorem W4_arg6 (c : Dev nD) :
    (W4 m ρ c (Proc.devRef .tc main_arg6) : S128x128.Idx → EReal) = ((m ((c.tc : Thread nD τ).loc main_arg6)) : S128x128.Idx → EReal) :=
  W4_of_plain m ρ c main_arg6 (by decide) (by decide) (by decide) (by decide)
theorem W4_arg8 (c : Dev nD) :
    (W4 m ρ c (Proc.devRef .tc main_arg8) : S128x128.Idx → EReal) = ((m ((c.tc : Thread nD τ).loc main_arg8)) : S128x128.Idx → EReal) :=
  W4_of_plain m ρ c main_arg8 (by decide) (by decide) (by decide) (by decide)
theorem W4_arg10 (c : Dev nD) :
    (W4 m ρ c (Proc.devRef .tc main_arg10) : S128x128.Idx → EReal) = ((m ((c.tc : Thread nD τ).loc main_arg10)) : S128x128.Idx → EReal) :=
  W4_of_plain m ρ c main_arg10 (by decide) (by decide) (by decide) (by decide)
theorem W4_arg5 (c : Dev nD) :
    (W4 m ρ c (Proc.devRef .tc main_arg5) : S128.Idx → EReal) = ((m ((c.tc : Thread nD τ).loc main_arg5)) : S128.Idx → EReal) :=
  W4_of_plain m ρ c main_arg5 (by decide) (by decide) (by decide) (by decide)
theorem W4_arg7 (c : Dev nD) :
    (W4 m ρ c (Proc.devRef .tc main_arg7) : S128.Idx → EReal) = ((m ((c.tc : Thread nD τ).loc main_arg7)) : S128.Idx → EReal) :=
  W4_of_plain m ρ c main_arg7 (by decide) (by decide) (by decide) (by decide)
theorem W4_arg9 (c : Dev nD) :
    (W4 m ρ c (Proc.devRef .tc main_arg9) : S128.Idx → EReal) = ((m ((c.tc : Thread nD τ).loc main_arg9)) : S128.Idx → EReal) :=
  W4_of_plain m ρ c main_arg9 (by decide) (by decide) (by decide) (by decide)
theorem W4_arg11 (c : Dev nD) :
    (W4 m ρ c (Proc.devRef .tc main_arg11) : S128.Idx → EReal) = ((m ((c.tc : Thread nD τ).loc main_arg11)) : S128.Idx → EReal) :=
  W4_of_plain m ρ c main_arg11 (by decide) (by decide) (by decide) (by decide)

/-! ## The aggregation call's entry -/

/-- The padded table: the node features narrowed (the identity here), then 240 rows of the converted zero word below. -/
theorem W3_v1 (c : Dev nD) :
    (W3 m ρ c (Proc.devRef .tc main_v1) : S10240x128.Idx → EReal)
      = pad S10240x128 ![0, 0] ![240, 0] ![0, 0]
          (truncf (F := Ideal) (s := S10000x128) (φ := .f32) .bf16 (m ((c.tc : Thread nD τ).loc main_arg0)) bitsLt_bf16_f32)
          (sitofp (F := Ideal) (s := S_) (w := 32) .bf16 (constantI S_ 32 0#32))
          pads_S10000x128_S10240x128_02400_000 h_S_ := by
  show StableHlo.after hostOps0_2 (StableHlo.after hostOps0_1 (StableHlo.after hostOps0 (W0 m ρ c))) (Proc.devRef .tc main_v1) = _
  after_results
  simp only [StableHlo.TRef.ofBuf, StableHlo.TRef.toBuf, cast_eq]
  try rfl

theorem W3_v1_apply (c : Dev nD) (n : Fin 10240) (d : Fin 128) :
    (W3 m ρ c (Proc.devRef .tc main_v1) : S10240x128.Idx → EReal) (ix2 n d)
      = Cert.Spec.padRows (fun n d => ((m ((c.tc : Thread nD τ).loc main_arg0)) : S10000x128.Idx → EReal) (ix2 n d)) n d := by
  refine (congrFun (W3_v1 m ρ c) (ix2 n d)).trans ?_
  unfold Cert.Spec.padRows
  by_cases hn : n.val < 10000
  · rw [dif_pos hn]
    refine (pad_apply_of_inside _ _ _ _ _ pads_S10000x128_S10240x128_02400_000 h_S_ (ix2 n d) (ix2 (⟨n.val, hn⟩ : Fin 10000) d) (fun a => by
      match a with
      | ⟨0, _⟩ => show n.val = 0 + n.val * (0 + 1); omega
      | ⟨1, _⟩ => show d.val = 0 + d.val * (0 + 1); omega)).trans ?_
    rfl
  · rw [dif_neg hn]
    refine (pad_apply_of_not_inside _ _ _ _ _ pads_S10000x128_S10240x128_02400_000 h_S_ (ix2 n d) (0 : Fin 2) (by
      show ¬(0 ≤ n.val ∧ (n.val - 0) % (0 + 1) = 0 ∧ (n.val - 0) / (0 + 1) < 10000)
      omega)).trans ?_
    exact sitofp_zero (φ := .bf16)

/-- The source words as a column. -/
theorem W3_v2 (c : Dev nD) :
    (W3 m ρ c (Proc.devRef .tc main_v2) : S640000x1.Idx → BitVec 32)
      = shapeCast S640000x1 ((m ((c.tc : Thread nD τ).loc main_arg2)) : S640000.Idx → BitVec 32) shapeCasts_S640000_S640000x1 := by
  show StableHlo.after hostOps0_2 (StableHlo.after hostOps0_1 (StableHlo.after hostOps0 (W0 m ρ c))) (Proc.devRef .tc main_v2) = _
  after_results
  rfl

theorem W3_v2_apply (c : Dev nD) (R : Fin 640000) :
    (W3 m ρ c (Proc.devRef .tc main_v2) : S640000x1.Idx → BitVec 32) (ix2 R (0 : Fin 1))
      = ((m ((c.tc : Thread nD τ).loc main_arg2)) : S640000.Idx → BitVec 32) (ix1 R) := by
  refine (congrFun (W3_v2 m ρ c) (ix2 R (0 : Fin 1))).trans ?_
  exact shapeCast_apply _ shapeCasts_S640000_S640000x1 (ix2 R (0 : Fin 1)) (ix1 R) (by
    rw [Shape.rowMajor_val_two, Shape.rowMajor_val_one]
    show R.val = R.val * 1 + 0
    omega)

/-- The destination words as a row. -/
theorem W3_v3 (c : Dev nD) :
    (W3 m ρ c (Proc.devRef .tc main_v3) : S1x640000.Idx → BitVec 32)
      = shapeCast S1x640000 ((m ((c.tc : Thread nD τ).loc main_arg3)) : S640000.Idx → BitVec 32) shapeCasts_S640000_S1x640000 := by
  show StableHlo.after hostOps0_2 (StableHlo.after hostOps0_1 (StableHlo.after hostOps0 (W0 m ρ c))) (Proc.devRef .tc main_v3) = _
  after_results
  rfl

theorem W3_v3_apply (c : Dev nD) (R : Fin 640000) :
    (W3 m ρ c (Proc.devRef .tc main_v3) : S1x640000.Idx → BitVec 32) (ix2 (0 : Fin 1) R)
      = ((m ((c.tc : Thread nD τ).loc main_arg3)) : S640000.Idx → BitVec 32) (ix1 R) := by
  refine (congrFun (W3_v3 m ρ c) (ix2 (0 : Fin 1) R)).trans ?_
  exact shapeCast_a_1a_apply _ shapeCasts_S640000_S1x640000 (0 : Fin 1) R

/-! ## The aggregation call's result -/

/-- One core's partial sum over the launch arrays. -/
abbrev PS (c : Dev nD) (core : Fin 2) (n : Fin 10240) (col : Fin 256) : EReal :=
  Cert.Spec.partialSum (Cert.Spec.padRows fun n d => ((m ((c.tc : Thread nD τ).loc main_arg0)) : S10000x128.Idx → EReal) (ix2 n d))
    (fun R => ((m ((c.tc : Thread nD τ).loc main_arg2)) : S640000.Idx → BitVec 32) (ix1 R))
    (fun R => ((m ((c.tc : Thread nD τ).loc main_arg3)) : S640000.Idx → BitVec 32) (ix1 R))
    (fun R => ((m ((c.tc : Thread nD τ).loc main_arg1)) : S640000x1.Idx → EReal) (ix2 R 0)) core n col

theorem W4_v4_apply (c : Dev nD) (core : Fin 2) (n : Fin 10240) (col : Fin 256) :
    (W4 m ρ c (Proc.devRef .tc main_v4) : S2x10240x256.Idx → EReal) (ix3 core n col) = PS m c core n col := by
  have h4 : (W4 m ρ c (Proc.devRef .tc main_v4) : S2x10240x256.Idx → EReal)
      = ((Agg.dat0 (R3 m ρ) c).arrAt 4 cfg0.N : S2x10240x256.Idx → EReal) := W4_arr m ρ c 4
  refine (congrFun h4 (ix3 core n col)).trans ((Agg.agg_value (R3 m ρ) c core n col).trans ?_)
  exact partialSum_congr (W3_v1_apply m ρ c) (W3_v2_apply m ρ c) (W3_v3_apply m ρ c)
    (fun R => congrFun (W3_arg1 m ρ c) (ix2 R (0 : Fin 1))) core n col
/-- The aggregates' divisor at node `n`: the degree, at least one (the host operations' value, kept as they print it). -/
def denK (c : Dev nD) (n : Fin 10000) : EReal :=
  (W5 m ρ c (Proc.devRef .tc main_v17) : S10000.Idx → EReal) (ix1 n)

/-! ## The combine call's entry -/

/-- The two cores' partial sums, each cut to the 10000 node rows, added. -/
theorem W5_v9 (c : Dev nD) :
    (W5 m ρ c (Proc.devRef .tc main_v9) : S10000x256.Idx → EReal)
      = addf (F := Ideal) (s := S10000x256) (φ := .f32)
          (shapeCast S10000x256 (extractStridedSlice (s := S2x10240x256) S1x10000x256 ![0, 0, 0] (W4 m ρ c (Proc.devRef .tc main_v4) : S2x10240x256.Idx → EReal) slices_S2x10240x256_S1x10000x256_0_0_0) shapeCasts_S1x10000x256_S10000x256)
          (shapeCast S10000x256 (extractStridedSlice (s := S2x10240x256) S1x10000x256 ![1, 0, 0] (W4 m ρ c (Proc.devRef .tc main_v4) : S2x10240x256.Idx → EReal) slices_S2x10240x256_S1x10000x256_1_0_0) shapeCasts_S1x10000x256_S10000x256) := by
  show StableHlo.after hostOps1 (W4 m ρ c) (Proc.devRef .tc main_v9) = _
  after_results
  try rfl

theorem W5_v9_apply (c : Dev nD) (n : Fin 10000) (col : Fin 256) :
    (W5 m ρ c (Proc.devRef .tc main_v9) : S10000x256.Idx → EReal) (ix2 n col)
      = PS m c 0 ⟨n.val, by omega⟩ col + PS m c 1 ⟨n.val, by omega⟩ col := by
  have hn : n.val < 10240 := by omega
  refine (congrFun (W5_v9 m ρ c) (ix2 n col)).trans ?_
  refine (addf_apply _ _ _).trans ?_
  have e0 : (shapeCast S10000x256 (extractStridedSlice (s := S2x10240x256) S1x10000x256 ![0, 0, 0] (W4 m ρ c (Proc.devRef .tc main_v4) : S2x10240x256.Idx → EReal) slices_S2x10240x256_S1x10000x256_0_0_0) shapeCasts_S1x10000x256_S10000x256) (ix2 n col) = PS m c 0 ⟨n.val, hn⟩ col :=
    (shapeCast_1ab_ab_apply _ shapeCasts_S1x10000x256_S10000x256 n col).trans <|
      (extractStridedSlice_apply _ _ slices_S2x10240x256_S1x10000x256_0_0_0 (ix3 (0 : Fin 1) n col)
        (ix3 (0 : Fin 2) (⟨n.val, hn⟩ : Fin 10240) col) (fun a => by
        match a with
        | ⟨0, _⟩ => show (0 : ℕ) = 0 + 0; rfl
        | ⟨1, _⟩ => show n.val = 0 + n.val; omega
        | ⟨2, _⟩ => show col.val = 0 + col.val; omega)).trans (W4_v4_apply m ρ c 0 ⟨n.val, hn⟩ col)
  have e1 : (shapeCast S10000x256 (extractStridedSlice (s := S2x10240x256) S1x10000x256 ![1, 0, 0] (W4 m ρ c (Proc.devRef .tc main_v4) : S2x10240x256.Idx → EReal) slices_S2x10240x256_S1x10000x256_1_0_0) shapeCasts_S1x10000x256_S10000x256) (ix2 n col) = PS m c 1 ⟨n.val, hn⟩ col :=
    (shapeCast_1ab_ab_apply _ shapeCasts_S1x10000x256_S10000x256 n col).trans <|
      (extractStridedSlice_apply _ _ slices_S2x10240x256_S1x10000x256_1_0_0 (ix3 (0 : Fin 1) n col)
        (ix3 (1 : Fin 2) (⟨n.val, hn⟩ : Fin 10240) col) (fun a => by
        match a with
        | ⟨0, _⟩ => show (1 : ℕ) = 1 + 0; rfl
        | ⟨1, _⟩ => show n.val = 0 + n.val; omega
        | ⟨2, _⟩ => show col.val = 0 + col.val; omega)).trans (W4_v4_apply m ρ c 1 ⟨n.val, hn⟩ col)
  exact congrArg₂ (· + ·) e0 e1

/-- The host quotient of two arrays at an index. -/
theorem hostDivf_at {s : Shape} (x y : FVec Ideal s .f32) (i : s.Idx) :
    Host.divf (F := Ideal) x y i = FloatOps.hostDivf (F := Ideal) (φ := .f32) (x i) (y i) := rfl

/-- A vector over the nodes made a column and spread over the 128 features reads the node's entry everywhere. -/
theorem bcast_rows_apply (x : S10000.Idx → EReal) (n : Fin 10000) (d : Fin 128) :
    broadcastInDim (s := S10000x1) S10000x128 ![0, 1] bcast_S10000x1_S10000x128_0_1
      (broadcastInDim (s := S10000) S10000x1 ![0] bcast_S10000_S10000x1_0 x) (ix2 n d) = x (ix1 n) :=
  (broadcastInDim_apply ![0, 1] bcast_S10000x1_S10000x128_0_1 _ (ix2 n d) (ix2 n (0 : Fin 1)) (fun a => by
    match a with
    | ⟨0, _⟩ => show n.val = if (10000 : ℕ) = 1 then 0 else n.val; rw [if_neg (by decide)]
    | ⟨1, _⟩ => show (0 : ℕ) = if (1 : ℕ) = 1 then 0 else d.val; rfl)).trans
  (broadcastInDim_apply ![0] bcast_S10000_S10000x1_0 x (ix2 n (0 : Fin 1)) (ix1 n) (fun a => by
    match a with
    | ⟨0, _⟩ => show n.val = if (10000 : ℕ) = 1 then 0 else n.val; rw [if_neg (by decide)]))

/-- The weighted mean: the first 128 columns of the sum over the clamped degree. -/
theorem W5_v20 (c : Dev nD) :
    (W5 m ρ c (Proc.devRef .tc main_v20) : S10000x128.Idx → EReal)
      = Host.divf (F := Ideal) (s := S10000x128) (φ := .f32)
          (extractStridedSlice (s := S10000x256) S10000x128 ![0, 0] (W5 m ρ c (Proc.devRef .tc main_v9) : S10000x256.Idx → EReal) slices_S10000x256_S10000x128_0_0)
          (broadcastInDim (s := S10000x1) S10000x128 ![0, 1] bcast_S10000x1_S10000x128_0_1
            (broadcastInDim (s := S10000) S10000x1 ![0] bcast_S10000_S10000x1_0 (W5 m ρ c (Proc.devRef .tc main_v17) : S10000.Idx → EReal))) := by
  dsimp only [W5]
  after_results
  try rfl

theorem W5_v20_apply (c : Dev nD) (n : Fin 10000) (d : Fin 128) :
    (W5 m ρ c (Proc.devRef .tc main_v20) : S10000x128.Idx → EReal) (ix2 n d)
      = FloatOps.hostDivf (F := Ideal) (φ := .f32)
          (PS m c 0 ⟨n.val, by omega⟩ ⟨d.val, by omega⟩ + PS m c 1 ⟨n.val, by omega⟩ ⟨d.val, by omega⟩)
          (denK m ρ c n) := by
  refine (congrFun (W5_v20 m ρ c) (ix2 n d)).trans ?_
  refine (hostDivf_at _ _ _).trans ?_
  refine congrArg₂ (FloatOps.hostDivf (F := Ideal) (φ := .f32)) ?_ ?_
  · exact (slice2_axis1_apply 0 _ slices_S10000x256_S10000x128_0_0 n d (⟨d.val, by omega⟩ : Fin 256)
      (by show d.val = 0 + d.val; omega)).trans (W5_v9_apply m ρ c n ⟨d.val, by omega⟩)
  · exact bcast_rows_apply _ n d

/-- The plain mean: the last 128 columns of the sum over the clamped degree. -/
theorem W5_v22 (c : Dev nD) :
    (W5 m ρ c (Proc.devRef .tc main_v22) : S10000x128.Idx → EReal)
      = Host.divf (F := Ideal) (s := S10000x128) (φ := .f32)
          (extractStridedSlice (s := S10000x256) S10000x128 ![0, 128] (W5 m ρ c (Proc.devRef .tc main_v9) : S10000x256.Idx → EReal) slices_S10000x256_S10000x128_0_128)
          (broadcastInDim (s := S10000x1) S10000x128 ![0, 1] bcast_S10000x1_S10000x128_0_1
            (broadcastInDim (s := S10000) S10000x1 ![0] bcast_S10000_S10000x1_0 (W5 m ρ c (Proc.devRef .tc main_v17) : S10000.Idx → EReal))) := by
  dsimp only [W5]
  after_results
  try rfl

theorem W5_v22_apply (c : Dev nD) (n : Fin 10000) (d : Fin 128) :
    (W5 m ρ c (Proc.devRef .tc main_v22) : S10000x128.Idx → EReal) (ix2 n d)
      = FloatOps.hostDivf (F := Ideal) (φ := .f32)
          (PS m c 0 ⟨n.val, by omega⟩ ⟨d.val + 128, by omega⟩ + PS m c 1 ⟨n.val, by omega⟩ ⟨d.val + 128, by omega⟩)
          (denK m ρ c n) := by
  refine (congrFun (W5_v22 m ρ c) (ix2 n d)).trans ?_
  refine (hostDivf_at _ _ _).trans ?_
  refine congrArg₂ (FloatOps.hostDivf (F := Ideal) (φ := .f32)) ?_ ?_
  · exact (slice2_axis1_apply 128 _ slices_S10000x256_S10000x128_0_128 n d (⟨d.val + 128, by omega⟩ : Fin 256)
      (by show d.val + 128 = 128 + d.val; omega)).trans (W5_v9_apply m ρ c n ⟨d.val + 128, by omega⟩)
  · exact bcast_rows_apply _ n d

/-- The four weight matrices transposed. -/
theorem W5_v23 (c : Dev nD) :
    (W5 m ρ c (Proc.devRef .tc main_v23) : S128x128.Idx → EReal)
      = transpose (s := S128x128) S128x128 [1, 0] (W4 m ρ c (Proc.devRef .tc main_arg4) : S128x128.Idx → EReal) transposes_S128x128_S128x128_1_0 := by
  show StableHlo.after hostOps1 (W4 m ρ c) (Proc.devRef .tc main_v23) = _
  after_results
  try rfl

theorem W5_v23_apply (c : Dev nD) (d k : Fin 128) :
    (W5 m ρ c (Proc.devRef .tc main_v23) : S128x128.Idx → EReal) (ix2 d k) = ((m ((c.tc : Thread nD τ).loc main_arg4)) : S128x128.Idx → EReal) (ix2 k d) :=
  (congrFun (W5_v23 m ρ c) (ix2 d k)).trans
    ((transpose_ix2_apply _ transposes_S128x128_S128x128_1_0 d k).trans (congrFun (W4_arg4 m ρ c) (ix2 k d)))

theorem W5_v24 (c : Dev nD) :
    (W5 m ρ c (Proc.devRef .tc main_v24) : S128x128.Idx → EReal)
      = transpose (s := S128x128) S128x128 [1, 0] (W4 m ρ c (Proc.devRef .tc main_arg6) : S128x128.Idx → EReal) transposes_S128x128_S128x128_1_0 := by
  show StableHlo.after hostOps1 (W4 m ρ c) (Proc.devRef .tc main_v24) = _
  after_results
  try rfl

theorem W5_v24_apply (c : Dev nD) (d k : Fin 128) :
    (W5 m ρ c (Proc.devRef .tc main_v24) : S128x128.Idx → EReal) (ix2 d k) = ((m ((c.tc : Thread nD τ).loc main_arg6)) : S128x128.Idx → EReal) (ix2 k d) :=
  (congrFun (W5_v24 m ρ c) (ix2 d k)).trans
    ((transpose_ix2_apply _ transposes_S128x128_S128x128_1_0 d k).trans (congrFun (W4_arg6 m ρ c) (ix2 k d)))

theorem W5_v25 (c : Dev nD) :
    (W5 m ρ c (Proc.devRef .tc main_v25) : S128x128.Idx → EReal)
      = transpose (s := S128x128) S128x128 [1, 0] (W4 m ρ c (Proc.devRef .tc main_arg8) : S128x128.Idx → EReal) transposes_S128x128_S128x128_1_0 := by
  show StableHlo.after hostOps1 (W4 m ρ c) (Proc.devRef .tc main_v25) = _
  after_results
  try rfl

theorem W5_v25_apply (c : Dev nD) (d k : Fin 128) :
    (W5 m ρ c (Proc.devRef .tc main_v25) : S128x128.Idx → EReal) (ix2 d k) = ((m ((c.tc : Thread nD τ).loc main_arg8)) : S128x128.Idx → EReal) (ix2 k d) :=
  (congrFun (W5_v25 m ρ c) (ix2 d k)).trans
    ((transpose_ix2_apply _ transposes_S128x128_S128x128_1_0 d k).trans (congrFun (W4_arg8 m ρ c) (ix2 k d)))

theorem W5_v26 (c : Dev nD) :
    (W5 m ρ c (Proc.devRef .tc main_v26) : S128x128.Idx → EReal)
      = transpose (s := S128x128) S128x128 [1, 0] (W4 m ρ c (Proc.devRef .tc main_arg10) : S128x128.Idx → EReal) transposes_S128x128_S128x128_1_0 := by
  show StableHlo.after hostOps1 (W4 m ρ c) (Proc.devRef .tc main_v26) = _
  after_results
  try rfl

theorem W5_v26_apply (c : Dev nD) (d k : Fin 128) :
    (W5 m ρ c (Proc.devRef .tc main_v26) : S128x128.Idx → EReal) (ix2 d k) = ((m ((c.tc : Thread nD τ).loc main_arg10)) : S128x128.Idx → EReal) (ix2 k d) :=
  (congrFun (W5_v26 m ρ c) (ix2 d k)).trans
    ((transpose_ix2_apply _ transposes_S128x128_S128x128_1_0 d k).trans (congrFun (W4_arg10 m ρ c) (ix2 k d)))

/-- The four bias vectors as rows. -/
theorem W5_v27 (c : Dev nD) :
    (W5 m ρ c (Proc.devRef .tc main_v27) : S1x128.Idx → EReal)
      = shapeCast (s := S128) S1x128 (W4 m ρ c (Proc.devRef .tc main_arg5) : S128.Idx → EReal) shapeCasts_S128_S1x128 := by
  show StableHlo.after hostOps1 (W4 m ρ c) (Proc.devRef .tc main_v27) = _
  after_results
  try rfl

theorem W5_v27_apply (c : Dev nD) (k : Fin 128) :
    (W5 m ρ c (Proc.devRef .tc main_v27) : S1x128.Idx → EReal) (ix2 (0 : Fin 1) k) = ((m ((c.tc : Thread nD τ).loc main_arg5)) : S128.Idx → EReal) (ix1 k) :=
  (congrFun (W5_v27 m ρ c) (ix2 (0 : Fin 1) k)).trans
    ((shapeCast_a_1a_apply _ shapeCasts_S128_S1x128 (0 : Fin 1) k).trans (congrFun (W4_arg5 m ρ c) (ix1 k)))

theorem W5_v28 (c : Dev nD) :
    (W5 m ρ c (Proc.devRef .tc main_v28) : S1x128.Idx → EReal)
      = shapeCast (s := S128) S1x128 (W4 m ρ c (Proc.devRef .tc main_arg7) : S128.Idx → EReal) shapeCasts_S128_S1x128 := by
  show StableHlo.after hostOps1 (W4 m ρ c) (Proc.devRef .tc main_v28) = _
  after_results
  try rfl

theorem W5_v28_apply (c : Dev nD) (k : Fin 128) :
    (W5 m ρ c (Proc.devRef .tc main_v28) : S1x128.Idx → EReal) (ix2 (0 : Fin 1) k) = ((m ((c.tc : Thread nD τ).loc main_arg7)) : S128.Idx → EReal) (ix1 k) :=
  (congrFun (W5_v28 m ρ c) (ix2 (0 : Fin 1) k)).trans
    ((shapeCast_a_1a_apply _ shapeCasts_S128_S1x128 (0 : Fin 1) k).trans (congrFun (W4_arg7 m ρ c) (ix1 k)))

theorem W5_v29 (c : Dev nD) :
    (W5 m ρ c (Proc.devRef .tc main_v29) : S1x128.Idx → EReal)
      = shapeCast (s := S128) S1x128 (W4 m ρ c (Proc.devRef .tc main_arg9) : S128.Idx → EReal) shapeCasts_S128_S1x128 := by
  show StableHlo.after hostOps1 (W4 m ρ c) (Proc.devRef .tc main_v29) = _
  after_results
  try rfl

theorem W5_v29_apply (c : Dev nD) (k : Fin 128) :
    (W5 m ρ c (Proc.devRef .tc main_v29) : S1x128.Idx → EReal) (ix2 (0 : Fin 1) k) = ((m ((c.tc : Thread nD τ).loc main_arg9)) : S128.Idx → EReal) (ix1 k) :=
  (congrFun (W5_v29 m ρ c) (ix2 (0 : Fin 1) k)).trans
    ((shapeCast_a_1a_apply _ shapeCasts_S128_S1x128 (0 : Fin 1) k).trans (congrFun (W4_arg9 m ρ c) (ix1 k)))

theorem W5_v30 (c : Dev nD) :
    (W5 m ρ c (Proc.devRef .tc main_v30) : S1x128.Idx → EReal)
      = shapeCast (s := S128) S1x128 (W4 m ρ c (Proc.devRef .tc main_arg11) : S128.Idx → EReal) shapeCasts_S128_S1x128 := by
  show StableHlo.after hostOps1 (W4 m ρ c) (Proc.devRef .tc main_v30) = _
  after_results
  try rfl

theorem W5_v30_apply (c : Dev nD) (k : Fin 128) :
    (W5 m ρ c (Proc.devRef .tc main_v30) : S1x128.Idx → EReal) (ix2 (0 : Fin 1) k) = ((m ((c.tc : Thread nD τ).loc main_arg11)) : S128.Idx → EReal) (ix1 k) :=
  (congrFun (W5_v30 m ρ c) (ix2 (0 : Fin 1) k)).trans
    ((shapeCast_a_1a_apply _ shapeCasts_S128_S1x128 (0 : Fin 1) k).trans (congrFun (W4_arg11 m ρ c) (ix1 k)))

theorem kernel_value (c : Dev nD) (n : Fin 10000) (o : Fin 128) :
    (W6 m ρ c (Proc.devRef .tc main_v31) : S10000x128.Idx → EReal) (ix2 n o)
      = Cert.Spec.combine (fun n d => ((m ((c.tc : Thread nD τ).loc main_arg0)) : S10000x128.Idx → EReal) (ix2 n d))
          (fun n d => FloatOps.hostDivf (F := Ideal) (φ := .f32)
            (Cert.Spec.partialSum (Cert.Spec.padRows fun n d => ((m ((c.tc : Thread nD τ).loc main_arg0)) : S10000x128.Idx → EReal) (ix2 n d))
                (fun R => ((m ((c.tc : Thread nD τ).loc main_arg2)) : S640000.Idx → BitVec 32) (ix1 R))
                (fun R => ((m ((c.tc : Thread nD τ).loc main_arg3)) : S640000.Idx → BitVec 32) (ix1 R))
                (fun R => ((m ((c.tc : Thread nD τ).loc main_arg1)) : S640000x1.Idx → EReal) (ix2 R 0)) 0 ⟨n.val, by omega⟩ ⟨d.val, by omega⟩
              + Cert.Spec.partialSum (Cert.Spec.padRows fun n d => ((m ((c.tc : Thread nD τ).loc main_arg0)) : S10000x128.Idx → EReal) (ix2 n d))
                (fun R => ((m ((c.tc : Thread nD τ).loc main_arg2)) : S640000.Idx → BitVec 32) (ix1 R))
                (fun R => ((m ((c.tc : Thread nD τ).loc main_arg3)) : S640000.Idx → BitVec 32) (ix1 R))
                (fun R => ((m ((c.tc : Thread nD τ).loc main_arg1)) : S640000x1.Idx → EReal) (ix2 R 0)) 1 ⟨n.val, by omega⟩ ⟨d.val, by omega⟩)
            (denK m ρ c n))
          (fun n d => FloatOps.hostDivf (F := Ideal) (φ := .f32)
            (Cert.Spec.partialSum (Cert.Spec.padRows fun n d => ((m ((c.tc : Thread nD τ).loc main_arg0)) : S10000x128.Idx → EReal) (ix2 n d))
                (fun R => ((m ((c.tc : Thread nD τ).loc main_arg2)) : S640000.Idx → BitVec 32) (ix1 R))
                (fun R => ((m ((c.tc : Thread nD τ).loc main_arg3)) : S640000.Idx → BitVec 32) (ix1 R))
                (fun R => ((m ((c.tc : Thread nD τ).loc main_arg1)) : S640000x1.Idx → EReal) (ix2 R 0)) 0 ⟨n.val, by omega⟩ ⟨d.val + 128, by omega⟩
              + Cert.Spec.partialSum (Cert.Spec.padRows fun n d => ((m ((c.tc : Thread nD τ).loc main_arg0)) : S10000x128.Idx → EReal) (ix2 n d))
                (fun R => ((m ((c.tc : Thread nD τ).loc main_arg2)) : S640000.Idx → BitVec 32) (ix1 R))
                (fun R => ((m ((c.tc : Thread nD τ).loc main_arg3)) : S640000.Idx → BitVec 32) (ix1 R))
                (fun R => ((m ((c.tc : Thread nD τ).loc main_arg1)) : S640000x1.Idx → EReal) (ix2 R 0)) 1 ⟨n.val, by omega⟩ ⟨d.val + 128, by omega⟩)
            (denK m ρ c n))
          (fun d k => ((m ((c.tc : Thread nD τ).loc main_arg4)) : S128x128.Idx → EReal) (ix2 k d)) (fun d k => ((m ((c.tc : Thread nD τ).loc main_arg6)) : S128x128.Idx → EReal) (ix2 k d))
          (fun d k => ((m ((c.tc : Thread nD τ).loc main_arg8)) : S128x128.Idx → EReal) (ix2 k d)) (fun d k => ((m ((c.tc : Thread nD τ).loc main_arg10)) : S128x128.Idx → EReal) (ix2 k d))
          (fun k => ((m ((c.tc : Thread nD τ).loc main_arg5)) : S128.Idx → EReal) (ix1 k)) (fun k => ((m ((c.tc : Thread nD τ).loc main_arg7)) : S128.Idx → EReal) (ix1 k))
          (fun k => ((m ((c.tc : Thread nD τ).loc main_arg9)) : S128.Idx → EReal) (ix1 k)) (fun k => ((m ((c.tc : Thread nD τ).loc main_arg11)) : S128.Idx → EReal) (ix1 k)) n o := by
  have h6 : (W6 m ρ c (Proc.devRef .tc main_v31) : S10000x128.Idx → EReal)
      = ((Comb.dat1 (R5 m ρ) c).arrAt 11 cfg1.N : S10000x128.Idx → EReal) := W6_arr m ρ c 11
  refine (congrFun h6 (ix2 n o)).trans ((Comb.comb_value (R5 m ρ) c n o).trans ?_)
  exact combine_congr (fun n d => congrFun (W5_arg0 m ρ c) (ix2 n d)) (W5_v20_apply m ρ c) (W5_v22_apply m ρ c)
    (W5_v23_apply m ρ c) (W5_v24_apply m ρ c) (W5_v25_apply m ρ c) (W5_v26_apply m ρ c)
    (W5_v27_apply m ρ c) (W5_v28_apply m ρ c) (W5_v29_apply m ρ c) (W5_v30_apply m ρ c) n o

end Cert.KernelIdeal.Whole

end
-- ==== Proof.Whole.Den.lean ====
/-
  The aggregates' divisor in the kernel program, as a term of the launch destination words: the host scatter-add of
  ones over the destination column into zeros (the degree), at least one.
-/
import proofs.«401586_j49615462203743_3_alg».proof.Proof.Whole.Value
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (ρ : Dev nD → PrngReg)

/-- The destination words reach the host stretch between the calls as launched. -/
theorem W4_main_arg3 (c : Dev nD) : W4 m ρ c (Proc.devRef .tc main_arg3) = m ((c : Thread nD τ).loc main_arg3) :=
  (W4_of_ne m ρ c main_arg3 (by decide)).trans <|
    (StableHlo.after_of_writes_sub hostOps0_2 _ hostOps0_2_writes (by decide)).trans <| (StableHlo.after_of_writes_sub hostOps0_1 _ hostOps0_1_writes (by decide)).trans <|
    (StableHlo.after_of_writes_sub hostOps0 _ hostOps0_writes (by decide)).trans rfl

/-- The divisor is the degree of the launch destination words, clamped below by one. -/
theorem denK_eq (c : Dev nD) (n : Fin 10000) :
    denK m ρ c n
      = (maximumf (F := Ideal)
          (Host.scatterAdd scatter_S10000_S640000x1_S640000_n_0_0_1
            (broadcastInDim S10000 ![] bcast_S_S10000 (constant (F := Ideal) S_ .f32 0x00000000#32))
            (broadcastInDim S640000x1 ![0] bcast_S640000_S640000x1_0 ((m ((c.tc : Thread nD τ).loc main_arg3)) : S640000.Idx → BitVec 32))
            (broadcastInDim S640000 ![] bcast_S_S640000 (constant (F := Ideal) S_ .f32 0x3F800000#32)))
          (broadcastInDim S10000 ![] bcast_S_S10000 (constant (F := Ideal) S_ .f32 0x3F800000#32)) : S10000.Idx → EReal) (ix1 n) := by
  unfold denK
  have e : (W5 m ρ c (Proc.devRef .tc main_v17) : S10000.Idx → EReal)
      = (maximumf (F := Ideal)
          (Host.scatterAdd scatter_S10000_S640000x1_S640000_n_0_0_1
            (broadcastInDim S10000 ![] bcast_S_S10000 (constant (F := Ideal) S_ .f32 0x00000000#32))
            (broadcastInDim S640000x1 ![0] bcast_S640000_S640000x1_0 ((W4 m ρ c (Proc.devRef .tc main_arg3)) : S640000.Idx → BitVec 32))
            (broadcastInDim S640000 ![] bcast_S_S640000 (constant (F := Ideal) S_ .f32 0x3F800000#32)))
          (broadcastInDim S10000 ![] bcast_S_S10000 (constant (F := Ideal) S_ .f32 0x3F800000#32))) := by
    show StableHlo.after hostOps1 (W4 m ρ c) (Proc.devRef .tc main_v17) = _
    after_results
  rw [e, W4_main_arg3]

end Cert.KernelIdeal.Whole

end
-- ==== Proof.Bits.Agg.Base.lean ====
/-
  The aggregation call (grid 2 × 250, flat point t = 250·core + j): the facts its whole-body runs share.
  The body resets the running sum exactly at j = 0 and copies it to the output block exactly at j = 249;
  the output window is idle, and not written back, at every other point.
-/
import proofs.«401586_j49615462203743_3_alg».proof.Proof.Gen.Kernel.Launch
import proofs.«401586_j49615462203743_3_alg».proof.Proof.Gen.Kernel.Skeleton
import proofs.«401586_j49615462203743_3_alg».proof.Proof.Gen.Kernel.Points
import proofs.«401586_j49615462203743_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch of the body is taken: the edge-block coordinate j is 0 (the running sum is reset). -/
abbrev condReset (i : grid0.Coords) : Prop :=
  (Scalar.cmpi .ne (Scalar.extui (Scalar.cmpi .eq (BitVec.ofNat 32 (i 1).val) 0#32)) 0#32) = 1#1
/-- In flat points: t ≡ 0 (mod 250). -/
theorem hcondReset : ∀ t : Fin cfg0.N, condReset (grid0.coords t) ↔ t.val % 250 = 0 :=
  (by decide +kernel : ∀ t : Fin grid0.N, condReset (grid0.coords t) ↔ t.val % 250 = 0)

/-- The last branch of the body is taken: j = 249 (the running sum is copied to the output block). -/
abbrev condLast (i : grid0.Coords) : Prop := k0_cond2 i = 1#1
/-- In flat points: t ≡ 249 (mod 250). -/
theorem hcondLast : ∀ t : Fin cfg0.N, condLast (grid0.coords t) ↔ t.val % 250 = 249 :=
  (by decide +kernel : ∀ t : Fin grid0.N, condLast (grid0.coords t) ↔ t.val % 250 = 249)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly away from j = 249, and is not written back there. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- Each window's current staging memref at point t, as the pipeline passes it to the body, and its wholeness. -/
abbrev ms0 (t : Fin cfg0.N) : Memref sig .tc .vmem S1280x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1280 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1280x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S10240x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x10240x256 .f32 := win0_4.stage (cfg0.slots t 4)
abbrev hs4 (t : Fin cfg0.N) : (ms4 t).IsWhole := hstage0_4 ((cfg0.slots t 4).cast nbuf0_4)
/-- The two scratch operands: the running sum (carried from point to point) and the gathered rows (rebuilt at every point). -/
abbrev scSum : Memref sig .tc .vmem S10240x256 .f32 := Memref.whole cc0_scratch0
abbrev scRows : Memref sig .tc .vmem S1280x128 .f32 := Memref.whole cc0_scratch1
/-- Views through which the running sum and the output block are stated. -/
abbrev VSum : View sig .tc .vmem S10240x256 .f32 := scSum.view
abbrev VOut : View sig .tc .vmem S1x10240x256 .f32 := (Memref.whole cc0_stg4_0 : Memref sig .tc .vmem S1x10240x256 .f32).view

end Cert.Kernel.Agg

end
-- ==== Proof.Bits.Agg.RunFirst.lean ====
/-
  The aggregation body at the first edge block of a core's share (j = 0): the running sum is first reset to
  zero whole, then this block's scattered messages are added, chunk by chunk. The output block is not touched.
  What the running sum held before does not matter; its pieces begin with the whole-buffer reset.
-/
import proofs.«401586_j49615462203743_3_alg».proof.Proof.Bits.Agg.Base

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole)
    (hc0 : condReset i) (hc1 : ¬condLast i)
    (x0 : Vec F S1280x1 .i32) (x1 : Vec F S1x1280 .i32) (x2 : Vec F S1280x1 .f32) (x3 : Vec F S10240x128 .bf16) :
    { LS : List (View.Piece (Elt F) S10240x256 .f32) //
      ∀ (xi : Vec F S1x10240x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ (∃ d, owns (c : Thread nD τ) arg7 fullShare d)
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
                ∗ (∃ f, arg7.view.loc (c : Thread nD τ) ↦[arg7.view.set]{fullShare} arg7.view.writes (Elt F) f LS)
                ∗ (∃ f, arg8.view.loc (c : Thread nD τ) ↦[arg8.view.set]{fullShare} f)) -∗ K ⟨⟩))
          ⊢ wp frame (wpE (defs₀ (F := F)) Variants.none c none) E (cc0__agg_kernel i arg2 harg2 arg3 harg3 arg4 harg4 arg5 harg5 arg6 harg6 arg7 harg7 arg8 harg8) K } := by
  refine ⟨?_, fun xi E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]
    · iexists _; iexact HS
    iexists _; iexact H8

end Cert.Kernel.Agg

end
-- ==== Proof.Bits.Agg.RunMid.lean ====
/-
  The aggregation body at a middle point (0 < j < 249): neither branch is taken. From the running sum as the
  point before left it, the body rebuilds the gathered rows (first loop) and adds this block's scattered
  messages into the running sum, five row chunks of 2048 (second loop). The output block is not touched.
  The pieces written into the running sum are found by the run itself.
-/
import proofs.«401586_j49615462203743_3_alg».proof.Proof.Bits.Agg.Base

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole)
    (hc0 : ¬condReset i) (hc1 : ¬condLast i)
    (x0 : Vec F S1280x1 .i32) (x1 : Vec F S1x1280 .i32) (x2 : Vec F S1280x1 .f32) (x3 : Vec F S10240x128 .bf16) (xs : Vec F S10240x256 .f32) :
    { LS : List (View.Piece (Elt F) S10240x256 .f32) //
      ∀ (xi : Vec F S1x10240x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi ∗ owns (c : Thread nD τ) arg7 fullShare xs
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi
                ∗ (arg7.view.loc (c : Thread nD τ) ↦[arg7.view.set]{fullShare} arg7.view.writes (Elt F) (harg7.unread xs) LS)
                ∗ (∃ f, arg8.view.loc (c : Thread nD τ) ↦[arg8.view.set]{fullShare} f)) -∗ K ⟨⟩))
          ⊢ wp frame (wpE (defs₀ (F := F)) Variants.none c none) E (cc0__agg_kernel i arg2 harg2 arg3 harg3 arg4 harg4 arg5 harg5 arg6 harg6 arg7 harg7 arg8 harg8) K } := by
  refine ⟨?_, fun xi E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]
    · iexact HS
    iexists _; iexact H8

end Cert.Kernel.Agg

end
-- ==== Proof.Bits.Agg.RunLast.lean ====
/-
  The aggregation body at the last edge block of a core's share (j = 249): this block's scattered messages are
  added to the running sum as the point before left it, and the running sum is then copied whole into the
  output block, which the pipeline writes back after this point.
-/
import proofs.«401586_j49615462203743_3_alg».proof.Proof.Bits.Agg.Base

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole)
    (hc0 : ¬condReset i) (hc1 : condLast i)
    (x0 : Vec F S1280x1 .i32) (x1 : Vec F S1x1280 .i32) (x2 : Vec F S1280x1 .f32) (x3 : Vec F S10240x128 .bf16) (xs : Vec F S10240x256 .f32) :
    Σ' (LO : List (View.Piece (Elt F) S1x10240x256 .f32)), { LS : List (View.Piece (Elt F) S10240x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs) LS)
                ∗ (∃ f, arg8.view.loc (c : Thread nD τ) ↦[arg8.view.set]{fullShare} f)) -∗ K ⟨⟩))
          ⊢ wp frame (wpE (defs₀ (F := F)) Variants.none c none) E (cc0__agg_kernel i arg2 harg2 arg3 harg3 arg4 harg4 arg5 harg5 arg6 harg6 arg7 harg7 arg8 harg8) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, ⟨%d8, %f8, -, H8⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS]
    · iexact HS
    iexists _; iexact H8

end Cert.Kernel.Agg

end
-- ==== Proof.Bits.Agg.Pieces.lean ====
/-
  What each case of the aggregation body leaves in the running sum and in the output block, as the pieces its
  whole-body run found, read back; and that the first point's pieces cover the running sum (they begin with the
  whole-buffer reset) and the last point's store covers the output block.
-/
import proofs.«401586_j49615462203743_3_alg».proof.Proof.Bits.Agg.RunFirst
import proofs.«401586_j49615462203743_3_alg».proof.Proof.Bits.Agg.RunMid
import proofs.«401586_j49615462203743_3_alg».proof.Proof.Bits.Agg.RunLast

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The running sum after a first point (j = 0): the run's pieces — a whole-buffer reset first — over anything. -/
def sumFirst (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : condReset i) (hc1 : ¬condLast i) (x0 : Vec F S1280x1 .i32) (x1 : Vec F S1x1280 .i32) (x2 : Vec F S1280x1 .f32) (x3 : Vec F S10240x128 .bf16) : Vec F S10240x256 .f32 :=
  arg7.view.read (Elt F) (arg7.view.writes (Elt F) arg7.view.junk (runFirst c i arg2 harg2 arg3 harg3 arg4 harg4 arg5 harg5 arg6 harg6 arg7 harg7 arg8 harg8 hc0 hc1 x0 x1 x2 x3).1)

/-- The first point's pieces cover the running sum (they include the whole-buffer reset), so what they leave does
    not depend on what was there. -/
theorem coverFirst (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : condReset i) (hc1 : ¬condLast i) (x0 : Vec F S1280x1 .i32) (x1 : Vec F S1x1280 .i32) (x2 : Vec F S1280x1 .f32) (x3 : Vec F S10240x128 .bf16) (y : S10240x256.Idx) :
    ∃ pc ∈ (runFirst c i arg2 harg2 arg3 harg3 arg4 harg4 arg5 harg5 arg6 harg6 arg7 harg7 arg8 harg8 hc0 hc1 x0 x1 x2 x3).1, y ∈ pc.1.set := by
  refine View.cover_of_wholeMem _ ?_ y
  unfold runFirst
  dsimp only
  sl_whole_mem

/-- The running sum after a middle point: the run's pieces over what the point before left. -/
def sumMid (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : ¬condLast i) (x0 : Vec F S1280x1 .i32) (x1 : Vec F S1x1280 .i32) (x2 : Vec F S1280x1 .f32) (x3 : Vec F S10240x128 .bf16) (xs : Vec F S10240x256 .f32) : Vec F S10240x256 .f32 :=
  arg7.view.read (Elt F) (arg7.view.writes (Elt F) (harg7.unread xs) (runMid c i arg2 harg2 arg3 harg3 arg4 harg4 arg5 harg5 arg6 harg6 arg7 harg7 arg8 harg8 hc0 hc1 x0 x1 x2 x3 xs).1)

/-- The running sum after a last point (j = 249): likewise. -/
def sumLast (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec F S1280x1 .i32) (x1 : Vec F S1x1280 .i32) (x2 : Vec F S1280x1 .f32) (x3 : Vec F S10240x128 .bf16) (xs : Vec F S10240x256 .f32) : Vec F S10240x256 .f32 :=
  arg7.view.read (Elt F) (arg7.view.writes (Elt F) (harg7.unread xs) (runLast c i arg2 harg2 arg3 harg3 arg4 harg4 arg5 harg5 arg6 harg6 arg7 harg7 arg8 harg8 hc0 hc1 x0 x1 x2 x3 xs).2.1)

/-- The output block after a last point: the run's one whole-block store read back. -/
def outLast (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec F S1280x1 .i32) (x1 : Vec F S1x1280 .i32) (x2 : Vec F S1280x1 .f32) (x3 : Vec F S10240x128 .bf16) (xs : Vec F S10240x256 .f32) : Vec F S1x10240x256 .f32 :=
  arg6.view.read (Elt F) (arg6.view.writes (Elt F) arg6.view.junk (runLast c i arg2 harg2 arg3 harg3 arg4 harg4 arg5 harg5 arg6 harg6 arg7 harg7 arg8 harg8 hc0 hc1 x0 x1 x2 x3 xs).1)

/-- The last point's store covers the output block. -/
theorem coverOut (c : Dev nD) (i : grid0.Coords) (arg2 : Memref sig .tc .vmem S1280x1 .i32) (harg2 : arg2.IsWhole) (arg3 : Memref sig .tc .vmem S1x1280 .i32) (harg3 : arg3.IsWhole) (arg4 : Memref sig .tc .vmem S1280x1 .f32) (harg4 : arg4.IsWhole) (arg5 : Memref sig .tc .vmem S10240x128 .bf16) (harg5 : arg5.IsWhole) (arg6 : Memref sig .tc .vmem S1x10240x256 .f32) (harg6 : arg6.IsWhole) (arg7 : Memref sig .tc .vmem S10240x256 .f32) (harg7 : arg7.IsWhole) (arg8 : Memref sig .tc .vmem S1280x128 .f32) (harg8 : arg8.IsWhole) (hc0 : ¬condReset i) (hc1 : condLast i) (x0 : Vec F S1280x1 .i32) (x1 : Vec F S1x1280 .i32) (x2 : Vec F S1280x1 .f32) (x3 : Vec F S10240x128 .bf16) (xs : Vec F S10240x256 .f32) (y : S1x10240x256.Idx) :
    ∃ pc ∈ (runLast c i arg2 harg2 arg3 harg3 arg4 harg4 arg5 harg5 arg6 harg6 arg7 harg7 arg8 harg8 hc0 hc1 x0 x1 x2 x3 xs).1, y ∈ pc.1.set := by
  refine View.cover_of_wholeMem _ ?_ y
  unfold runLast
  dsimp only
  sl_whole_mem

end Cert.Kernel.Agg

end
-- ==== Proof.Bits.Agg.Dat.lean ====
/-
  The aggregation call's proof data. The pipeline calls the body at the 500 flat points t = 250·core + j in
  order. The running sum (a scratch buffer the body keeps from point to point) is reset at j = 0 and then
  receives every edge block's scattered messages; at j = 249 it is copied to the output block, which the
  pipeline writes back to slice `core` of the result array. Here: what the running sum holds after each point
  (`sumAt`, by recursion on the point, each case's contents being what that case's run leaves), the region
  invariant carrying it, and the body obligation by cases on the point.
-/
import proofs.«401586_j49615462203743_3_alg».proof.Proof.Bits.Agg.Pieces

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The windows' blocks, at the contents `V` the region is entered with -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The running sum after each point -/

/-- What the running sum holds after the body at flat position `n`: the case the position is in, run at the
    point's memrefs and input blocks, over what the position before left. -/
def sumAt (c : Dev nD) : (n : ℕ) → n < cfg0.N → Vec F S10240x256 .f32
  | 0, hn => sumFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scSum (Memref.isWhole_whole _) scRows (Memref.isWhole_whole _) ((hcondReset ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 250 = 0 then
      if h1 : (n + 1) % 250 = 249 then False.elim (by omega)
      else sumFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scSum (Memref.isWhole_whole _) scRows (Memref.isWhole_whole _) ((hcondReset ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩)
    else
      if h1 : (n + 1) % 250 = 249 then
        sumLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scSum (Memref.isWhole_whole _) scRows (Memref.isWhole_whole _) (fun h => h0 ((hcondReset ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (sumAt c n (Nat.lt_of_succ_lt hn))
      else
        sumMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scSum (Memref.isWhole_whole _) scRows (Memref.isWhole_whole _) (fun h => h0 ((hcondReset ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (sumAt c n (Nat.lt_of_succ_lt hn))

/-- `sumAt` at a first point. -/
theorem sumAt_first (c : Dev nD) (t : Fin cfg0.N) (h0 : t.val % 250 = 0) (h1 : ¬t.val % 250 = 249) :
    sumAt V c t.val t.isLt = sumFirst c (grid0.coords t) (ms0 t) (hs0 t) (ms1 t) (hs1 t) (ms2 t) (hs2 t) (ms3 t) (hs3 t) (ms4 t) (hs4 t) scSum (Memref.isWhole_whole _) scRows (Memref.isWhole_whole _) ((hcondReset t).mpr h0) (fun h => h1 ((hcondLast t).mp h)) (iblk V c 0 t) (iblk V c 1 t) (iblk V c 2 t) (iblk V c 3 t) := by
  obtain ⟨n, hn⟩ := t
  cases n with
  | zero => exact rfl
  | succ n => exact (dif_pos h0).trans ((dif_neg h1).trans rfl)

/-- `sumAt` at a middle point, over what the point before left. -/
theorem sumAt_mid (c : Dev nD) (t : Fin cfg0.N) (h0 : ¬t.val % 250 = 0) (h1 : ¬t.val % 250 = 249) :
    sumAt V c t.val t.isLt = sumMid c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) (fun h => h1 ((hcondLast t).mp h)) (iblk V c 0 t) (iblk V c 1 t) (iblk V c 2 t) (iblk V c 3 t) (sumAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `sumAt` at a last point, over what the point before left. -/
theorem sumAt_last (c : Dev nD) (t : Fin cfg0.N) (h0 : ¬t.val % 250 = 0) (h1 : t.val % 250 = 249) :
    sumAt V c t.val t.isLt = sumLast c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (iblk V c 0 t) (iblk V c 1 t) (iblk V c 2 t) (iblk V c 3 t) (sumAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: at a last point the copy of the running sum; elsewhere the
    window is idle and this value is never consulted. -/
def outAt (c : Dev nD) (t : Fin cfg0.N) : Vec F S1x10240x256 .f32 :=
  if h1 : t.val % 250 = 249 then
    if h0 : t.val % 250 = 0 then False.elim (by omega)
    else outLast c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (iblk V c 0 t) (iblk V c 1 t) (iblk V c 2 t) (iblk V c 3 t) (sumAt V c (t.val - 1) (Nat.lt_of_le_of_lt (Nat.sub_le _ _) t.isLt))
  else VOut.read (Elt F) VOut.junk

theorem outAt_last (c : Dev nD) (t : Fin cfg0.N) (h0 : ¬t.val % 250 = 0) (h1 : t.val % 250 = 249) :
    outAt V c t = outLast c (grid0.coords t) (ms0 t) (hs0 t) (ms1 t) (hs1 t) (ms2 t) (hs2 t) (ms3 t) (hs3 t) (ms4 t) (hs4 t) scSum (Memref.isWhole_whole _) scRows (Memref.isWhole_whole _) (fun h => h0 ((hcondReset t).mp h)) ((hcondLast t).mpr h1) (iblk V c 0 t) (iblk V c 1 t) (iblk V c 2 t) (iblk V c 3 t) (sumAt V c (t.val - 1) (Nat.lt_of_le_of_lt (Nat.sub_le _ _) t.isLt)) := by
  unfold outAt; rw [dif_pos h1, dif_neg h0]

/-! ## The region invariant -/

/-- The core's scoped buffers the aggregation call neither stages nor uses (the combine call's staging buffers). -/
abbrev restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The class invariant, spelled: the two scratch buffers at anything, the other scoped buffers, the generator register. -/
theorem PhiA0_eq (c : Dev nD) :
    (Pipeline.ΦA spec0 c : sProp 𝕄)
      = iprop(iprop((∃ d, owns (c : Thread nD τ) scSum fullShare d) ∗ (∃ d, owns (c : Thread nD τ) scRows fullShare d) ∗ restOther c) ∗ (∃ r, prngReg c r)) := by
  unfold Pipeline.ΦA; rw [scopedRest0_eq]; simp only [scSum, scRows, owns_whole]; try rfl

/-- The invariant before position `n`: before the first point the class's; afterwards the same with the running
    sum at what the position before left. -/
def PhiS (c : Dev nD) : (n : ℕ) → n ≤ cfg0.N → sProp 𝕄
  | 0, _ => Pipeline.ΦA spec0 c
  | n + 1, hn => iprop(iprop(owns (c : Thread nD τ) scSum fullShare (sumAt V c n hn) ∗ (∃ d, owns (c : Thread nD τ) scRows fullShare d) ∗ restOther c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scSum fullShare (sumAt V c n hn) ∗ (∃ d, owns (c : Thread nD τ) scRows fullShare d) ∗ restOther c) ∗ (∃ r, prngReg c r)) := rfl

theorem PhiS_pos (c : Dev nD) (n : ℕ) (h : n ≤ cfg0.N) (hz : n ≠ 0) :
    PhiS V c n h = iprop(iprop(owns (c : Thread nD τ) scSum fullShare (sumAt V c (n - 1) (by omega)) ∗ (∃ d, owns (c : Thread nD τ) scRows fullShare d) ∗ restOther c) ∗ (∃ r, prngReg c r)) := by
  cases n with
  | zero => exact absurd rfl hz
  | succ n => rfl

/-! ## The proof data -/

/-- The aggregation call's proof data on core `c`: the arrays as the region finds them; after the body each input's
    buffer at its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = outAt V c t := by dsimp only [dat0]

theorem before0_0 (c : Dev nD) (t : Fin cfg0.N) (d) : (dat0 V c).before 0 t d = iblk V c 0 t :=
  before0_of V (dat0 V c) (A_eq0 V c 0) (after0_0 V c) t d
theorem before0_1 (c : Dev nD) (t : Fin cfg0.N) (d) : (dat0 V c).before 1 t d = iblk V c 1 t :=
  before1_of V (dat0 V c) (A_eq0 V c 1) (after0_1 V c) t d
theorem before0_2 (c : Dev nD) (t : Fin cfg0.N) (d) : (dat0 V c).before 2 t d = iblk V c 2 t :=
  before2_of V (dat0 V c) (A_eq0 V c 2) (after0_2 V c) t d
theorem before0_3 (c : Dev nD) (t : Fin cfg0.N) (d) : (dat0 V c).before 3 t d = iblk V c 3 t :=
  before3_of V (dat0 V c) (A_eq0 V c 3) (after0_3 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' memrefs hold their blocks; the point's case is decided by the closed forms;
    the invariant hands the body the running sum at what the point before left (at anything at the very first
    point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 500 := lt_of_lt_of_eq t.isLt (show cfg0.N = 500 from N_0)
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  rw [show (dat0 V c).leavesExact 3 t = owns (c : Thread nD τ) (ms3 t) fullShare ((dat0 V c).after 3 t) from by
    unfold Dat.leavesExact; rw [live3 t], after0_3]
  by_cases h0 : t.val % 250 = 0
  · have h1 : ¬t.val % 250 = 249 := by omega
    rw [Dat.leavesExact_idle (dat0 V c) 4 t (idle4 t (fun h => h1 ((hcondLast t).mp h))) (noFlush4 t (fun h => h1 ((hcondLast t).mp h)))]
    rw [sumAt_first V c t h0 h1]
    unfold sumFirst; (try dsimp only)
    by_cases hz : t.val = 0
    ·
      rw [PhiS_castSucc V c t, PhiS_zero V c _ _ hz, PhiA0_eq]
      iintro ⟨⟨⟨HS, HR, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondReset t).mpr h0) (fun h => h1 ((hcondLast t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      isplitl [HR]; · iexact HR
      iintro ⟨H0, H1, H2, H3, H4, ⟨%es, HS⟩, ⟨%e8, H8⟩⟩
      isplitl [HS H8 Hrest Hg]
      · isplitl [HS H8 Hrest]
        · isplitl [HS]
          · unfold owns; iexists _; isplitr
            swap; · iexact HS
            ipureintro; exact View.read_writes_of_cover _ _ _ _ _ (coverFirst c _ _ _ _ _ _ _ _ _ _ _ _ _ _ _ _ _ _ _ _ _)
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      iexists _; iexact H4
    ·
      rw [PhiS_castSucc V c t, PhiS_pos V c _ _ hz]
      iintro ⟨⟨⟨HS, HR, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondReset t).mpr h0) (fun h => h1 ((hcondLast t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      isplitl [HR]; · iexact HR
      iintro ⟨H0, H1, H2, H3, H4, ⟨%es, HS⟩, ⟨%e8, H8⟩⟩
      isplitl [HS H8 Hrest Hg]
      · isplitl [HS H8 Hrest]
        · isplitl [HS]
          · unfold owns; iexists _; isplitr
            swap; · iexact HS
            ipureintro; exact View.read_writes_of_cover _ _ _ _ _ (coverFirst c _ _ _ _ _ _ _ _ _ _ _ _ _ _ _ _ _ _ _ _ _)
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 250 = 249
    · rw [show (dat0 V c).leavesExact 4 t = owns (c : Thread nD τ) (ms4 t) fullShare ((dat0 V c).after 4 t) from by
        unfold Dat.leavesExact; rw [live4 t ((hcondLast t).mpr h1)], after0_4, outAt_last V c t h0 h1]
      rw [sumAt_last V c t h0 h1]
      unfold sumLast outLast; (try dsimp only)
      rw [PhiS_castSucc V c t, PhiS_pos V c _ _ hz]
      iintro ⟨⟨⟨HS, HR, Hrest⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((hcondReset t).mp h)) ((hcondLast t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HR]; · iexact HR
      iintro ⟨H0, H1, H2, H3, ⟨%e4, H4⟩, HS, ⟨%e8, H8⟩⟩
      isplitl [HS H8 Hrest Hg]
      · isplitl [HS H8 Hrest]
        · isplitl [HS]
          · unfold owns; iexists _; isplitr
            swap; · iexact HS
            ipureintro; rfl
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut c _ _ _ _ _ _ _ _ _ _ _ _ _ _ _ _ _ _ _ _ _ _)
    · rw [Dat.leavesExact_idle (dat0 V c) 4 t (idle4 t (fun h => h1 ((hcondLast t).mp h))) (noFlush4 t (fun h => h1 ((hcondLast t).mp h)))]
      rw [sumAt_mid V c t h0 h1]
      unfold sumMid; (try dsimp only)
      rw [PhiS_castSucc V c t, PhiS_pos V c _ _ hz]
      iintro ⟨⟨⟨HS, HR, Hrest⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((hcondReset t).mp h)) (fun h => h1 ((hcondLast t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      isplitl [HR]; · iexact HR
      iintro ⟨H0, H1, H2, H3, H4, HS, ⟨%e8, H8⟩⟩
      isplitl [HS H8 Hrest Hg]
      · isplitl [HS H8 Hrest]
        · isplitl [HS]
          · unfold owns; iexists _; isplitr
            swap; · iexact HS
            ipureintro; rfl
          isplitl [H8]
          · iexists _; unfold owns; iexists _; isplitr
            swap; · iexact H8
            ipureintro; rfl
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the running sum's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 500 := N_0; omega), PhiA0_eq]
  iintro ⟨⟨HS, HR, Hrest⟩, Hg⟩
  isplitl [HS HR Hrest]
  · isplitl [HS]
    · iexists _; iexact HS
    isplitl [HR]; · iexact HR
    iexact Hrest
  iexact Hg

end Cert.Kernel.Agg

end
-- ==== Proof.Bits.Comb.Run.lean ====
/-
  The combine call (grid of 10 row blocks of 1000 nodes): the body loads its eleven input blocks whole —
  the node features, the two mean-aggregated features, the four transposed weight matrices and the four bias
  rows — and stores the output block whole, once. The stored piece is found by the run itself.
-/
import proofs.«401586_j49615462203743_3_alg».proof.Proof.Gen.Kernel.Launch
import proofs.«401586_j49615462203743_3_alg».proof.Proof.Gen.Kernel.Skeleton
import proofs.«401586_j49615462203743_3_alg».proof.Proof.Gen.Kernel.Points
import proofs.«401586_j49615462203743_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runComb (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) :
    { LO : List (View.Piece (Elt F) S1000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f LO)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__combine_kernel_eq_skeleton]; unfold cc1__combine_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

end Cert.Kernel.Comb

end
-- ==== Proof.Bits.Comb.Dat.lean ====
/-
  The combine call's proof data: ten row blocks of 1000 nodes; at each point the body reads its eleven input
  blocks (only the three row-blocked ones move with the point) and stores the output block, which the pipeline
  writes back at every point.
-/
import proofs.«401586_j49615462203743_3_alg».proof.Proof.Bits.Comb.Run

set_option maxRecDepth 16384

noncomputable section

namespace Cert.Kernel.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body leaves in the output block: the run's one whole-block store read back. -/
def outComb (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) : Vec F S1000x128 .f32 :=
  arg12.view.read (Elt F) (arg12.view.writes (Elt F) arg12.view.junk (runComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

/-- The store covers the output block. -/
theorem coverComb (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1000x128 .f32) (harg12 : arg12.IsWhole)
    (x0 : Vec F S1000x128 .f32) (x1 : Vec F S1000x128 .f32) (x2 : Vec F S1000x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (y : S1000x128.Idx) :
    ∃ pc ∈ (runComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (runComb c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S1000x128.size (by sl_kernel_rfl) y

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The output block after the body at point `t`. -/
def outAt1 (c : Dev nD) (t : Fin cfg1.N) : Vec F S1000x128 .f32 :=
  outComb c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

/-- The combine call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold outAt1 outComb; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runComb c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (coverComb c _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Comb

end
-- ==== Proof.Bits.Whole.Run.lean ====
/-
  The whole run of @main: three stretches of host operations (the bf16 copy of the node features, its zero
  padding to 10240 rows, the two index reshapes), the aggregation call, a stretch of host operations (the two
  per-core partial sums added, the degree, the two means, the transposes and reshapes), the combine call.
  The contents of every unscoped buffer at each boundary are a fold from the launch memory: a host stretch's
  operations applied; after a call its arrays at what the pipeline's write-backs leave. Every weakly fair
  execution terminates without a fault, in a memory that holds every unscoped buffer at the last boundary's
  contents.
-/
import proofs.«401586_j49615462203743_3_alg».proof.Proof.Bits.Agg.Dat
import proofs.«401586_j49615462203743_3_alg».proof.Proof.Bits.Comb.Dat
import proofs.«401586_j49615462203743_3_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the conversion of the node features. -/
abbrev W1 : Dev nD → Valuation τ sig (Elt F) := fun c => StableHlo.after hostOps0 (W0 m ρ c)
/-- After the zero padding. -/
abbrev W2 : Dev nD → Valuation τ sig (Elt F) := fun c => StableHlo.after hostOps0_1 (W1 m ρ c)
/-- After the two index reshapes: the aggregation call's entry. -/
abbrev W3 : Dev nD → Valuation τ sig (Elt F) := fun c => StableHlo.after hostOps0_2 (W2 m ρ c)
abbrev R3 : (c : Dev nD) → (b : Ref sig .tc) → Buf (Elt F) ((c : Thread nD τ).loc b) := fun c b => W3 m ρ c b
/-- At the aggregation call's exit: its arrays at what the pipeline leaves, every other buffer as entered. -/
def W4 (c : Dev nD) : Valuation τ sig (Elt F) :=
  Pipeline.withArrays spec0 c (W3 m ρ c) fun w => (Agg.dat0 (R3 m ρ) c).arrAt w cfg0.N
theorem W4_arr (c : Dev nD) (w : Fin cfg0.W) :
    W4 m ρ c (Proc.devRef .tc (Pipeline.arrRef spec0 w)) = (Agg.dat0 (R3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev R4 : (c : Dev nD) → (b : Ref sig .tc) → Buf (Elt F) ((c : Thread nD τ).loc b) := fun c b => W4 m ρ c b
theorem hF0 (c : Dev nD) (w : Fin cfg0.W) : (Agg.dat0 (R3 m ρ) c).arrAt w cfg0.N = R4 m ρ c (Pipeline.arrRef spec0 w) :=
  (W4_arr m ρ c w).symm
theorem hrest0 (c : Dev nD) : ∀ b, b ∉ Finset.univ.image (Pipeline.arrRef spec0) → R4 m ρ c b = R3 m ρ c b :=
  fun b hb => W4_of_ne m ρ c b fun w e => hb (Finset.mem_image.mpr ⟨w, Finset.mem_univ _, e⟩)
/-- After the host stretch between the calls: the combine call's entry. -/
abbrev W5 : Dev nD → Valuation τ sig (Elt F) := fun c => StableHlo.after hostOps1 (W4 m ρ c)
abbrev R5 : (c : Dev nD) → (b : Ref sig .tc) → Buf (Elt F) ((c : Thread nD τ).loc b) := fun c b => W5 m ρ c b
/-- At the combine call's exit. -/
def W6 (c : Dev nD) : Valuation τ sig (Elt F) :=
  Pipeline.withArrays spec1 c (W5 m ρ c) fun w => (Comb.dat1 (R5 m ρ) c).arrAt w cfg1.N
theorem W6_arr (c : Dev nD) (w : Fin cfg1.W) :
    W6 m ρ c (Proc.devRef .tc (Pipeline.arrRef spec1 w)) = (Comb.dat1 (R5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev R6 : (c : Dev nD) → (b : Ref sig .tc) → Buf (Elt F) ((c : Thread nD τ).loc b) := fun c b => W6 m ρ c b
theorem hF1 (c : Dev nD) (w : Fin cfg1.W) : (Comb.dat1 (R5 m ρ) c).arrAt w cfg1.N = R6 m ρ c (Pipeline.arrRef spec1 w) :=
  (W6_arr m ρ c w).symm
theorem hrest1 (c : Dev nD) : ∀ b, b ∉ Finset.univ.image (Pipeline.arrRef spec1) → R6 m ρ c b = R5 m ρ c b :=
  fun b hb => W6_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Agg.dat0 (R3 m ρ) c
  | ⟨1, _⟩ => fun c => Comb.dat1 (R5 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The two calls as segments -/

/-- The class invariant of the aggregation call gives back the generator register and the scoped rest. -/
theorem phiA_out0 (c : Dev nD) : (Pipeline.ΦA spec0 c : sProp 𝕄)
    ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Agg.body_obligation0 (R3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (R3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (Agg.hout0 (R3 m ρ) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (R3 m ρ c) (R4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Comb.body_obligation1 (R5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (R5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (R5 m ρ c) (R6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The arguments end as launched -/

/-- An argument no call stages and no host operation writes keeps its launch contents through the whole fold. -/
theorem W6_of_plain (c : Dev nD) (r : Ref sig .tc) (h0 : r ∉ hostOps0_W) (h1 : r ∉ hostOps0_1_W) (h2 : r ∉ hostOps0_2_W) (h4 : r ∉ hostOps1_W)
    (ha0 : ∀ w, Pipeline.arrRef spec0 w ≠ r) (ha1 : ∀ w, Pipeline.arrRef spec1 w ≠ r) :
    W6 m ρ c (Proc.devRef .tc r) = m ((c : Thread nD τ).loc r) :=
  (W6_of_ne m ρ c r ha1).trans <| (StableHlo.after_of_writes_sub hostOps1 _ hostOps1_writes h4).trans <| (W4_of_ne m ρ c r ha0).trans <|
    (StableHlo.after_of_writes_sub hostOps0_2 _ hostOps0_2_writes h2).trans <| (StableHlo.after_of_writes_sub hostOps0_1 _ hostOps0_1_writes h1).trans <|
    (StableHlo.after_of_writes_sub hostOps0 _ hostOps0_writes h0).trans rfl

/-- The node features: read by the combine call through an input window, written by nothing. -/
theorem W6_main_arg0 (c : Dev nD) : W6 m ρ c (Proc.devRef .tc main_arg0) = m ((c : Thread nD τ).loc main_arg0) :=
  (W6_arr m ρ c 0).trans <| ((Comb.dat1 (R5 m ρ) c).arrAt_in 0 rfl _).trans <| (Comb.A_eq1 (R5 m ρ) c 0).trans <|
    (StableHlo.after_of_writes_sub hostOps1 _ hostOps1_writes (by decide)).trans <| (W4_of_ne m ρ c main_arg0 (by decide)).trans <|
    (StableHlo.after_of_writes_sub hostOps0_2 _ hostOps0_2_writes (by decide)).trans <| (StableHlo.after_of_writes_sub hostOps0_1 _ hostOps0_1_writes (by decide)).trans <|
    (StableHlo.after_of_writes_sub hostOps0 _ hostOps0_writes (by decide)).trans rfl

/-- The edge weights: read by the aggregation call through an input window, written by nothing. -/
theorem W6_main_arg1 (c : Dev nD) : W6 m ρ c (Proc.devRef .tc main_arg1) = m ((c : Thread nD τ).loc main_arg1) :=
  (W6_of_ne m ρ c main_arg1 (by decide)).trans <| (StableHlo.after_of_writes_sub hostOps1 _ hostOps1_writes (by decide)).trans <|
    (W4_arr m ρ c 2).trans <| ((Agg.dat0 (R3 m ρ) c).arrAt_in 2 rfl _).trans <| (Agg.A_eq0 (R3 m ρ) c 2).trans <|
    (StableHlo.after_of_writes_sub hostOps0_2 _ hostOps0_2_writes (by decide)).trans <| (StableHlo.after_of_writes_sub hostOps0_1 _ hostOps0_1_writes (by decide)).trans <|
    (StableHlo.after_of_writes_sub hostOps0 _ hostOps0_writes (by decide)).trans rfl

theorem W6_main_arg2 (c : Dev nD) : W6 m ρ c (Proc.devRef .tc main_arg2) = m ((c : Thread nD τ).loc main_arg2) :=
  W6_of_plain m ρ c main_arg2 (by decide) (by decide) (by decide) (by decide) (by decide) (by decide)
theorem W6_main_arg3 (c : Dev nD) : W6 m ρ c (Proc.devRef .tc main_arg3) = m ((c : Thread nD τ).loc main_arg3) :=
  W6_of_plain m ρ c main_arg3 (by decide) (by decide) (by decide) (by decide) (by decide) (by decide)
theorem W6_main_arg4 (c : Dev nD) : W6 m ρ c (Proc.devRef .tc main_arg4) = m ((c : Thread nD τ).loc main_arg4) :=
  W6_of_plain m ρ c main_arg4 (by decide) (by decide) (by decide) (by decide) (by decide) (by decide)
theorem W6_main_arg5 (c : Dev nD) : W6 m ρ c (Proc.devRef .tc main_arg5) = m ((c : Thread nD τ).loc main_arg5) :=
  W6_of_plain m ρ c main_arg5 (by decide) (by decide) (by decide) (by decide) (by decide) (by decide)
theorem W6_main_arg6 (c : Dev nD) : W6 m ρ c (Proc.devRef .tc main_arg6) = m ((c : Thread nD τ).loc main_arg6) :=
  W6_of_plain m ρ c main_arg6 (by decide) (by decide) (by decide) (by decide) (by decide) (by decide)
theorem W6_main_arg7 (c : Dev nD) : W6 m ρ c (Proc.devRef .tc main_arg7) = m ((c : Thread nD τ).loc main_arg7) :=
  W6_of_plain m ρ c main_arg7 (by decide) (by decide) (by decide) (by decide) (by decide) (by decide)
theorem W6_main_arg8 (c : Dev nD) : W6 m ρ c (Proc.devRef .tc main_arg8) = m ((c : Thread nD τ).loc main_arg8) :=
  W6_of_plain m ρ c main_arg8 (by decide) (by decide) (by decide) (by decide) (by decide) (by decide)
theorem W6_main_arg9 (c : Dev nD) : W6 m ρ c (Proc.devRef .tc main_arg9) = m ((c : Thread nD τ).loc main_arg9) :=
  W6_of_plain m ρ c main_arg9 (by decide) (by decide) (by decide) (by decide) (by decide) (by decide)
theorem W6_main_arg10 (c : Dev nD) : W6 m ρ c (Proc.devRef .tc main_arg10) = m ((c : Thread nD τ).loc main_arg10) :=
  W6_of_plain m ρ c main_arg10 (by decide) (by decide) (by decide) (by decide) (by decide) (by decide)
theorem W6_main_arg11 (c : Dev nD) : W6 m ρ c (Proc.devRef .tc main_arg11) = m ((c : Thread nD τ).loc main_arg11) :=
  W6_of_plain m ρ c main_arg11 (by decide) (by decide) (by decide) (by decide) (by decide) (by decide)

/-! ## The two readings of the run -/

/-- Every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run_all m ρ)

/-- The result ends at the last boundary's contents, and every argument array as launched. -/
theorem value_all : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v31 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run_all m ρ)

end Cert.Kernel.Whole

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.RefValue.lean ====
/-
  The reference's result, read index by index over the extended reals, for source words that are node numbers:
  the combine stage of the node's features and of its two mean aggregates, each aggregate the host scatter-add's
  sum over the edges whose destination is the node, divided by the clamped degree.
-/
import proofs.«401586_j49615462203743_3_alg».proof.Proof.Gen.ReferenceIdeal.Read
import proofs.«401586_j49615462203743_3_alg».proof.Proof.Spec
import proofs.«401586_j49615462203743_3_alg».proof.Proof.LibSegment

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The first aggregate's divisor at node `n`: the degree, at least one. -/
def denMul (x3 : (⟨S640000, .i32⟩ : BufTy).Contents (Elt Ideal)) (n : Fin 10000) : EReal :=
  Read.val_main_v17 (F := Ideal) x3 (ix1 n)
/-- The second aggregate's divisor at node `n` (the same computation, printed a second time). -/
def denCopy (x3 : (⟨S640000, .i32⟩ : BufTy).Contents (Elt Ideal)) (n : Fin 10000) : EReal :=
  Read.val_main_v29 (F := Ideal) x3 (ix1 n)

open Idealize.ShloMosaic.StableHlo.Predicate (ixP)
open scoped BigOperators

/-! ## Indices -/

/-- Two rank-2 indices with the same coordinates are equal. -/
private theorem idx2_ext {n0 n1 : Nat} (f g : (⟨2, ![n0, n1]⟩ : Shape).Idx)
    (h0 : (f 0).val = (g 0).val) (h1 : (f 1).val = (g 1).val) : f = g :=
  funext fun a => match a with
    | ⟨0, _⟩ => Fin.ext h0
    | ⟨1, _⟩ => Fin.ext h1

/-- Two rank-1 indices with the same coordinate are equal. -/
private theorem idx1_ext {n : Nat} (f g : (⟨1, ![n]⟩ : Shape).Idx) (h0 : (f 0).val = (g 0).val) : f = g :=
  funext fun a => match a with
    | ⟨0, _⟩ => Fin.ext h0

/-! ## The source word, the gathered row, the two sums -/

/-- A source word that is not negative is not wrapped: the signed compare with zero is false and the select keeps
    the word. -/
theorem index_word (x2 : (⟨S640000, .i32⟩ : BufTy).Contents (Elt Ideal)) (R : Fin 640000) (h : 0 ≤ (x2 (ix1 R)).toInt) :
    Read.val_main_v4 (F := Ideal) x2 (ix1 R) = x2 (ix1 R) := by
  rw [val_main_v4_apply, val_main_v1_apply, val_main_v0_apply, val_main_c_apply]
  have hc : IntOp.cmpi .slt (x2 (ix1 R)) 0#32 = 0#1 := by
    have hs : (x2 (ix1 R)).slt 0#32 = false := by
      show decide ((x2 (ix1 R)).toInt < (0#32).toInt) = false
      rw [BitVec.toInt_zero]
      exact decide_eq_false (not_lt.mpr h)
    unfold IntOp.cmpi
    simp only [hs]
    rfl
  rw [hc, select_zero]

/-- The gathered row of edge `e`: the table's row the source word names. -/
theorem gather_at (x0 : (⟨S10000x128, .f32⟩ : BufTy).Contents (Elt Ideal)) (x2 : (⟨S640000, .i32⟩ : BufTy).Contents (Elt Ideal)) (hsrc : ∀ R : Fin 640000, 0 ≤ (x2 (ix1 R)).toInt ∧ (x2 (ix1 R)).toInt < 10000) (e : Fin 640000) (k : Fin 128) :
    Read.val_main_v6 (F := Ideal) x0 x2 (ix2 e k) = Cert.Spec.gatherRow (fun n d => x0 (ix2 n d)) (x2 (ix1 e)) k := by
  have hw : val_main_v5 (F := Ideal) x2 (ixP e) = x2 (ix1 e) := by
    rw [val_main_v5_apply, show idx_main_v5 (ixP e) = ix1 e from idx1_ext _ _ rfl]
    exact index_word x2 e (hsrc e).1
  unfold val_main_v6
  rw [Cert.Segment.gather_rows _ rfl rfl rfl rfl rfl x0 (val_main_v5 (F := Ideal) x2) e k (by decide)]
  simp only [hw]
  rfl

/-- The weighted message of edge `e`. -/
theorem msgMul_at (x0 : (⟨S10000x128, .f32⟩ : BufTy).Contents (Elt Ideal)) (x1 : (⟨S640000x1, .f32⟩ : BufTy).Contents (Elt Ideal)) (x2 : (⟨S640000, .i32⟩ : BufTy).Contents (Elt Ideal)) (hsrc : ∀ R : Fin 640000, 0 ≤ (x2 (ix1 R)).toInt ∧ (x2 (ix1 R)).toInt < 10000) (e : Fin 640000) (k : Fin 128) :
    Read.val_main_v8 (F := Ideal) x0 x1 x2 (ix2 e k) = Cert.Spec.gatherRow (fun n d => x0 (ix2 n d)) (x2 (ix1 e)) k * x1 (ix2 e 0) := by
  rw [val_main_v8_apply, gather_at x0 x2 hsrc, val_main_v7_apply,
    show idx_main_v7 (ix2 e k) = ix2 e 0 from idx2_ext _ _ rfl rfl]
  rfl

/-- The first scatter-add at (n, d): the weighted aggregate. -/
theorem aggMul_at (x0 : (⟨S10000x128, .f32⟩ : BufTy).Contents (Elt Ideal)) (x1 : (⟨S640000x1, .f32⟩ : BufTy).Contents (Elt Ideal)) (x2 x3 : (⟨S640000, .i32⟩ : BufTy).Contents (Elt Ideal)) (hsrc : ∀ R : Fin 640000, 0 ≤ (x2 (ix1 R)).toInt ∧ (x2 (ix1 R)).toInt < 10000) (n : Fin 10000) (d : Fin 128) :
    Read.val_main_v11 (F := Ideal) x0 x1 x2 x3 (ix2 n d) = Cert.Spec.refAggMul (fun n d => x0 (ix2 n d)) (fun R => x2 (ix1 R)) (fun R => x3 (ix1 R)) (fun R => x1 (ix2 R 0)) n d := by
  have hf : ∀ e : Fin 640000, val_main_v10 (F := Ideal) x3 (ixP e) = x3 (ix1 e) := fun e => by
    rw [val_main_v10_apply, show idx_main_v10 (ixP e) = ix1 e from idx1_ext _ _ rfl]
  unfold val_main_v11 Host.scatterAdd
  rw [Ideal.hostScatterAdd_def, Cert.Segment.hostScatterAdd_rows _ rfl rfl rfl rfl,
    val_main_v9_apply, val_main_cst_apply, Ideal.ofBits_def, Ideal.ofBits_zero_f32]
  unfold Cert.Spec.refAggMul
  exact congrArg (fun s : EReal => 0 + s) (Finset.sum_congr (Finset.filter_congr fun e _ => by rw [hf])
    fun e _ => msgMul_at x0 x1 x2 hsrc e d)

/-- The second scatter-add at (n, d): the plain aggregate. -/
theorem aggCopy_at (x0 : (⟨S10000x128, .f32⟩ : BufTy).Contents (Elt Ideal)) (x2 x3 : (⟨S640000, .i32⟩ : BufTy).Contents (Elt Ideal)) (hsrc : ∀ R : Fin 640000, 0 ≤ (x2 (ix1 R)).toInt ∧ (x2 (ix1 R)).toInt < 10000) (n : Fin 10000) (d : Fin 128) :
    Read.val_main_v23 (F := Ideal) x0 x2 x3 (ix2 n d) = Cert.Spec.refAggCopy (fun n d => x0 (ix2 n d)) (fun R => x2 (ix1 R)) (fun R => x3 (ix1 R)) n d := by
  have hf : ∀ e : Fin 640000, val_main_v22 (F := Ideal) x3 (ixP e) = x3 (ix1 e) := fun e => by
    rw [val_main_v22_apply, show idx_main_v22 (ixP e) = ix1 e from idx1_ext _ _ rfl]
  unfold val_main_v23 Host.scatterAdd
  rw [Ideal.hostScatterAdd_def, Cert.Segment.hostScatterAdd_rows _ rfl rfl rfl rfl,
    val_main_v21_apply, val_main_cst_4_apply, Ideal.ofBits_def, Ideal.ofBits_zero_f32]
  unfold Cert.Spec.refAggCopy
  exact congrArg (fun s : EReal => 0 + s) (Finset.sum_congr (Finset.filter_congr fun e _ => by rw [hf])
    fun e _ => gather_at x0 x2 hsrc e d)

/-! ## The two means -/

/-- The first divisor, broadcast along the features. -/
theorem denMul_at (x3 : (⟨S640000, .i32⟩ : BufTy).Contents (Elt Ideal)) (n : Fin 10000) (d : Fin 128) :
    Read.val_main_v19 (F := Ideal) x3 (ix2 n d) = denMul x3 n := by
  rw [val_main_v19_apply, val_main_v18_apply,
    show idx_main_v18 (idx_main_v19 (ix2 n d)) = ix1 n from idx1_ext _ _ rfl]
  rfl

/-- The second divisor, broadcast along the features. -/
theorem denCopy_at (x3 : (⟨S640000, .i32⟩ : BufTy).Contents (Elt Ideal)) (n : Fin 10000) (d : Fin 128) :
    Read.val_main_v31 (F := Ideal) x3 (ix2 n d) = denCopy x3 n := by
  rw [val_main_v31_apply, val_main_v30_apply,
    show idx_main_v30 (idx_main_v31 (ix2 n d)) = ix1 n from idx1_ext _ _ rfl]
  rfl

/-- The weighted mean aggregate at (n, d). -/
theorem meanMul_at (x0 : (⟨S10000x128, .f32⟩ : BufTy).Contents (Elt Ideal)) (x1 : (⟨S640000x1, .f32⟩ : BufTy).Contents (Elt Ideal)) (x2 x3 : (⟨S640000, .i32⟩ : BufTy).Contents (Elt Ideal)) (hsrc : ∀ R : Fin 640000, 0 ≤ (x2 (ix1 R)).toInt ∧ (x2 (ix1 R)).toInt < 10000) (n : Fin 10000) (d : Fin 128) :
    Read.val_main_v20 (F := Ideal) x0 x1 x2 x3 (ix2 n d) = FloatOps.hostDivf (F := Ideal) (φ := .f32) (Cert.Spec.refAggMul (fun n d => x0 (ix2 n d)) (fun R => x2 (ix1 R)) (fun R => x3 (ix1 R)) (fun R => x1 (ix2 R 0)) n d) (denMul x3 n) := by
  rw [val_main_v20_apply, aggMul_at x0 x1 x2 x3 hsrc, denMul_at]

/-- The plain mean aggregate at (n, d). -/
theorem meanCopy_at (x0 : (⟨S10000x128, .f32⟩ : BufTy).Contents (Elt Ideal)) (x2 x3 : (⟨S640000, .i32⟩ : BufTy).Contents (Elt Ideal)) (hsrc : ∀ R : Fin 640000, 0 ≤ (x2 (ix1 R)).toInt ∧ (x2 (ix1 R)).toInt < 10000) (n : Fin 10000) (d : Fin 128) :
    Read.val_main_v32 (F := Ideal) x0 x2 x3 (ix2 n d) = FloatOps.hostDivf (F := Ideal) (φ := .f32) (Cert.Spec.refAggCopy (fun n d => x0 (ix2 n d)) (fun R => x2 (ix1 R)) (fun R => x3 (ix1 R)) n d) (denCopy x3 n) := by
  rw [val_main_v32_apply, aggCopy_at x0 x2 x3 hsrc, denCopy_at]

/-! ## The three affine maps at (n, k) -/

/-- The node's own features through the first map. -/
theorem self_at (x0 : (⟨S10000x128, .f32⟩ : BufTy).Contents (Elt Ideal)) (x4 : (⟨S128x128, .f32⟩ : BufTy).Contents (Elt Ideal)) (x5 : (⟨S128, .f32⟩ : BufTy).Contents (Elt Ideal)) (n : Fin 10000) (k : Fin 128) :
    Read.val_main_v37 (F := Ideal) x0 x4 x5 (ix2 n k) = (∑ d : Fin 128, x0 (ix2 n d) * x4 (ix2 k d)) + x5 (ix1 k) := by
  rw [val_main_v37_apply, val_main_v34_apply, val_main_v36_apply, val_main_v35_apply, Ideal.addf_def,
    show idx_main_v35 (idx_main_v36 (ix2 n k)) = ix1 k from idx1_ext _ _ rfl]
  refine congrArg (fun s : EReal => s + x5 (ix1 k)) (Finset.sum_congr rfl fun d _ => ?_)
  rw [val_main_v33_apply, show lidx_main_v34 (ix2 n k) d = ix2 n d from idx2_ext _ _ rfl rfl,
    show idx_main_v33 (ridx_main_v34 (ix2 n k) d) = ix2 k d from idx2_ext _ _ rfl rfl]

/-- The weighted mean aggregate through the second map. -/
theorem nbr_at (x0 : (⟨S10000x128, .f32⟩ : BufTy).Contents (Elt Ideal)) (x1 : (⟨S640000x1, .f32⟩ : BufTy).Contents (Elt Ideal)) (x2 x3 : (⟨S640000, .i32⟩ : BufTy).Contents (Elt Ideal)) (x6 : (⟨S128x128, .f32⟩ : BufTy).Contents (Elt Ideal)) (x7 : (⟨S128, .f32⟩ : BufTy).Contents (Elt Ideal)) (hsrc : ∀ R : Fin 640000, 0 ≤ (x2 (ix1 R)).toInt ∧ (x2 (ix1 R)).toInt < 10000) (n : Fin 10000) (k : Fin 128) :
    Read.val_main_v42 (F := Ideal) x0 x1 x2 x3 x6 x7 (ix2 n k)
      = (∑ d : Fin 128, FloatOps.hostDivf (F := Ideal) (φ := .f32) (Cert.Spec.refAggMul (fun n d => x0 (ix2 n d)) (fun R => x2 (ix1 R)) (fun R => x3 (ix1 R)) (fun R => x1 (ix2 R 0)) n d) (denMul x3 n) * x6 (ix2 k d)) + x7 (ix1 k) := by
  rw [val_main_v42_apply, val_main_v39_apply, val_main_v41_apply, val_main_v40_apply, Ideal.addf_def,
    show idx_main_v40 (idx_main_v41 (ix2 n k)) = ix1 k from idx1_ext _ _ rfl]
  refine congrArg (fun s : EReal => s + x7 (ix1 k)) (Finset.sum_congr rfl fun d _ => ?_)
  rw [val_main_v38_apply, show lidx_main_v39 (ix2 n k) d = ix2 n d from idx2_ext _ _ rfl rfl,
    show idx_main_v38 (ridx_main_v39 (ix2 n k) d) = ix2 k d from idx2_ext _ _ rfl rfl,
    meanMul_at x0 x1 x2 x3 hsrc]

/-- The plain mean aggregate through the third map. -/
theorem upd_at (x0 : (⟨S10000x128, .f32⟩ : BufTy).Contents (Elt Ideal)) (x2 x3 : (⟨S640000, .i32⟩ : BufTy).Contents (Elt Ideal)) (x8 : (⟨S128x128, .f32⟩ : BufTy).Contents (Elt Ideal)) (x9 : (⟨S128, .f32⟩ : BufTy).Contents (Elt Ideal)) (hsrc : ∀ R : Fin 640000, 0 ≤ (x2 (ix1 R)).toInt ∧ (x2 (ix1 R)).toInt < 10000) (n : Fin 10000) (k : Fin 128) :
    Read.val_main_v48 (F := Ideal) x0 x2 x3 x8 x9 (ix2 n k)
      = (∑ d : Fin 128, FloatOps.hostDivf (F := Ideal) (φ := .f32) (Cert.Spec.refAggCopy (fun n d => x0 (ix2 n d)) (fun R => x2 (ix1 R)) (fun R => x3 (ix1 R)) n d) (denCopy x3 n) * x8 (ix2 k d)) + x9 (ix1 k) := by
  rw [val_main_v48_apply, val_main_v45_apply, val_main_v47_apply, val_main_v46_apply, Ideal.addf_def,
    show idx_main_v46 (idx_main_v47 (ix2 n k)) = ix1 k from idx1_ext _ _ rfl]
  refine congrArg (fun s : EReal => s + x9 (ix1 k)) (Finset.sum_congr rfl fun d _ => ?_)
  rw [val_main_v44_apply, show lidx_main_v45 (ix2 n k) d = ix2 n d from idx2_ext _ _ rfl rfl,
    show idx_main_v44 (ridx_main_v45 (ix2 n k) d) = ix2 k d from idx2_ext _ _ rfl rfl,
    meanCopy_at x0 x2 x3 hsrc]

/-! ## The result -/

theorem ref_value (x0 : (⟨S10000x128, .f32⟩ : BufTy).Contents (Elt Ideal)) (x1 : (⟨S640000x1, .f32⟩ : BufTy).Contents (Elt Ideal)) (x2 x3 : (⟨S640000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (hsrc : ∀ R : Fin 640000, 0 ≤ (x2 (ix1 R)).toInt ∧ (x2 (ix1 R)).toInt < 10000) (n : Fin 10000) (o : Fin 128) :
    Read.val_main_v54 (F := Ideal) x0 x1 x2 x3 x4 x5 x6 x7 x8 x9 x10 x11 (ix2 n o)
      = Cert.Spec.combine (fun n d => x0 (ix2 n d))
          (fun n d => FloatOps.hostDivf (F := Ideal) (φ := .f32) (Cert.Spec.refAggMul (fun n d => x0 (ix2 n d)) (fun R => x2 (ix1 R)) (fun R => x3 (ix1 R)) (fun R => x1 (ix2 R 0)) n d) (denMul x3 n))
          (fun n d => FloatOps.hostDivf (F := Ideal) (φ := .f32) (Cert.Spec.refAggCopy (fun n d => x0 (ix2 n d)) (fun R => x2 (ix1 R)) (fun R => x3 (ix1 R)) n d) (denCopy x3 n))
          (fun d k => x4 (ix2 k d)) (fun d k => x6 (ix2 k d)) (fun d k => x8 (ix2 k d)) (fun d k => x10 (ix2 k d))
          (fun k => x5 (ix1 k)) (fun k => x7 (ix1 k)) (fun k => x9 (ix1 k)) (fun k => x11 (ix1 k)) n o := by
  rw [val_main_v54_apply, val_main_v51_apply, val_main_v53_apply, val_main_v52_apply, Ideal.addf_def,
    show idx_main_v52 (idx_main_v53 (ix2 n o)) = ix1 o from idx1_ext _ _ rfl]
  unfold Cert.Spec.combine
  refine congrArg (fun s : EReal => s + x11 (ix1 o)) (Finset.sum_congr rfl fun k _ => ?_)
  rw [val_main_v50_apply, show lidx_main_v51 (ix2 n o) k = ix2 n k from idx2_ext _ _ rfl rfl,
    show idx_main_v50 (ridx_main_v51 (ix2 n o) k) = ix2 o k from idx2_ext _ _ rfl rfl,
    val_main_v49_apply, val_main_v43_apply, self_at, nbr_at x0 x1 x2 x3 x6 x7 hsrc, upd_at x0 x2 x3 x8 x9 hsrc,
    Ideal.addf_def, Ideal.addf_def]

end Cert.ReferenceIdeal.RefValue

end
-- ==== Proof.Bridge.lean ====
/-
  The one-hot form and the gather / scatter form of the two aggregates agree, for source words that are node
  numbers: summing, over both halves of the edges, the messages of the edges whose destination word is the node
  is the scatter-add's sum over the edges whose destination, read signed, is the node; and picking a source row
  by a one-hot sum over the zero-padded table is reading that row.
-/
import proofs.«401586_j49615462203743_3_alg».proof.Proof.Spec
import Mathlib.Algebra.BigOperators.Fin

noncomputable section

open scoped BigOperators

namespace Cert.Spec

/-! ## Words and numbers -/

/-- A word whose signed reading is at least 0 and below 10000 has that same unsigned reading. -/
theorem toNat_of_toInt_range (s : BitVec 32) (h0 : 0 ≤ s.toInt) (h1 : s.toInt < 10000) :
    s.toNat < 10000 ∧ s.toInt = (s.toNat : ℤ) := by
  have hc := BitVec.toInt_eq_toNat_cond s
  have hl := s.isLt
  split at hc <;> omega

/-- Below 2 ^ 32 a word is the word of a number exactly when its unsigned reading is that number. -/
theorem eq_ofNat_iff_toNat (s : BitVec 32) (k : ℕ) (hk : k < 2 ^ 32) :
    s = BitVec.ofNat 32 k ↔ s.toNat = k := by
  constructor
  · intro hs
    rw [hs, BitVec.toNat_ofNat, Nat.mod_eq_of_lt hk]
  · intro hs
    apply BitVec.eq_of_toNat_eq
    rw [BitVec.toNat_ofNat, Nat.mod_eq_of_lt hk, hs]

/-- For a number below 2 ^ 31 a word is its word exactly when the word's signed reading is the number. -/
theorem eq_ofNat_iff_toInt (s : BitVec 32) (k : ℕ) (hk : k < 2 ^ 31) :
    s = BitVec.ofNat 32 k ↔ s.toInt = (k : ℤ) := by
  rw [eq_ofNat_iff_toNat s k (by omega)]
  have hc := BitVec.toInt_eq_toNat_cond s
  have hl := s.isLt
  constructor
  · intro hs
    split at hc <;> omega
  · intro hs
    split at hc <;> omega

/-! ## The one-hot pick is the gather -/

/-- Picking a row of the zero-padded table by a one-hot sum reads the node table's row, for a word that is a node
    number. -/
theorem rows_padRows (h : Fin 10000 → Fin 128 → EReal) (s : BitVec 32) (h0 : 0 ≤ s.toInt)
    (h1 : s.toInt < 10000) (d : Fin 128) :
    rows (padRows h) s d = gatherRow h s d := by
  obtain ⟨hlt, hInt⟩ := toNat_of_toInt_range s h0 h1
  have hnat : s.toInt.toNat = s.toNat := by omega
  unfold rows
  rw [Finset.sum_eq_single (⟨s.toNat, by omega⟩ : Fin 10240)]
  · have hs : s = BitVec.ofNat 32 s.toNat := (eq_ofNat_iff_toNat s s.toNat s.isLt).2 rfl
    rw [if_pos hs]
    unfold padRows gatherRow
    rw [dif_pos hlt]
    congr 1
    apply Fin.ext
    show s.toNat = min s.toInt.toNat 9999
    omega
  · intro b _ hb
    rw [if_neg]
    intro hs
    apply hb
    apply Fin.ext
    have := (eq_ofNat_iff_toNat s b.val (by have := b.isLt; omega)).1 hs
    exact this.symm
  · intro hn
    exact absurd (Finset.mem_univ _) hn

/-! ## The two halves are the whole -/

/-- A sum over the first c = a + b numbers splits into the sum over the first a and the sum over the next b. -/
theorem sum_split_of_eq {M : Type*} [AddCommMonoid M] (a b c : ℕ) (hc : c = a + b) (f : Fin c → M) :
    (∑ R : Fin c, f R)
      = (∑ i : Fin a, f ⟨i.val, by have := i.isLt; omega⟩)
        + ∑ i : Fin b, f ⟨a + i.val, by have := i.isLt; omega⟩ := by
  subst hc
  rw [Fin.sum_univ_add]
  rfl

/-- A sum over all edges splits into the sums over the two cores' halves. -/
theorem sum_halves (f : Fin 640000 → EReal) :
    (∑ r : Fin 320000, f (edgeOf 0 r)) + (∑ r : Fin 320000, f (edgeOf 1 r)) = ∑ R : Fin 640000, f R := by
  rw [sum_split_of_eq 320000 320000 640000 (by norm_num) f]
  have h0 : ∀ r : Fin 320000, edgeOf 0 r = (⟨r.val, by have := r.isLt; omega⟩ : Fin 640000) := by
    intro r
    apply Fin.ext
    simp only [edgeOf]
    simp
  have h1 : ∀ r : Fin 320000, edgeOf 1 r = (⟨320000 + r.val, by have := r.isLt; omega⟩ : Fin 640000) := by
    intro r
    apply Fin.ext
    simp only [edgeOf]
    simp
  simp only [h0, h1]

variable (h : Fin 10000 → Fin 128 → EReal) (src dst : Fin 640000 → BitVec 32) (e : Fin 640000 → EReal)

/-- The weighted aggregate: the two cores' partial sums, first 128 columns, against the scatter-add's sum. -/
theorem partial_add_mul (hsrc : ∀ R : Fin 640000, 0 ≤ (src R).toInt ∧ (src R).toInt < 10000) (n : Fin 10000) (d : Fin 128) :
    partialSum (padRows h) src dst e 0 ⟨n.val, by omega⟩ ⟨d.val, by omega⟩
      + partialSum (padRows h) src dst e 1 ⟨n.val, by omega⟩ ⟨d.val, by omega⟩
      = refAggMul h src dst e n d := by
  unfold partialSum refAggMul
  rw [zero_add, Finset.sum_filter]
  rw [sum_halves (fun R => if dst R = BitVec.ofNat 32 n.val
      then msg (padRows h) (src R) (e R) (⟨d.val, by omega⟩ : Fin 256) else 0)]
  apply Finset.sum_congr rfl
  intro R _
  have hiff := eq_ofNat_iff_toInt (dst R) n.val (by have := n.isLt; omega)
  by_cases hd : (dst R).toInt = (n.val : ℤ)
  · rw [if_pos (hiff.2 hd), if_pos hd]
    unfold msg
    rw [dif_pos (show (⟨d.val, by omega⟩ : Fin 256).val < 128 from d.isLt)]
    rw [rows_padRows h (src R) (hsrc R).1 (hsrc R).2]
  · rw [if_neg (fun hx => hd (hiff.1 hx)), if_neg hd]

/-- The plain aggregate: the last 128 columns. -/
theorem partial_add_copy (hsrc : ∀ R : Fin 640000, 0 ≤ (src R).toInt ∧ (src R).toInt < 10000) (n : Fin 10000) (d : Fin 128) :
    partialSum (padRows h) src dst e 0 ⟨n.val, by omega⟩ ⟨d.val + 128, by omega⟩
      + partialSum (padRows h) src dst e 1 ⟨n.val, by omega⟩ ⟨d.val + 128, by omega⟩
      = refAggCopy h src dst n d := by
  unfold partialSum refAggCopy
  rw [zero_add, Finset.sum_filter]
  rw [sum_halves (fun R => if dst R = BitVec.ofNat 32 n.val
      then msg (padRows h) (src R) (e R) (⟨d.val + 128, by omega⟩ : Fin 256) else 0)]
  apply Finset.sum_congr rfl
  intro R _
  have hiff := eq_ofNat_iff_toInt (dst R) n.val (by have := n.isLt; omega)
  by_cases hd : (dst R).toInt = (n.val : ℤ)
  · rw [if_pos (hiff.2 hd), if_pos hd]
    unfold msg
    rw [dif_neg (show ¬ (⟨d.val + 128, by omega⟩ : Fin 256).val < 128 from by
      show ¬ d.val + 128 < 128
      omega)]
    have hfin : (⟨(⟨d.val + 128, by omega⟩ : Fin 256).val - 128, by
        show d.val + 128 - 128 < 128
        have := d.isLt
        omega⟩ : Fin 128) = d := by
      apply Fin.ext
      show d.val + 128 - 128 = d.val
      omega
    rw [hfin]
    rw [rows_padRows h (src R) (hsrc R).1 (hsrc R).2]
  · rw [if_neg (fun hx => hd (hiff.1 hx)), if_neg hd]

end Cert.Spec

end
-- ==== Proof.PreRange.lean ====
/-
  The precondition's last conjunct, decoded: every source word, read signed, is a node number.
-/
import proofs.«401586_j49615462203743_3_alg».proof.Defs
import proofs.«401586_j49615462203743_3_alg».proof.Proof.Gen.Pre_finite_inputs
import Idealize.ShloMosaic.Lib.StableHlo.Predicate
import Idealize.ShloMosaic.Lib.ReduceAll
import Idealize.ShloMosaic.Lib.ValueIdx

noncomputable section

namespace Cert.PreRange

open Idealize.ShloMosaic Idealize.ShloMosaic.TcCoe Idealize.SL.Sem Idealize.ShloMosaic.ValueIdx

/-- The rank-0 shape has one index. -/
theorem subsingleton_scalar_idx : Subsingleton Cert.Pre_finite_inputs.S_.Idx :=
  ⟨fun a b => funext fun d => d.elim0⟩

/-- The word 0 reads 0 signed. -/
theorem toInt_zero32 : (0#32 : BitVec 32).toInt = 0 := by decide

/-- The word 10000 reads 10000 signed. -/
theorem toInt_tenk32 : (10000#32 : BitVec 32).toInt = 10000 := by decide

/-- From the printed precondition at `Ideal`: each source word lies in [0, 10000). -/
theorem src_range [hPre : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) (R : Fin 640000) :
    0 ≤ ((m ((c.tc : Thread Cert.KernelIdeal.nD Cert.KernelIdeal.τ).loc Cert.KernelIdeal.main_arg2) : Cert.KernelIdeal.S640000.Idx → BitVec 32) (ix1 R)).toInt
      ∧ ((m ((c.tc : Thread Cert.KernelIdeal.nD Cert.KernelIdeal.τ).loc Cert.KernelIdeal.main_arg2) : Cert.KernelIdeal.S640000.Idx → BitVec 32) (ix1 R)).toInt < 10000 := by
  haveI := subsingleton_scalar_idx
  -- the predicate's one entry is 1
  have h := congrFun (hm c) ValueIdx.ix0
  dsimp only [Cert.Pre_finite_inputs.fn, Cert.Pre_finite_inputs.fn_part1, Cert.Pre_finite_inputs.fn_part2,
    Cert.Pre_finite_inputs.fn_part3] at h
  -- its last conjunct: the conjunction over all 640000 entries of (0 ≤ src) ∧ (src < 10000)
  have hall := (IntOp.andi_eq_one.1 h).2
  -- at entry R
  have hR := Host.reduce_andi_all _ _ _ _ _ hall (ix1 R)
  obtain ⟨hge, hlt⟩ := IntOp.andi_eq_one.1 hR
  -- each compare is against a constant laid over all entries
  have h0 := IntOp.cmpi_sge.1 hge
  have h1 := IntOp.cmpi_slt.1 hlt
  refine ⟨?_, ?_⟩
  · rw [← toInt_zero32]; exact h0
  · rw [← toInt_tenk32]; exact h1

end Cert.PreRange

end
-- ==== Proof.lean ====
/-
  A graph message-passing layer: every edge carries its source node's feature row, once weighted by the edge
  weight and once plain; every node takes the mean of the rows of the edges that end in it (zero for an isolated
  node: the divisor is the degree clamped below by one); three affine maps of the node's own features and of the
  two means are added and a fourth affine map is applied.

  The reference gathers the source rows and scatter-adds them. The kernel picks a source row by a one-hot matrix
  product over the node table padded with zero rows, and adds the rows into their destinations by a second one-hot
  matrix product, block of 1280 edges by block, each of the two cores summing its half of the edges into a running
  sum; the two partial sums are then added. Over the extended reals a one-hot product is the picked row (zero times
  anything is zero) and a sum may be regrouped freely, so the two programs agree — provided every source word is a
  node number: for a source word outside the table the reference's gather clamps into the table while the one-hot
  product yields a zero row. The precondition therefore asks, besides finite float inputs (which this proof does
  not use), that 0 ≤ src < 10000. A destination word outside the table is dropped by both programs alike.

  The frames: each program runs to the end without a fault and leaves its arguments as launched. For the kernel
  programs this is the run of @main as six segments (host operations, the aggregation call, host operations, the
  combine call), the aggregation call's running sum carried from grid point to grid point in its invariant; for
  the reference it is its run with the result dropped.
-/
import proofs.«401586_j49615462203743_3_alg».proof.Defs
import proofs.«401586_j49615462203743_3_alg».proof.Proof.Gen.Kernel
import proofs.«401586_j49615462203743_3_alg».proof.Proof.Gen.KernelIdeal
import proofs.«401586_j49615462203743_3_alg».proof.Proof.Gen.ReferenceIdeal
import proofs.«401586_j49615462203743_3_alg».proof.Proof.Gen.Pre_finite_inputs
import proofs.«401586_j49615462203743_3_alg».proof.Proof.Gen.ReferenceIdeal.Run
import proofs.«401586_j49615462203743_3_alg».proof.Proof.Gen.ReferenceIdeal.Read
import proofs.«401586_j49615462203743_3_alg».proof.Proof.Whole.Value
import proofs.«401586_j49615462203743_3_alg».proof.Proof.Whole.Den
import proofs.«401586_j49615462203743_3_alg».proof.Proof.Bits.Whole.Run
import proofs.«401586_j49615462203743_3_alg».proof.Proof.RefValue
import proofs.«401586_j49615462203743_3_alg».proof.Proof.Bridge
import proofs.«401586_j49615462203743_3_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_k : Cert.frame_Kernel := fun m ρ _ => Cert.Kernel.Whole.frame_all (F := Bits) m ρ
theorem frame_ki : Cert.frame_KernelIdeal := fun m ρ _ => Cert.KernelIdeal.Whole.frame_all (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The two results are one function of the arguments -/

section Result

variable (m : (ℓ : Loc Cert.KernelIdeal.nD Cert.KernelIdeal.τ Cert.KernelIdeal.sig) → Buf (Elt Ideal) ℓ)
  (ρ : Dev Cert.KernelIdeal.nD → PrngReg)

/-- The divisor of the first mean is the same degree computation in both programs. -/
theorem den_mul_eq (c : Dev Cert.KernelIdeal.nD) (n : Fin 10000) :
    Cert.ReferenceIdeal.RefValue.denMul (m ((c.tc : Thread Cert.KernelIdeal.nD Cert.KernelIdeal.τ).loc Cert.KernelIdeal.main_arg3)) n = Cert.KernelIdeal.Whole.denK m ρ c n := by
  rw [Cert.KernelIdeal.Whole.denK_eq]; rfl

/-- And of the second. -/
theorem den_copy_eq (c : Dev Cert.KernelIdeal.nD) (n : Fin 10000) :
    Cert.ReferenceIdeal.RefValue.denCopy (m ((c.tc : Thread Cert.KernelIdeal.nD Cert.KernelIdeal.τ).loc Cert.KernelIdeal.main_arg3)) n = Cert.KernelIdeal.Whole.denK m ρ c n := by
  rw [Cert.KernelIdeal.Whole.denK_eq]; rfl

/-- The reference's result term of the kernel's arguments is the kernel's result array. -/
theorem result_eq (hpre : Cert.Pre_KernelIdeal m) (c : Dev Cert.KernelIdeal.nD) :
    Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Whole.W6 m ρ c (Proc.devRef .tc Cert.KernelIdeal.main_v31) := by
  funext idx
  obtain ⟨n, o, rfl⟩ : ∃ (n : Fin 10000) (o : Fin 128), idx = ix2 n o := ⟨idx 0, idx 1, eq_ix2 idx⟩
  have hsrc := fun R : Fin 640000 => Cert.PreRange.src_range m hpre c R
  rw [Cert.ReferenceIdeal.RefValue.ref_value _ _ _ _ _ _ _ _ _ _ _ _ hsrc n o]
  refine Eq.trans ?_ (Cert.KernelIdeal.Whole.kernel_value m ρ c n o).symm
  have hp : (fun (n : Fin 10000) (d : Fin 128) => FloatOps.hostDivf (F := Ideal) (φ := .f32)
        (Cert.Spec.refAggMul (fun n d => (m ((c.tc : Thread Cert.KernelIdeal.nD Cert.KernelIdeal.τ).loc Cert.KernelIdeal.main_arg0)) (ix2 n d)) (fun R => (m ((c.tc : Thread Cert.KernelIdeal.nD Cert.KernelIdeal.τ).loc Cert.KernelIdeal.main_arg2)) (ix1 R)) (fun R => (m ((c.tc : Thread Cert.KernelIdeal.nD Cert.KernelIdeal.τ).loc Cert.KernelIdeal.main_arg3)) (ix1 R)) (fun R => (m ((c.tc : Thread Cert.KernelIdeal.nD Cert.KernelIdeal.τ).loc Cert.KernelIdeal.main_arg1)) (ix2 R 0)) n d)
        (Cert.ReferenceIdeal.RefValue.denMul (m ((c.tc : Thread Cert.KernelIdeal.nD Cert.KernelIdeal.τ).loc Cert.KernelIdeal.main_arg3)) n)) = _ :=
    funext fun n => funext fun d => by
      rw [← Cert.Spec.partial_add_mul _ _ _ _ hsrc n d, den_mul_eq m ρ c n]
  have hu : (fun (n : Fin 10000) (d : Fin 128) => FloatOps.hostDivf (F := Ideal) (φ := .f32)
        (Cert.Spec.refAggCopy (fun n d => (m ((c.tc : Thread Cert.KernelIdeal.nD Cert.KernelIdeal.τ).loc Cert.KernelIdeal.main_arg0)) (ix2 n d)) (fun R => (m ((c.tc : Thread Cert.KernelIdeal.nD Cert.KernelIdeal.τ).loc Cert.KernelIdeal.main_arg2)) (ix1 R)) (fun R => (m ((c.tc : Thread Cert.KernelIdeal.nD Cert.KernelIdeal.τ).loc Cert.KernelIdeal.main_arg3)) (ix1 R)) n d)
        (Cert.ReferenceIdeal.RefValue.denCopy (m ((c.tc : Thread Cert.KernelIdeal.nD Cert.KernelIdeal.τ).loc Cert.KernelIdeal.main_arg3)) n)) = _ :=
    funext fun n => funext fun d => by
      rw [← Cert.Spec.partial_add_copy _ _ _ (fun R => (m ((c.tc : Thread Cert.KernelIdeal.nD Cert.KernelIdeal.τ).loc Cert.KernelIdeal.main_arg1)) (ix2 R 0)) hsrc n d, den_copy_eq m ρ c n]
  rw [hp, hu]

end Result

/-! ## The claims -/

/-- At the ideal instance both programs run, from memories agreeing on the arguments, to equal results. -/
theorem algebraic : Cert.algebraic_KernelIdeal_ReferenceIdeal := by
  intro m ρ m' ρ' hpre hagree
  refine ⟨fun c => Cert.KernelIdeal.Whole.W6 m ρ c (Proc.devRef .tc Cert.KernelIdeal.main_v31),
    Cert.KernelIdeal.Whole.value_all (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact result_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
